-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S97280x192 : Shape := ⟨2, ![97280, 192]⟩
abbrev S5120x128 : Shape := ⟨2, ![5120, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S192x128 : Shape := ⟨2, ![192, 128]⟩
abbrev S128x256 : Shape := ⟨2, ![128, 256]⟩
abbrev S256 : Shape := ⟨1, ![256]⟩
abbrev S97280 : Shape := ⟨1, ![97280]⟩
abbrev S5120 : Shape := ⟨1, ![5120]⟩
abbrev S_ : Shape := ⟨0, ![]⟩

class Facts : Prop where
  bcast_S_S97280x192 : S_.BroadcastsInDim S97280x192 (![] : Fin 0 → Fin S97280x192.rank)
  reducesTo_S97280x192_S_d0_1 : S97280x192.ReducesTo [0, 1] S_
  h_S_ : 0 < S_.numel
  bcast_S_S5120x128 : S_.BroadcastsInDim S5120x128 (![] : Fin 0 → Fin S5120x128.rank)
  reducesTo_S5120x128_S_d0_1 : S5120x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S192x128 : S_.BroadcastsInDim S192x128 (![] : Fin 0 → Fin S192x128.rank)
  reducesTo_S192x128_S_d0_1 : S192x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S5120 : S_.BroadcastsInDim S5120 (![] : Fin 0 → Fin S5120.rank)
  reducesTo_S5120_S_d0 : S5120.ReducesTo [0] S_

variable [Facts]

def fn_part4 {F : FTy → Type} [FloatOps F] (main_arg14 : FVec F S256 .f32) (main_arg18 : IVec S5120 32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_c_28 : IVec S_ 32 := constantI S_ 32 0#32
  let main_v74 : IVec S5120 32 := broadcastInDim S5120 ![] bcast_S_S5120 main_c_28
  let main_v75 : IVec S5120 1 := cmpi .sge main_arg18 main_v74
  let main_c_29 : IVec S_ 32 := constantI S_ 32 16#32
  let main_v76 : IVec S5120 32 := broadcastInDim S5120 ![] bcast_S_S5120 main_c_29
  let main_v77 : IVec S5120 1 := cmpi .slt main_arg18 main_v76
  let main_v78 : IVec S5120 1 := andi main_v75 main_v77
  let main_c_30 : IVec S_ 1 := constantI S_ 1 1#1
  let main_v79 : IVec S_ 1 := (fun x v => Host.reduce IntOp.andi x v reducesTo_S5120_S_d0 h_S_) main_v78 main_c_30
  let main_v80 : IVec S_ 1 := andi main_v73 main_v79
  main_v80

def fn_part3 {F : FTy → Type} [FloatOps F] (main_arg11 : FVec F S128x128 .f32) (main_arg12 : FVec F S128 .f32) (main_arg13 : FVec F S128x256 .f32) (main_arg14 : FVec F S256 .f32) (main_arg18 : IVec S5120 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg18 main_v63 main_v67

def fn_part2 {F : FTy → Type} [FloatOps F] (main_arg7 : FVec F S128x16 .f32) (main_arg8 : FVec F S16 .f32) (main_arg9 : FVec F S192x128 .f32) (main_arg10 : FVec F S128 .f32) (main_arg11 : FVec F S128x128 .f32) (main_arg12 : FVec F S128 .f32) (main_arg13 : FVec F S128x256 .f32) (main_arg14 : FVec F S256 .f32) (main_arg18 : IVec S5120 32) (main_v33 : IVec S_ 1) : IVec S_ 1 :=
  let main_v34 : FVec F S128x16 .f32 := Host.absf main_arg7
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S192x128 .f32 := Host.absf main_arg9
  let main_cst_16 : FVec F S_ .f32 := constant S_ .f32 0x7F800000#32
  let main_v45 : FVec F S192x128 .f32 := broadcastInDim S192x128 ![] bcast_S_S192x128 main_cst_16
  let main_v46 : IVec S192x128 1 := cmpf .olt main_v44 main_v45
  let main_c_17 : IVec S_ 1 := constantI S_ 1 1#1
  let main_v47 : IVec S_ 1 := (fun x v => Host.reduce IntOp.andi x v reducesTo_S192x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg18 main_v48 main_v49 main_v50

def fn_part1 {F : FTy → Type} [FloatOps F] (main_arg4 : FVec F S128 .f32) (main_arg5 : FVec F S128x128 .f32) (main_arg6 : FVec F S128 .f32) (main_arg7 : FVec F S128x16 .f32) (main_arg8 : FVec F S16 .f32) (main_arg9 : FVec F S192x128 .f32) (main_arg10 : FVec F S128 .f32) (main_arg11 : FVec F S128x128 .f32) (main_arg12 : FVec F S128 .f32) (main_arg13 : FVec F S128x256 .f32) (main_arg14 : FVec F S256 .f32) (main_arg18 : IVec S5120 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg18 main_v33

def fn {F : FTy → Type} [FloatOps F] (main_arg0 : FVec F S97280x192 .f32) (main_arg1 : FVec F S5120x128 .f32) (main_arg2 : FVec F S97280x192 .f32) (main_arg3 : FVec F S128x128 .f32) (main_arg4 : FVec F S128 .f32) (main_arg5 : FVec F S128x128 .f32) (main_arg6 : FVec F S128 .f32) (main_arg7 : FVec F S128x16 .f32) (main_arg8 : FVec F S16 .f32) (main_arg9 : FVec F S192x128 .f32) (main_arg10 : FVec F S128 .f32) (main_arg11 : FVec F S128x128 .f32) (main_arg12 : FVec F S128 .f32) (main_arg13 : FVec F S128x256 .f32) (main_arg14 : FVec F S256 .f32) (main_arg15 : IVec S97280 32) (main_arg16 : IVec S97280 32) (main_arg17 : IVec S5120 32) (main_arg18 : IVec S5120 32) : IVec S_ 1 :=
  let main_v0 : FVec F S97280x192 .f32 := Host.absf main_arg0
  let main_cst : FVec F S_ .f32 := constant S_ .f32 0x7F800000#32
  let main_v1 : FVec F S97280x192 .f32 := broadcastInDim S97280x192 ![] bcast_S_S97280x192 main_cst
  let main_v2 : IVec S97280x192 1 := cmpf .olt main_v0 main_v1
  let main_c : IVec S_ 1 := constantI S_ 1 1#1
  let main_v3 : IVec S_ 1 := (fun x v => Host.reduce IntOp.andi x v reducesTo_S97280x192_S_d0_1 h_S_) main_v2 main_c
  let main_v4 : FVec F S5120x128 .f32 := Host.absf main_arg1
  let main_cst_0 : FVec F S_ .f32 := constant S_ .f32 0x7F800000#32
  let main_v5 : FVec F S5120x128 .f32 := broadcastInDim S5120x128 ![] bcast_S_S5120x128 main_cst_0
  let main_v6 : IVec S5120x128 1 := cmpf .olt main_v4 main_v5
  let main_c_1 : IVec S_ 1 := constantI S_ 1 1#1
  let main_v7 : IVec S_ 1 := (fun x v => Host.reduce IntOp.andi x v reducesTo_S5120x128_S_d0_1 h_S_) main_v6 main_c_1
  let main_v8 : IVec S_ 1 := andi main_v3 main_v7
  let main_v9 : FVec F S97280x192 .f32 := Host.absf main_arg2
  let main_cst_2 : FVec F S_ .f32 := constant S_ .f32 0x7F800000#32
  let main_v10 : FVec F S97280x192 .f32 := broadcastInDim S97280x192 ![] bcast_S_S97280x192 main_cst_2
  let main_v11 : IVec S97280x192 1 := cmpf .olt main_v9 main_v10
  let main_c_3 : IVec S_ 1 := constantI S_ 1 1#1
  let main_v12 : IVec S_ 1 := (fun x v => Host.reduce IntOp.andi x v reducesTo_S97280x192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg18 main_v13 main_v16
-- ==== Kernel.lean ====
abbrev S97280x192 : Shape := ⟨2, ![97280, 192]⟩
abbrev S5120x128 : Shape := ⟨2, ![5120, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S192x128 : Shape := ⟨2, ![192, 128]⟩
abbrev S128x256 : Shape := ⟨2, ![128, 256]⟩
abbrev S256 : Shape := ⟨1, ![256]⟩
abbrev S97280 : Shape := ⟨1, ![97280]⟩
abbrev S5120 : Shape := ⟨1, ![5120]⟩
abbrev S5120x16 : Shape := ⟨2, ![5120, 16]⟩
abbrev S1x128 : Shape := ⟨2, ![1, 128]⟩
abbrev S1x16 : Shape := ⟨2, ![1, 16]⟩
abbrev S_ : Shape := ⟨0, ![]⟩
abbrev S97280x1 : Shape := ⟨2, ![97280, 1]⟩
abbrev S97280x16 : Shape := ⟨2, ![97280, 16]⟩
abbrev S1024x192 : Shape := ⟨2, ![1024, 192]⟩
abbrev S1024x16 : Shape := ⟨2, ![1024, 16]⟩
abbrev S1024x128 : Shape := ⟨2, ![1024, 128]⟩
abbrev S1024x256 : Shape := ⟨2, ![1024, 256]⟩
abbrev S1x256 : Shape := ⟨2, ![1, 256]⟩
abbrev S1024x16x16 : Shape := ⟨3, ![1024, 16, 16]⟩
abbrev S1024x16x1 : Shape := ⟨3, ![1024, 16, 1]⟩
abbrev S1024x1x16 : Shape := ⟨3, ![1024, 1, 16]⟩
abbrev S5120x1 : Shape := ⟨2, ![5120, 1]⟩
abbrev S5120x1x1 : Shape := ⟨3, ![5120, 1, 1]⟩
abbrev S1 : Shape := ⟨1, ![1]⟩
abbrev S1x1x1 : Shape := ⟨3, ![1, 1, 1]⟩
abbrev S256x1 : Shape := ⟨2, ![256, 1]⟩
abbrev S5119 : Shape := ⟨1, ![5119]⟩

abbrev nBuf : Space → Nat
  | .hbm => 117
  | .vmem => 22
  | .smem => 0
  | _ => 0

abbrev bufTy : (tb : Table) → Fin (tcTables nBuf tb) → BufTy
  | .hbm, ⟨0, _⟩ => ⟨S97280x192, .f32⟩
  | .hbm, ⟨1, _⟩ => ⟨S5120x128, .f32⟩
  | .hbm, ⟨2, _⟩ => ⟨S97280x192, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S192x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S97280, .i32⟩
  | .hbm, ⟨16, _⟩ => ⟨S97280, .i32⟩
  | .hbm, ⟨17, _⟩ => ⟨S5120, .i32⟩
  | .hbm, ⟨18, _⟩ => ⟨S5120, .i32⟩
  | .hbm, ⟨19, _⟩ => ⟨S5120x16, .f32⟩
  | .hbm, ⟨20, _⟩ => ⟨S_, .i32⟩
  | .hbm, ⟨21, _⟩ => ⟨S97280, .i32⟩
  | .hbm, ⟨22, _⟩ => ⟨S97280, .i1⟩
  | .hbm, ⟨23, _⟩ => ⟨S_, .i32⟩
  | .hbm, ⟨24, _⟩ => ⟨S97280, .i32⟩
  | .hbm, ⟨25, _⟩ => ⟨S97280, .i32⟩
  | .hbm, ⟨26, _⟩ => ⟨S97280, .i32⟩
  | .hbm, ⟨27, _⟩ => ⟨S97280x1, .i32⟩
  | .hbm, ⟨28, _⟩ => ⟨S97280, .i32⟩
  | .hbm, ⟨29, _⟩ => ⟨S97280x1, .i32⟩
  | .hbm, ⟨30, _⟩ => ⟨S1x16, .i32⟩
  | .hbm, ⟨31, _⟩ => ⟨S97280x16, .i32⟩
  | .hbm, ⟨32, _⟩ => ⟨S97280x16, .i32⟩
  | .hbm, ⟨33, _⟩ => ⟨S97280x16, .i1⟩
  | .hbm, ⟨34, _⟩ => ⟨S97280x16, .f32⟩
  | .hbm, ⟨35, _⟩ => ⟨S97280x16, .f32⟩
  | .hbm, ⟨36, _⟩ => ⟨S_, .f32⟩
  | .hbm, ⟨37, _⟩ => ⟨S5120x16, .f32⟩
  | .hbm, ⟨38, _⟩ => ⟨S97280x1, .i32⟩
  | .hbm, ⟨39, _⟩ => ⟨S5120x16, .f32⟩
  | .hbm, ⟨40, _⟩ => ⟨S_, .f32⟩
  | .hbm, ⟨41, _⟩ => ⟨S5120x16, .f32⟩
  | .hbm, ⟨42, _⟩ => ⟨S5120x16, .f32⟩
  | .hbm, ⟨43, _⟩ => ⟨S5120x16, .f32⟩
  | .hbm, ⟨44, _⟩ => ⟨S5120x1, .i32⟩
  | .hbm, ⟨45, _⟩ => ⟨S_, .i32⟩
  | .hbm, ⟨46, _⟩ => ⟨S5120x1, .i32⟩
  | .hbm, ⟨47, _⟩ => ⟨S5120x1, .i1⟩
  | .hbm, ⟨48, _⟩ => ⟨S_, .i32⟩
  | .hbm, ⟨49, _⟩ => ⟨S5120x1, .i32⟩
  | .hbm, ⟨50, _⟩ => ⟨S5120x1, .i32⟩
  | .hbm, ⟨51, _⟩ => ⟨S5120x1, .i32⟩
  | .hbm, ⟨52, _⟩ => ⟨S5120x1x1, .i32⟩
  | .hbm, ⟨53, _⟩ => ⟨S1, .i32⟩
  | .hbm, ⟨54, _⟩ => ⟨S_, .i32⟩
  | .hbm, ⟨55, _⟩ => ⟨S5120x1x1, .i32⟩
  | .hbm, ⟨56, _⟩ => ⟨S5120x1x1, .i1⟩
  | .hbm, ⟨57, _⟩ => ⟨S1x1x1, .i32⟩
  | .hbm, ⟨58, _⟩ => ⟨S5120x1x1, .i32⟩
  | .hbm, ⟨59, _⟩ => ⟨S5120x1x1, .i1⟩
  | .hbm, ⟨60, _⟩ => ⟨S5120x1x1, .i1⟩
  | .hbm, ⟨61, _⟩ => ⟨S_, .i1⟩
  | .hbm, ⟨62, _⟩ => ⟨S5120x1, .i1⟩
  | .hbm, ⟨63, _⟩ => ⟨S5120x1, .f32⟩
  | .hbm, ⟨64, _⟩ => ⟨S_, .f32⟩
  | .hbm, ⟨65, _⟩ => ⟨S5120x1, .f32⟩
  | .hbm, ⟨66, _⟩ => ⟨S5120x1, .f32⟩
  | .hbm, ⟨67, _⟩ => ⟨S_, .f32⟩
  | .hbm, ⟨68, _⟩ => ⟨S256x1, .f32⟩
  | .hbm, ⟨69, _⟩ => ⟨S5120x1, .i32⟩
  | .hbm, ⟨70, _⟩ => ⟨S256x1, .f32⟩
  | .hbm, ⟨71, _⟩ => ⟨S_, .f32⟩
  | .hbm, ⟨72, _⟩ => ⟨S1, .f32⟩
  | .hbm, ⟨73, _⟩ => ⟨S5119, .i32⟩
  | .hbm, ⟨74, _⟩ => ⟨S5119, .i32⟩
  | .hbm, ⟨75, _⟩ => ⟨S5119, .i1⟩
  | .hbm, ⟨76, _⟩ => ⟨S5119, .f32⟩
  | .hbm, ⟨77, _⟩ => ⟨S5120, .f32⟩
  | .hbm, ⟨78, _⟩ => ⟨S5120x1, .f32⟩
  | .hbm, ⟨79, _⟩ => ⟨S5120x1, .i32⟩
  | .hbm, ⟨80, _⟩ => ⟨S_, .i32⟩
  | .hbm, ⟨81, _⟩ => ⟨S5120x1, .i32⟩
  | .hbm, ⟨82, _⟩ => ⟨S5120x1, .i1⟩
  | .hbm, ⟨83, _⟩ => ⟨S_, .i32⟩
  | .hbm, ⟨84, _⟩ => ⟨S5120x1, .i32⟩
  | .hbm, ⟨85, _⟩ => ⟨S5120x1, .i32⟩
  | .hbm, ⟨86, _⟩ => ⟨S5120x1, .i32⟩
  | .hbm, ⟨87, _⟩ => ⟨S5120x1x1, .i32⟩
  | .hbm, ⟨88, _⟩ => ⟨S1, .i32⟩
  | .hbm, ⟨89, _⟩ => ⟨S_, .i32⟩
  | .hbm, ⟨90, _⟩ => ⟨S5120x1x1, .i32⟩
  | .hbm, ⟨91, _⟩ => ⟨S5120x1x1, .i1⟩
  | .hbm, ⟨92, _⟩ => ⟨S1x1x1, .i32⟩
  | .hbm, ⟨93, _⟩ => ⟨S5120x1x1, .i32⟩
  | .hbm, ⟨94, _⟩ => ⟨S5120x1x1, .i1⟩
  | .hbm, ⟨95, _⟩ => ⟨S5120x1x1, .i1⟩
  | .hbm, ⟨96, _⟩ => ⟨S_, .i1⟩
  | .hbm, ⟨97, _⟩ => ⟨S5120x1, .i1⟩
  | .hbm, ⟨98, _⟩ => ⟨S5120x1, .f32⟩
  | .hbm, ⟨99, _⟩ => ⟨S_, .f32⟩
  | .hbm, ⟨100, _⟩ => ⟨S5120x1, .f32⟩
  | .hbm, ⟨101, _⟩ => ⟨S5120x1, .f32⟩
  | .hbm, ⟨102, _⟩ => ⟨S5120x1, .f32⟩
  | .hbm, ⟨103, _⟩ => ⟨S_, .i32⟩
  | .hbm, ⟨104, _⟩ => ⟨S97280, .i32⟩
  | .hbm, ⟨105, _⟩ => ⟨S97280, .i1⟩
  | .hbm, ⟨106, _⟩ => ⟨S_, .i32⟩
  | .hbm, ⟨107, _⟩ => ⟨S97280, .i32⟩
  | .hbm, ⟨108, _⟩ => ⟨S97280, .i32⟩
  | .hbm, ⟨109, _⟩ => ⟨S97280, .i32⟩
  | .hbm, ⟨110, _⟩ => ⟨S97280x1, .i32⟩
  | .hbm, ⟨111, _⟩ => ⟨S97280x1, .f32⟩
  | .hbm, ⟨112, _⟩ => ⟨S_, .f32⟩
  | .hbm, ⟨113, _⟩ => ⟨S5120x1, .f32⟩
  | .hbm, ⟨114, _⟩ => ⟨S97280x1, .i32⟩
  | .hbm, ⟨115, _⟩ => ⟨S5120x1, .f32⟩
  | .hbm, ⟨116, _⟩ => ⟨S5120x1, .f32⟩
  | .local _ .vmem, ⟨0, _⟩ => ⟨S5120x128, .f32⟩
  | .local _ .vmem, ⟨1, _⟩ => ⟨S128x128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S128x16, .f32⟩
  | .local _ .vmem, ⟨6, _⟩ => ⟨S16, .f32⟩
  | .local _ .vmem, ⟨7, _⟩ => ⟨S5120x16, .f32⟩
  | .local _ .vmem, ⟨8, _⟩ => ⟨S1024x192, .f32⟩
  | .local _ .vmem, ⟨9, _⟩ => ⟨S1024x192, .f32⟩
  | .local _ .vmem, ⟨10, _⟩ => ⟨S1024x192, .f32⟩
  | .local _ .vmem, ⟨11, _⟩ => ⟨S1024x192, .f32⟩
  | .local _ .vmem, ⟨12, _⟩ => ⟨S1024x16, .f32⟩
  | .local _ .vmem, ⟨13, _⟩ => ⟨S1024x16, .f32⟩
  | .local _ .vmem, ⟨14, _⟩ => ⟨S192x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128x256, .f32⟩
  | .local _ .vmem, ⟨19, _⟩ => ⟨S256, .f32⟩
  | .local _ .vmem, ⟨20, _⟩ => ⟨S1024x16, .f32⟩
  | .local _ .vmem, ⟨21, _⟩ => ⟨S1024x16, .f32⟩
  | _, _ => ⟨S97280x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v17 : Ref sig .tc := ⟨.hbm, 66, rfl⟩
abbrev main_cst_2 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_3 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_cst : Ref sig .tc := ⟨.hbm, 99, rfl⟩
abbrev main_call2_v14 : Ref sig .tc := ⟨.hbm, 100, rfl⟩
abbrev main_v29 : Ref sig .tc := ⟨.hbm, 101, rfl⟩
abbrev main_v30 : Ref sig .tc := ⟨.hbm, 102, rfl⟩
abbrev main_c_4 : Ref sig .tc := ⟨.hbm, 103, rfl⟩
abbrev main_v31 : Ref sig .tc := ⟨.hbm, 104, rfl⟩
abbrev main_v32 : Ref sig .tc := ⟨.hbm, 105, rfl⟩
abbrev main_c_5 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_cst_6 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5120x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![95], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S5120x128_S5120x128_0_0 : ∀ a, (![0, 0] : Fin 2 → Nat) a + S5120x128.size a ≤ S5120x128.size a
  h_S5120x128 : 0 < S5120x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5120x128 : S1x128.Broadcasts S5120x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5120x16 : S1x16.Broadcasts S5120x16
  inb_S5120x16_S5120x16_0_0 : ∀ a, (![0, 0] : Fin 2 → Nat) a + S5120x16.size a ≤ S5120x16.size a
  h_S5120x16 : 0 < S5120x16.numel
  bcast_S_S97280 : S_.BroadcastsInDim S97280 (![] : Fin 0 → Fin S97280.rank)
  bcast_S97280_S97280x1_0 : S97280.BroadcastsInDim S97280x1 (![0] : Fin 1 → Fin S97280x1.rank)
  bcast_S97280x1_S97280x16_0_1 : S97280x1.BroadcastsInDim S97280x16 (![0, 1] : Fin 2 → Fin S97280x16.rank)
  bcast_S1x16_S97280x16_0_1 : S1x16.BroadcastsInDim S97280x16 (![0, 1] : Fin 2 → Fin S97280x16.rank)
  inb_S192x128_S192x128_0_0 : ∀ a, (![0, 0] : Fin 2 → Nat) a + S192x128.size a ≤ S192x128.size a
  h_S192x128 : 0 < S192x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  inb_S1024x192_S1024x192_0_0 : ∀ a, (![0, 0] : Fin 2 → Nat) a + S1024x192.size a ≤ S1024x192.size a
  h_S1024x192 : 0 < S1024x192.numel
  broadcasts_S1x128_S1024x128 : S1x128.Broadcasts S1024x128
  shapeCasts_S256_S1x256 : S256.ShapeCasts S1x256
  broadcasts_S1x256_S1024x256 : S1x256.Broadcasts S1024x256
  shapeCasts_S1024x256_S1024x16x16 : S1024x256.ShapeCasts S1024x16x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  shapeCasts_S1024x16_S1024x16x1 : S1024x16.ShapeCasts S1024x16x1
  broadcasts_S1024x16x1_S1024x16x16 : S1024x16x1.Broadcasts S1024x16x16
  reduces_S1024x16x16_S1024x16 : S1024x16x16.Reduces [1] S1024x16
  shapeCasts_S1024x16_S1024x1x16 : S1024x16.ShapeCasts S1024x1x16
  broadcasts_S1024x1x16_S1024x16x16 : S1024x1x16.Broadcasts S1024x16x16
  reduces_S1024x16x16_S1024x16_2 : S1024x16x16.Reduces [2] S1024x16
  bcast_S_S5120x16 : S_.BroadcastsInDim S5120x16 (![] : Fin 0 → Fin S5120x16.rank)
  bcast_S5120_S5120x1_0 : S5120.BroadcastsInDim S5120x1 (![0] : Fin 1 → Fin S5120x1.rank)
  bcast_S_S5120x1 : S_.BroadcastsInDim S5120x1 (![] : Fin 0 → Fin S5120x1.rank)
  shapeCasts_S5120x1_S5120x1x1 : S5120x1.ShapeCasts S5120x1x1
  bcast_S_S5120x1x1 : S_.BroadcastsInDim S5120x1x1 (![] : Fin 0 → Fin S5120x1x1.rank)
  bcast_S1_S1x1x1_2 : S1.BroadcastsInDim S1x1x1 (![2] : Fin 1 → Fin S1x1x1.rank)
  bcast_S1x1x1_S5120x1x1_0_1_2 : S1x1x1.BroadcastsInDim S5120x1x1 (![0, 1, 2] : Fin 3 → Fin S5120x1x1.rank)
  reducesTo_S5120x1x1_S5120x1_d2 : S5120x1x1.ReducesTo [2] S5120x1
  h_S_ : 0 < S_.numel
  bcast_S_S256x1 : S_.BroadcastsInDim S256x1 (![] : Fin 0 → Fin S256x1.rank)
  bcast_S_S1 : S_.BroadcastsInDim S1 (![] : Fin 0 → Fin S1.rank)
  slices_S5120_S5119_1 : S5120.Slices ![1] S5119
  slices_S5120_S5119_0 : S5120.Slices ![0] S5119
  concatenates_S1_S5119_S5120_d0 : Shape.Concatenates [S1, S5119] S5120 0
  dot_S5120x128_S128x128_S5120x128_1_0_0_1_n_n_wf : DotDims.WF S5120x128 S128x128 S5120x128 [1] [0] [0] [1] [] []
  dot_S5120x128_S128x16_S5120x16_1_0_0_1_n_n_wf : DotDims.WF S5120x128 S128x16 S5120x16 [1] [0] [0] [1] [] []
  gather_S5120_S97280x1_S97280_n_0_n_n_0_1_1_wf : GatherDims.WF S5120 S97280x1 S97280 [] [0] [] [0] [] 1 ![1]
  dot_S1024x192_S192x128_S1024x128_1_0_0_1_n_n_wf : DotDims.WF S1024x192 S192x128 S1024x128 [1] [0] [0] [1] [] []
  dot_S1024x128_S128x128_S1024x128_1_0_0_1_n_n_wf : DotDims.WF S1024x128 S128x128 S1024x128 [1] [0] [0] [1] [] []
  dot_S1024x128_S128x256_S1024x256_1_0_0_1_n_n_wf : DotDims.WF S1024x128 S128x256 S1024x256 [1] [0] [0] [1] [] []
  scatter_S5120x16_S97280x1_S97280x16_1_0_0_1_wf : ScatterDims.WF S5120x16 S97280x1 S97280x16 [1] [0] [0] 1
  gather_S5120x16_S5120x1x1_S5120x1_n_1_0_0_1_2_11_wf : GatherDims.WF S5120x16 S5120x1x1 S5120x1 [] [1] [0] [1] [0] 2 ![1, 1]
  scatter_S256x1_S5120x1_S5120x1_1_0_0_1_wf : ScatterDims.WF S256x1 S5120x1 S5120x1 [1] [0] [0] 1
  gather_S5120x1_S97280x1_S97280x1_1_0_n_n_0_1_11_wf : GatherDims.WF S5120x1 S97280x1 S97280x1 [1] [0] [] [0] [] 1 ![1, 1]
  scatter_S5120x1_S97280x1_S97280x1_1_0_0_1_wf : ScatterDims.WF S5120x1 S97280x1 S97280x1 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S5120x128.size a
  hwx0_0 : ∀ i : grid0.Coords, EltTy.bits .f32 = 32 ∨ (Rect.block (s := S5120x128) S5120x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S128x16.size a
  hwx0_5 : ∀ i : grid0.Coords, EltTy.bits .f32 = 32 ∨ (Rect.block (s := S128x16) S128x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5120x16.size a ≤ S5120x16.size a
  hwx0_7 : ∀ i : grid0.Coords, EltTy.bits .f32 = 32 ∨ (Rect.block (s := S5120x16) S5120x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x192.size a ≤ S97280x192.size a
  hwx1_0 : ∀ i : grid1.Coords, EltTy.bits .f32 = 32 ∨ (Rect.block (s := S97280x192) S1024x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x192.size a ≤ S97280x192.size a
  hwx1_1 : ∀ i : grid1.Coords, EltTy.bits .f32 = 32 ∨ (Rect.block (s := S97280x192) S1024x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S97280x16.size a
  hwx1_2 : ∀ i : grid1.Coords, EltTy.bits .f32 = 32 ∨ (Rect.block (s := S97280x16) S1024x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x128.size a ≤ S192x128.size a
  hwx1_3 : ∀ i : grid1.Coords, EltTy.bits .f32 = 32 ∨ (Rect.block (s := S192x128) S192x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x16.size a ≤ S97280x16.size a
  hwx1_9 : ∀ i : grid1.Coords, EltTy.bits .f32 = 32 ∨ (Rect.block (s := S97280x16) S1024x16.size (cc1_transform_9 i) (hinb1_9 i)).WholeWords (EltTy.packing .f32)

variable [Facts₀]

def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x128_S128x16_S5120x16_1_0_0_1_n_n : DotDims S5120x128 S128x16 S5120x16 where
  lhsContracting := [1]
  rhsContracting := [0]
  lhsNonContracting := [0]
  rhsNonContracting := [1]
  lhsBatch := []
  rhsBatch := []
  wf := dot_S5120x128_S128x16_S5120x16_1_0_0_1_n_n_wf
def gather_S5120_S97280x1_S97280_n_0_n_n_0_1_1 : GatherDims S5120 S97280x1 S97280 where
  offsetDims := []
  collapsedSliceDims := [0]
  operandBatchingDims := []
  startIndicesBatchingDims := []
  startIndexMap := [0]
  indexVectorDim := 1
  sliceSizes := ![1]
  wf := gather_S5120_S97280x1_S97280_n_0_n_n_0_1_1_wf
def dot_S1024x192_S192x128_S1024x128_1_0_0_1_n_n : DotDims S1024x192 S192x128 S1024x128 where
  lhsContracting := [1]
  rhsContracting := [0]
  lhsNonContracting := [0]
  rhsNonContracting := [1]
  lhsBatch := []
  rhsBatch := []
  wf := dot_S1024x192_S192x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def scatter_S5120x16_S97280x1_S97280x16_1_0_0_1 : ScatterDims S5120x16 S97280x1 S97280x16 where
  updateWindowDims := [1]
  insertedWindowDims := [0]
  scatterDimsToOperandDims := [0]
  indexVectorDim := 1
  wf := scatter_S5120x16_S97280x1_S97280x16_1_0_0_1_wf
def gather_S5120x16_S5120x1x1_S5120x1_n_1_0_0_1_2_11 : GatherDims S5120x16 S5120x1x1 S5120x1 where
  offsetDims := []
  collapsedSliceDims := [1]
  operandBatchingDims := [0]
  startIndicesBatchingDims := [0]
  startIndexMap := [1]
  indexVectorDim := 2
  sliceSizes := ![1, 1]
  wf := gather_S5120x16_S5120x1x1_S5120x1_n_1_0_0_1_2_11_wf
def scatter_S256x1_S5120x1_S5120x1_1_0_0_1 : ScatterDims S256x1 S5120x1 S5120x1 where
  updateWindowDims := [1]
  insertedWindowDims := [0]
  scatterDimsToOperandDims := [0]
  indexVectorDim := 1
  wf := scatter_S256x1_S5120x1_S5120x1_1_0_0_1_wf
def gather_S5120x1_S97280x1_S97280x1_1_0_n_n_0_1_11 : GatherDims S5120x1 S97280x1 S97280x1 where
  offsetDims := [1]
  collapsedSliceDims := [0]
  operandBatchingDims := []
  startIndicesBatchingDims := []
  startIndexMap := [0]
  indexVectorDim := 1
  sliceSizes := ![1, 1]
  wf := gather_S5120x1_S97280x1_S97280x1_1_0_n_n_0_1_11_wf
def scatter_S5120x1_S97280x1_S97280x1_1_0_0_1 : ScatterDims S5120x1 S97280x1 S97280x1 where
  updateWindowDims := [1]
  insertedWindowDims := [0]
  scatterDimsToOperandDims := [0]
  indexVectorDim := 1
  wf := scatter_S5120x1_S97280x1_S97280x1_1_0_0_1_wf

abbrev win0_0 : Pipeline.Window sig grid0 :=
  Pipeline.Window.ofSpec (Memref.whole main_arg1) S5120x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S5120x16.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1024x16.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S97280x192 : Shape := ⟨2, ![97280, 192]⟩
abbrev S5120x128 : Shape := ⟨2, ![5120, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S192x128 : Shape := ⟨2, ![192, 128]⟩
abbrev S128x256 : Shape := ⟨2, ![128, 256]⟩
abbrev S256 : Shape := ⟨1, ![256]⟩
abbrev S97280 : Shape := ⟨1, ![97280]⟩
abbrev S5120 : Shape := ⟨1, ![5120]⟩
abbrev S1x128 : Shape := ⟨2, ![1, 128]⟩
abbrev S_ : Shape := ⟨0, ![]⟩
abbrev S5120x16 : Shape := ⟨2, ![5120, 16]⟩
abbrev S1x16 : Shape := ⟨2, ![1, 16]⟩
abbrev S97280x128 : Shape := ⟨2, ![97280, 128]⟩
abbrev S97280x256 : Shape := ⟨2, ![97280, 256]⟩
abbrev S1x256 : Shape := ⟨2, ![1, 256]⟩
abbrev S97280x16x16 : Shape := ⟨3, ![97280, 16, 16]⟩
abbrev S97280x1 : Shape := ⟨2, ![97280, 1]⟩
abbrev S97280x1x1 : Shape := ⟨3, ![97280, 1, 1]⟩
abbrev S97280x16x1 : Shape := ⟨3, ![97280, 16, 1]⟩
abbrev S97280x16x1x1 : Shape := ⟨4, ![97280, 16, 1, 1]⟩
abbrev S1 : Shape := ⟨1, ![1]⟩
abbrev S1x1x1x1 : Shape := ⟨4, ![1, 1, 1, 1]⟩
abbrev S97280x16 : Shape := ⟨2, ![97280, 16]⟩
abbrev S5120x1 : Shape := ⟨2, ![5120, 1]⟩
abbrev S5120x1x1 : Shape := ⟨3, ![5120, 1, 1]⟩
abbrev S1x1x1 : Shape := ⟨3, ![1, 1, 1]⟩
abbrev S256x1 : Shape := ⟨2, ![256, 1]⟩
abbrev S5119 : Shape := ⟨1, ![5119]⟩

abbrev nBuf : Space → Nat
  | .hbm => 196
  | .vmem => 0
  | .smem => 0
  | _ => 0

abbrev hbmTy0_0 (i : Nat) : BufTy := match i % 128 with
  | 0 => ⟨S97280x192, .f32⟩
  | 1 => ⟨S5120x128, .f32⟩
  | 2 => ⟨S97280x192, .f32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S192x128, .f32⟩
  | 10 => ⟨S128, .f32⟩
  | 11 => ⟨S128x128, .f32⟩
  | 12 => ⟨S128, .f32⟩
  | 13 => ⟨S128x256, .f32⟩
  | 14 => ⟨S256, .f32⟩
  | 15 => ⟨S97280, .i32⟩
  | 16 => ⟨S97280, .i32⟩
  | 17 => ⟨S5120, .i32⟩
  | 18 => ⟨S5120, .i32⟩
  | 19 => ⟨S5120x128, .f32⟩
  | 20 => ⟨S1x128, .f32⟩
  | 21 => ⟨S5120x128, .f32⟩
  | 22 => ⟨S5120x128, .f32⟩
  | 23 => ⟨S_, .f32⟩
  | 24 => ⟨S5120x128, .f32⟩
  | 25 => ⟨S5120x128, .f32⟩
  | 26 => ⟨S5120x128, .f32⟩
  | 27 => ⟨S1x128, .f32⟩
  | 28 => ⟨S5120x128, .f32⟩
  | 29 => ⟨S5120x128, .f32⟩
  | 30 => ⟨S_, .f32⟩
  | 31 => ⟨S5120x128, .f32⟩
  | 32 => ⟨S5120x128, .f32⟩
  | 33 => ⟨S5120x16, .f32⟩
  | 34 => ⟨S1x16, .f32⟩
  | 35 => ⟨S5120x16, .f32⟩
  | 36 => ⟨S5120x16, .f32⟩
  | 37 => ⟨S97280x128, .f32⟩
  | 38 => ⟨S1x128, .f32⟩
  | 39 => ⟨S97280x128, .f32⟩
  | 40 => ⟨S97280x128, .f32⟩
  | 41 => ⟨S_, .f32⟩
  | 42 => ⟨S97280x128, .f32⟩
  | 43 => ⟨S97280x128, .f32⟩
  | 44 => ⟨S97280x128, .f32⟩
  | 45 => ⟨S1x128, .f32⟩
  | 46 => ⟨S97280x128, .f32⟩
  | 47 => ⟨S97280x128, .f32⟩
  | 48 => ⟨S_, .f32⟩
  | 49 => ⟨S97280x128, .f32⟩
  | 50 => ⟨S97280x128, .f32⟩
  | 51 => ⟨S97280x256, .f32⟩
  | 52 => ⟨S1x256, .f32⟩
  | 53 => ⟨S97280x256, .f32⟩
  | 54 => ⟨S97280x256, .f32⟩
  | 55 => ⟨S97280x16x16, .f32⟩
  | 56 => ⟨S97280x128, .f32⟩
  | 57 => ⟨S1x128, .f32⟩
  | 58 => ⟨S97280x128, .f32⟩
  | 59 => ⟨S97280x128, .f32⟩
  | 60 => ⟨S_, .f32⟩
  | 61 => ⟨S97280x128, .f32⟩
  | 62 => ⟨S97280x128, .f32⟩
  | 63 => ⟨S97280x128, .f32⟩
  | 64 => ⟨S1x128, .f32⟩
  | 65 => ⟨S97280x128, .f32⟩
  | 66 => ⟨S97280x128, .f32⟩
  | 67 => ⟨S_, .f32⟩
  | 68 => ⟨S97280x128, .f32⟩
  | 69 => ⟨S97280x128, .f32⟩
  | 70 => ⟨S97280x256, .f32⟩
  | 71 => ⟨S1x256, .f32⟩
  | 72 => ⟨S97280x256, .f32⟩
  | 73 => ⟨S97280x256, .f32⟩
  | 74 => ⟨S97280x16x16, .f32⟩
  | 75 => ⟨S97280x16x16, .f32⟩
  | 76 => ⟨S97280x16x16, .f32⟩
  | 77 => ⟨S_, .f32⟩
  | 78 => ⟨S97280x16x16, .f32⟩
  | 79 => ⟨S97280x16x16, .f32⟩
  | 80 => ⟨S97280x16x16, .f32⟩
  | 81 => ⟨S_, .i32⟩
  | 82 => ⟨S97280, .i32⟩
  | 83 => ⟨S97280, .i1⟩
  | 84 => ⟨S_, .i32⟩
  | 85 => ⟨S97280, .i32⟩
  | 86 => ⟨S97280, .i32⟩
  | 87 => ⟨S97280, .i32⟩
  | 88 => ⟨S97280x1, .i32⟩
  | 89 => ⟨S97280, .i32⟩
  | 90 => ⟨S97280x1x1, .i32⟩
  | 91 => ⟨S97280x16x1, .i32⟩
  | 92 => ⟨S_, .i32⟩
  | 93 => ⟨S97280x16x1, .i32⟩
  | 94 => ⟨S97280x16x1, .i1⟩
  | 95 => ⟨S_, .i32⟩
  | 96 => ⟨S97280x16x1, .i32⟩
  | 97 => ⟨S97280x16x1, .i32⟩
  | 98 => ⟨S97280x16x1, .i32⟩
  | 99 => ⟨S97280x16x1x1, .i32⟩
  | 100 => ⟨S1, .i32⟩
  | 101 => ⟨S_, .i32⟩
  | 102 => ⟨S97280x16x1x1, .i32⟩
  | 103 => ⟨S97280x16x1x1, .i1⟩
  | 104 => ⟨S1x1x1x1, .i32⟩
  | 105 => ⟨S97280x16x1x1, .i32⟩
  | 106 => ⟨S97280x16x1x1, .i1⟩
  | 107 => ⟨S97280x16x1x1, .i1⟩
  | 108 => ⟨S_, .i1⟩
  | 109 => ⟨S97280x16x1, .i1⟩
  | 110 => ⟨S97280x16x1, .f32⟩
  | 111 => ⟨S_, .f32⟩
  | 112 => ⟨S97280x16x1, .f32⟩
  | 113 => ⟨S97280x16x1, .f32⟩
  | 114 => ⟨S97280x16, .f32⟩
  | 115 => ⟨S_, .f32⟩
  | 116 => ⟨S5120x16, .f32⟩
  | 117 => ⟨S97280x1, .i32⟩
  | 118 => ⟨S5120x16, .f32⟩
  | 119 => ⟨S_, .f32⟩
  | 120 => ⟨S5120x16, .f32⟩
  | 121 => ⟨S5120x16, .f32⟩
  | 122 => ⟨S5120x16, .f32⟩
  | 123 => ⟨S5120x1, .i32⟩
  | 124 => ⟨S_, .i32⟩
  | 125 => ⟨S5120x1, .i32⟩
  | 126 => ⟨S5120x1, .i1⟩
  | 127 => ⟨S_, .i32⟩
  | _ => ⟨S97280x192, .f32⟩

abbrev hbmTy0_1 (i : Nat) : BufTy := match i % 128 with
  | 0 => ⟨S5120x1, .i32⟩
  | 1 => ⟨S5120x1, .i32⟩
  | 2 => ⟨S5120x1, .i32⟩
  | 3 => ⟨S5120x1x1, .i32⟩
  | 4 => ⟨S1, .i32⟩
  | 5 => ⟨S_, .i32⟩
  | 6 => ⟨S5120x1x1, .i32⟩
  | 7 => ⟨S5120x1x1, .i1⟩
  | 8 => ⟨S1x1x1, .i32⟩
  | 9 => ⟨S5120x1x1, .i32⟩
  | 10 => ⟨S5120x1x1, .i1⟩
  | 11 => ⟨S5120x1x1, .i1⟩
  | 12 => ⟨S_, .i1⟩
  | 13 => ⟨S5120x1, .i1⟩
  | 14 => ⟨S5120x1, .f32⟩
  | 15 => ⟨S_, .f32⟩
  | 16 => ⟨S5120x1, .f32⟩
  | 17 => ⟨S5120x1, .f32⟩
  | 18 => ⟨S_, .f32⟩
  | 19 => ⟨S256x1, .f32⟩
  | 20 => ⟨S5120x1, .i32⟩
  | 21 => ⟨S256x1, .f32⟩
  | 22 => ⟨S_, .f32⟩
  | 23 => ⟨S1, .f32⟩
  | 24 => ⟨S5119, .i32⟩
  | 25 => ⟨S5119, .i32⟩
  | 26 => ⟨S5119, .i1⟩
  | 27 => ⟨S5119, .f32⟩
  | 28 => ⟨S5120, .f32⟩
  | 29 => ⟨S5120x1, .f32⟩
  | 30 => ⟨S5120x1, .i32⟩
  | 31 => ⟨S_, .i32⟩
  | 32 => ⟨S5120x1, .i32⟩
  | 33 => ⟨S5120x1, .i1⟩
  | 34 => ⟨S_, .i32⟩
  | 35 => ⟨S5120x1, .i32⟩
  | 36 => ⟨S5120x1, .i32⟩
  | 37 => ⟨S5120x1, .i32⟩
  | 38 => ⟨S5120x1x1, .i32⟩
  | 39 => ⟨S1, .i32⟩
  | 40 => ⟨S_, .i32⟩
  | 41 => ⟨S5120x1x1, .i32⟩
  | 42 => ⟨S5120x1x1, .i1⟩
  | 43 => ⟨S1x1x1, .i32⟩
  | 44 => ⟨S5120x1x1, .i32⟩
  | 45 => ⟨S5120x1x1, .i1⟩
  | 46 => ⟨S5120x1x1, .i1⟩
  | 47 => ⟨S_, .i1⟩
  | 48 => ⟨S5120x1, .i1⟩
  | 49 => ⟨S5120x1, .f32⟩
  | 50 => ⟨S_, .f32⟩
  | 51 => ⟨S5120x1, .f32⟩
  | 52 => ⟨S5120x1, .f32⟩
  | 53 => ⟨S5120x1, .f32⟩
  | 54 => ⟨S_, .i32⟩
  | 55 => ⟨S97280, .i32⟩
  | 56 => ⟨S97280, .i1⟩
  | 57 => ⟨S_, .i32⟩
  | 58 => ⟨S97280, .i32⟩
  | 59 => ⟨S97280, .i32⟩
  | 60 => ⟨S97280, .i32⟩
  | 61 => ⟨S97280x1, .i32⟩
  | 62 => ⟨S97280x1, .f32⟩
  | 63 => ⟨S_, .f32⟩
  | 64 => ⟨S5120x1, .f32⟩
  | 65 => ⟨S97280x1, .i32⟩
  | 66 => ⟨S5120x1, .f32⟩
  | 67 => ⟨S5120x1, .f32⟩
  | _ => ⟨S97280x192, .f32⟩

abbrev hbmTy (i : Nat) : BufTy := match i / 128 with
  | 0 => hbmTy0_0 i
  | 1 => hbmTy0_1 i
  | _ => ⟨S97280x192, .f32⟩

abbrev bufTy : (tb : Table) → Fin (tcTables nBuf tb) → BufTy
  | .hbm, ⟨i, _⟩ => hbmTy i
  | _, _ => ⟨S97280x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call3_cst : Ref sig .tc := ⟨.hbm, 48, rfl⟩
abbrev main_call3_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call4_cst : Ref sig .tc := ⟨.hbm, 60, rfl⟩
abbrev main_call4_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call5_cst : Ref sig .tc := ⟨.hbm, 67, rfl⟩
abbrev main_call5_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c : Ref sig .tc := ⟨.hbm, 81, rfl⟩
abbrev main_v49 : Ref sig .tc := ⟨.hbm, 82, rfl⟩
abbrev main_v50 : Ref sig .tc := ⟨.hbm, 83, rfl⟩
abbrev main_c_0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_cst : Ref sig .tc := ⟨.hbm, 111, rfl⟩
abbrev main_call6_v14 : Ref sig .tc := ⟨.hbm, 112, rfl⟩
abbrev main_v58 : Ref sig .tc := ⟨.hbm, 113, rfl⟩
abbrev main_v59 : Ref sig .tc := ⟨.hbm, 114, rfl⟩
abbrev main_cst_1 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_2 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call7_c : Ref sig .tc := ⟨.hbm, 124, rfl⟩
abbrev main_call7_v0 : Ref sig .tc := ⟨.hbm, 125, rfl⟩
abbrev main_call7_v1 : Ref sig .tc := ⟨.hbm, 126, rfl⟩
abbrev main_call7_c_0 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_v5 : Ref sig .tc := ⟨.hbm, 131, rfl⟩
abbrev main_call7_c_1 : Ref sig .tc := ⟨.hbm, 132, rfl⟩
abbrev main_call7_c_2 : Ref sig .tc := ⟨.hbm, 133, rfl⟩
abbrev main_call7_v6 : Ref sig .tc := ⟨.hbm, 134, rfl⟩
abbrev main_call7_v7 : Ref sig .tc := ⟨.hbm, 135, rfl⟩
abbrev main_call7_v8 : Ref sig .tc := ⟨.hbm, 136, rfl⟩
abbrev main_call7_v9 : Ref sig .tc := ⟨.hbm, 137, rfl⟩
abbrev main_call7_v10 : Ref sig .tc := ⟨.hbm, 138, rfl⟩
abbrev main_call7_v11 : Ref sig .tc := ⟨.hbm, 139, rfl⟩
abbrev main_call7_c_3 : Ref sig .tc := ⟨.hbm, 140, rfl⟩
abbrev main_call7_v12 : Ref sig .tc := ⟨.hbm, 141, rfl⟩
abbrev main_call7_v13 : Ref sig .tc := ⟨.hbm, 142, rfl⟩
abbrev main_call7_cst : Ref sig .tc := ⟨.hbm, 143, rfl⟩
abbrev main_call7_v14 : Ref sig .tc := ⟨.hbm, 144, rfl⟩
abbrev main_v67 : Ref sig .tc := ⟨.hbm, 145, rfl⟩
abbrev main_cst_3 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_4 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_call8_c : Ref sig .tc := ⟨.hbm, 159, rfl⟩
abbrev main_call8_v0 : Ref sig .tc := ⟨.hbm, 160, rfl⟩
abbrev main_call8_v1 : Ref sig .tc := ⟨.hbm, 161, rfl⟩
abbrev main_call8_c_0 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_v5 : Ref sig .tc := ⟨.hbm, 166, rfl⟩
abbrev main_call8_c_1 : Ref sig .tc := ⟨.hbm, 167, rfl⟩
abbrev main_call8_c_2 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_call8_c_3 : Ref sig .tc := ⟨.hbm, 175, rfl⟩
abbrev main_call8_v12 : Ref sig .tc := ⟨.hbm, 176, rfl⟩
abbrev main_call8_v13 : Ref sig .tc := ⟨.hbm, 177, rfl⟩
abbrev main_call8_cst : Ref sig .tc := ⟨.hbm, 178, rfl⟩
abbrev main_call8_v14 : Ref sig .tc := ⟨.hbm, 179, rfl⟩
abbrev main_v79 : Ref sig .tc := ⟨.hbm, 180, rfl⟩
abbrev main_v80 : Ref sig .tc := ⟨.hbm, 181, rfl⟩
abbrev main_c_5 : Ref sig .tc := ⟨.hbm, 182, rfl⟩
abbrev main_v81 : Ref sig .tc := ⟨.hbm, 183, rfl⟩
abbrev main_v82 : Ref sig .tc := ⟨.hbm, 184, rfl⟩
abbrev main_c_6 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_cst_7 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S5120x128_0_1 : S1x128.BroadcastsInDim S5120x128 (![0, 1] : Fin 2 → Fin S5120x128.rank)
  bcast_S_S5120x128 : S_.BroadcastsInDim S5120x128 (![] : Fin 0 → Fin S5120x128.rank)
  bcast_S16_S1x16_1 : S16.BroadcastsInDim S1x16 (![1] : Fin 1 → Fin S1x16.rank)
  bcast_S1x16_S5120x16_0_1 : S1x16.BroadcastsInDim S5120x16 (![0, 1] : Fin 2 → Fin S5120x16.rank)
  bcast_S1x128_S97280x128_0_1 : S1x128.BroadcastsInDim S97280x128 (![0, 1] : Fin 2 → Fin S97280x128.rank)
  bcast_S_S97280x128 : S_.BroadcastsInDim S97280x128 (![] : Fin 0 → Fin S97280x128.rank)
  bcast_S256_S1x256_1 : S256.BroadcastsInDim S1x256 (![1] : Fin 1 → Fin S1x256.rank)
  bcast_S1x256_S97280x256_0_1 : S1x256.BroadcastsInDim S97280x256 (![0, 1] : Fin 2 → Fin S97280x256.rank)
  shapeCasts_S97280x256_S97280x16x16 : S97280x256.ShapeCasts S97280x16x16
  transposes_S97280x16x16_S97280x16x16_0_2_1 : S97280x16x16.Transposes [0, 2, 1] S97280x16x16
  bcast_S_S97280x16x16 : S_.BroadcastsInDim S97280x16x16 (![] : Fin 0 → Fin S97280x16x16.rank)
  bcast_S_S97280 : S_.BroadcastsInDim S97280 (![] : Fin 0 → Fin S97280.rank)
  bcast_S97280_S97280x1_0 : S97280.BroadcastsInDim S97280x1 (![0] : Fin 1 → Fin S97280x1.rank)
  bcast_S97280_S97280x1x1_0 : S97280.BroadcastsInDim S97280x1x1 (![0] : Fin 1 → Fin S97280x1x1.rank)
  bcast_S97280x1x1_S97280x16x1_0_1_2 : S97280x1x1.BroadcastsInDim S97280x16x1 (![0, 1, 2] : Fin 3 → Fin S97280x16x1.rank)
  bcast_S_S97280x16x1 : S_.BroadcastsInDim S97280x16x1 (![] : Fin 0 → Fin S97280x16x1.rank)
  shapeCasts_S97280x16x1_S97280x16x1x1 : S97280x16x1.ShapeCasts S97280x16x1x1
  bcast_S_S97280x16x1x1 : S_.BroadcastsInDim S97280x16x1x1 (![] : Fin 0 → Fin S97280x16x1x1.rank)
  bcast_S1_S1x1x1x1_3 : S1.BroadcastsInDim S1x1x1x1 (![3] : Fin 1 → Fin S1x1x1x1.rank)
  bcast_S1x1x1x1_S97280x16x1x1_0_1_2_3 : S1x1x1x1.BroadcastsInDim S97280x16x1x1 (![0, 1, 2, 3] : Fin 4 → Fin S97280x16x1x1.rank)
  reducesTo_S97280x16x1x1_S97280x16x1_d3 : S97280x16x1x1.ReducesTo [3] S97280x16x1
  h_S_ : 0 < S_.numel
  shapeCasts_S97280x16x1_S97280x16 : S97280x16x1.ShapeCasts S97280x16
  bcast_S_S5120x16 : S_.BroadcastsInDim S5120x16 (![] : Fin 0 → Fin S5120x16.rank)
  bcast_S5120_S5120x1_0 : S5120.BroadcastsInDim S5120x1 (![0] : Fin 1 → Fin S5120x1.rank)
  bcast_S_S5120x1 : S_.BroadcastsInDim S5120x1 (![] : Fin 0 → Fin S5120x1.rank)
  shapeCasts_S5120x1_S5120x1x1 : S5120x1.ShapeCasts S5120x1x1
  bcast_S_S5120x1x1 : S_.BroadcastsInDim S5120x1x1 (![] : Fin 0 → Fin S5120x1x1.rank)
  bcast_S1_S1x1x1_2 : S1.BroadcastsInDim S1x1x1 (![2] : Fin 1 → Fin S1x1x1.rank)
  bcast_S1x1x1_S5120x1x1_0_1_2 : S1x1x1.BroadcastsInDim S5120x1x1 (![0, 1, 2] : Fin 3 → Fin S5120x1x1.rank)
  reducesTo_S5120x1x1_S5120x1_d2 : S5120x1x1.ReducesTo [2] S5120x1
  bcast_S_S256x1 : S_.BroadcastsInDim S256x1 (![] : Fin 0 → Fin S256x1.rank)
  bcast_S_S1 : S_.BroadcastsInDim S1 (![] : Fin 0 → Fin S1.rank)
  slices_S5120_S5119_1 : S5120.Slices ![1] S5119
  slices_S5120_S5119_0 : S5120.Slices ![0] S5119
  concatenates_S1_S5119_S5120_d0 : Shape.Concatenates [S1, S5119] S5120 0
  dot_S5120x128_S128x128_S5120x128_1_0_0_1_n_n_wf : DotDims.WF S5120x128 S128x128 S5120x128 [1] [0] [0] [1] [] []
  dot_S5120x128_S128x16_S5120x16_1_0_0_1_n_n_wf : DotDims.WF S5120x128 S128x16 S5120x16 [1] [0] [0] [1] [] []
  dot_S97280x192_S192x128_S97280x128_1_0_0_1_n_n_wf : DotDims.WF S97280x192 S192x128 S97280x128 [1] [0] [0] [1] [] []
  dot_S97280x128_S128x128_S97280x128_1_0_0_1_n_n_wf : DotDims.WF S97280x128 S128x128 S97280x128 [1] [0] [0] [1] [] []
  dot_S97280x128_S128x256_S97280x256_1_0_0_1_n_n_wf : DotDims.WF S97280x128 S128x256 S97280x256 [1] [0] [0] [1] [] []
  gather_S5120_S97280x1_S97280_n_0_n_n_0_1_1_wf : GatherDims.WF S5120 S97280x1 S97280 [] [0] [] [0] [] 1 ![1]
  gather_S97280x16x16_S97280x16x1x1_S97280x16x1_n_2_01_01_2_3_111_wf : GatherDims.WF S97280x16x16 S97280x16x1x1 S97280x16x1 [] [2] [0, 1] [2] [0, 1] 3 ![1, 1, 1]
  scatter_S5120x16_S97280x1_S97280x16_1_0_0_1_wf : ScatterDims.WF S5120x16 S97280x1 S97280x16 [1] [0] [0] 1
  gather_S5120x16_S5120x1x1_S5120x1_n_1_0_0_1_2_11_wf : GatherDims.WF S5120x16 S5120x1x1 S5120x1 [] [1] [0] [1] [0] 2 ![1, 1]
  scatter_S256x1_S5120x1_S5120x1_1_0_0_1_wf : ScatterDims.WF S256x1 S5120x1 S5120x1 [1] [0] [0] 1
  gather_S5120x1_S97280x1_S97280x1_1_0_n_n_0_1_11_wf : GatherDims.WF S5120x1 S97280x1 S97280x1 [1] [0] [] [0] [] 1 ![1, 1]
  scatter_S5120x1_S97280x1_S97280x1_1_0_0_1_wf : ScatterDims.WF S5120x1 S97280x1 S97280x1 [1] [0] [0] 1

variable [Facts₀]

def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x128_S128x16_S5120x16_1_0_0_1_n_n : DotDims S5120x128 S128x16 S5120x16 where
  lhsContracting := [1]
  rhsContracting := [0]
  lhsNonContracting := [0]
  rhsNonContracting := [1]
  lhsBatch := []
  rhsBatch := []
  wf := dot_S5120x128_S128x16_S5120x16_1_0_0_1_n_n_wf
def dot_S97280x192_S192x128_S97280x128_1_0_0_1_n_n : DotDims S97280x192 S192x128 S97280x128 where
  lhsContracting := [1]
  rhsContracting := [0]
  lhsNonContracting := [0]
  rhsNonContracting := [1]
  lhsBatch := []
  rhsBatch := []
  wf := dot_S97280x192_S192x128_S97280x128_1_0_0_1_n_n_wf
def dot_S97280x128_S128x128_S97280x128_1_0_0_1_n_n : DotDims S97280x128 S128x128 S97280x128 where
  lhsContracting := [1]
  rhsContracting := [0]
  lhsNonContracting := [0]
  rhsNonContracting := [1]
  lhsBatch := []
  rhsBatch := []
  wf := dot_S97280x128_S128x128_S97280x128_1_0_0_1_n_n_wf
def dot_S97280x128_S128x256_S97280x256_1_0_0_1_n_n : DotDims S97280x128 S128x256 S97280x256 where
  lhsContracting := [1]
  rhsContracting := [0]
  lhsNonContracting := [0]
  rhsNonContracting := [1]
  lhsBatch := []
  rhsBatch := []
  wf := dot_S97280x128_S128x256_S97280x256_1_0_0_1_n_n_wf
def gather_S5120_S97280x1_S97280_n_0_n_n_0_1_1 : GatherDims S5120 S97280x1 S97280 where
  offsetDims := []
  collapsedSliceDims := [0]
  operandBatchingDims := []
  startIndicesBatchingDims := []
  startIndexMap := [0]
  indexVectorDim := 1
  sliceSizes := ![1]
  wf := gather_S5120_S97280x1_S97280_n_0_n_n_0_1_1_wf
def gather_S97280x16x16_S97280x16x1x1_S97280x16x1_n_2_01_01_2_3_111 : GatherDims S97280x16x16 S97280x16x1x1 S97280x16x1 where
  offsetDims := []
  collapsedSliceDims := [2]
  operandBatchingDims := [0, 1]
  startIndicesBatchingDims := [0, 1]
  startIndexMap := [2]
  indexVectorDim := 3
  sliceSizes := ![1, 1, 1]
  wf := gather_S97280x16x16_S97280x16x1x1_S97280x16x1_n_2_01_01_2_3_111_wf
def scatter_S5120x16_S97280x1_S97280x16_1_0_0_1 : ScatterDims S5120x16 S97280x1 S97280x16 where
  updateWindowDims := [1]
  insertedWindowDims := [0]
  scatterDimsToOperandDims := [0]
  indexVectorDim := 1
  wf := scatter_S5120x16_S97280x1_S97280x16_1_0_0_1_wf
def gather_S5120x16_S5120x1x1_S5120x1_n_1_0_0_1_2_11 : GatherDims S5120x16 S5120x1x1 S5120x1 where
  offsetDims := []
  collapsedSliceDims := [1]
  operandBatchingDims := [0]
  startIndicesBatchingDims := [0]
  startIndexMap := [1]
  indexVectorDim := 2
  sliceSizes := ![1, 1]
  wf := gather_S5120x16_S5120x1x1_S5120x1_n_1_0_0_1_2_11_wf
def scatter_S256x1_S5120x1_S5120x1_1_0_0_1 : ScatterDims S256x1 S5120x1 S5120x1 where
  updateWindowDims := [1]
  insertedWindowDims := [0]
  scatterDimsToOperandDims := [0]
  indexVectorDim := 1
  wf := scatter_S256x1_S5120x1_S5120x1_1_0_0_1_wf
def gather_S5120x1_S97280x1_S97280x1_1_0_n_n_0_1_11 : GatherDims S5120x1 S97280x1 S97280x1 where
  offsetDims := [1]
  collapsedSliceDims := [0]
  operandBatchingDims := []
  startIndicesBatchingDims := []
  startIndexMap := [0]
  indexVectorDim := 1
  sliceSizes := ![1, 1]
  wf := gather_S5120x1_S97280x1_S97280x1_1_0_n_n_0_1_11_wf
def scatter_S5120x1_S97280x1_S97280x1_1_0_0_1 : ScatterDims S5120x1 S97280x1 S97280x1 where
  updateWindowDims := [1]
  insertedWindowDims := [0]
  scatterDimsToOperandDims := [0]
  indexVectorDim := 1
  wf := scatter_S5120x1_S97280x1_S97280x1_1_0_0_1_wf

class Facts : Prop extends Facts₀ where

variable [Facts]
-- ==== Proof.Tail.lean ====
/-
  THE HOST OPERATIONS BOTH PROGRAMS SHARE, as functions of the arrays they are applied to.

  Around its two perceptrons each program does the same integer and indexing work:
  * `actsOf`: the action of every edge's source node, `joint_acts[src]` (a negative `src` wrapped by the number of
    nodes, the read clamped into the table);
  * `oneHotOf`: the 16 indicator weights of an action;
  * `take16`: `take_along_axis` along the 16 actions of a [5120, 16] table at one action per node, an index below 0
    wrapped by 16 and a fill value written where the wrapped index is not in [0, 15];
  * `mixed`: the node utilities plus half the segment sum, over incoming edges, of the edge messages;
  * `firstOf`: 1 at a node whose batch differs from the node's before it (and at node 0), else 0;
  * `tailQ`, `tailP`, `tailT`: the three results from the node utilities `indiv` and the edge messages `umsg`.
  Both programs' results are these functions of THEIR node utilities and edge messages; nothing below opens them.
-/
import proofs.«415585_j20169166422902_1_alg».proof.Proof.Gen.KernelIdeal

noncomputable section
namespace Cert.Tail
open Idealize.ShloMosaic Cert.KernelIdeal
open Cert.KernelIdeal.Facts₀ Cert.KernelIdeal.Facts

variable {F : FTy → Type} [FloatOps F]

/-- `src` with a negative entry wrapped by the number of nodes, as a column of gather indices. -/
def srcCol (src : IVec S97280 32) : IVec S97280x1 32 :=
  broadcastInDim S97280x1 ![0] bcast_S97280_S97280x1_0
    (select (cmpi .slt src (broadcastInDim S97280 ![] bcast_S_S97280 (constantI S_ 32 0#32)))
      (addi src (broadcastInDim S97280 ![] bcast_S_S97280 (constantI S_ 32 5120#32))) src)

/-- The action of each edge's source node. -/
def actsOf (src : IVec S97280 32) (ja : IVec S5120 32) : IVec S97280 32 :=
  Host.gather gather_S5120_S97280x1_S97280_n_0_n_n_0_1_1 ja (srcCol src)

/-- The indicator weights of each edge's action over the 16 actions. -/
def oneHotOf (acts : IVec S97280 32) : FVec F S97280x16 .f32 :=
  uitofp .f32 (cmpi .eq
    (broadcastInDim S97280x16 ![0, 1] bcast_S97280x1_S97280x16_0_1 (broadcastInDim S97280x1 ![0] bcast_S97280_S97280x1_0 acts))
    (broadcastInDim S97280x16 ![0, 1] bcast_S1x16_S97280x16_0_1 (iotaInDim S1x16 32 1)))

/-- The wrapped index column of `take16`, as the rank-3 array the gather reads. -/
def wrap16 (idx : IVec S5120x1 32) : IVec S5120x1x1 32 :=
  shapeCast _ (select (cmpi .slt idx (broadcastInDim S5120x1 ![] bcast_S_S5120x1 (constantI S_ 32 0#32)))
    (addi idx (broadcastInDim S5120x1 ![] bcast_S_S5120x1 (constantI S_ 32 16#32))) idx) shapeCasts_S5120x1_S5120x1x1

/-- `take_along_axis` along the 16 actions, out-of-range entries filled. -/
def take16 (x : FVec F S5120x16 .f32) (idx : IVec S5120x1 32) : FVec F S5120x1 .f32 :=
  select
    (Host.reduce IntOp.andi
      (andi (cmpi .sge (wrap16 idx) (broadcastInDim S5120x1x1 ![] bcast_S_S5120x1x1 (constantI S_ 32 0#32)))
        (cmpi .sle (wrap16 idx)
          (broadcastInDim S5120x1x1 ![0, 1, 2] bcast_S1x1x1_S5120x1x1_0_1_2 (broadcastInDim S1x1x1 ![2] bcast_S1_S1x1x1_2 (constantI S1 32 15#32)))))
      (constantI S_ 1 1#1) reducesTo_S5120x1x1_S5120x1_d2 h_S_)
    (Host.gather gather_S5120x16_S5120x1x1_S5120x1_n_1_0_0_1_2_11 x (wrap16 idx))
    (broadcastInDim S5120x1 ![] bcast_S_S5120x1 (constant S_ .f32 0x7FC00000#32))

/-- The node utilities plus half the sum of the messages of the edges that arrive at the node. -/
def mixed (indiv : FVec F S5120x16 .f32) (umsg : FVec F S97280x16 .f32) (dst : IVec S97280 32) : FVec F S5120x16 .f32 :=
  addf indiv (mulf (broadcastInDim S5120x16 ![] bcast_S_S5120x16 (constant S_ .f32 0x3F000000#32))
    (Host.scatterAdd scatter_S5120x16_S97280x1_S97280x16_1_0_0_1
      (broadcastInDim S5120x16 ![] bcast_S_S5120x16 (constant S_ .f32 0x00000000#32))
      (broadcastInDim S97280x1 ![0] bcast_S97280_S97280x1_0 dst) umsg))

/-- The joint actions as a column of indices. -/
def jaCol (ja : IVec S5120 32) : IVec S5120x1 32 := broadcastInDim S5120x1 ![0] bcast_S5120_S5120x1_0 ja

/-- 1 at node 0 and at every node whose batch differs from the batch of the node before it, else 0. -/
def firstOf (nb : IVec S5120 32) : FVec F S5120x1 .f32 :=
  broadcastInDim S5120x1 ![0] bcast_S5120_S5120x1_0
    (concatenate S5120 0
      [⟨S1, broadcastInDim S1 ![] bcast_S_S1 (constant S_ .f32 0x3F800000#32)⟩,
       ⟨S5119, uitofp .f32 (cmpi .ne (extractStridedSlice S5119 ![1] nb slices_S5120_S5119_1) (extractStridedSlice S5119 ![0] nb slices_S5120_S5119_0))⟩]
      concatenates_S1_S5119_S5120_d0)

/-- Result 0: per batch, the sum over its nodes of the mixed utility at the node's own action. -/
def tailQ (indiv : FVec F S5120x16 .f32) (umsg : FVec F S97280x16 .f32) (dst : IVec S97280 32) (nb ja : IVec S5120 32) :
    FVec F S256x1 .f32 :=
  Host.scatterAdd scatter_S256x1_S5120x1_S5120x1_1_0_0_1
    (broadcastInDim S256x1 ![] bcast_S_S256x1 (constant S_ .f32 0x00000000#32))
    (broadcastInDim S5120x1 ![0] bcast_S5120_S5120x1_0 nb)
    (take16 (mixed indiv umsg dst) (jaCol ja))

/-- Result 1: the node utility at the node's own action. -/
def tailP (indiv : FVec F S5120x16 .f32) (ja : IVec S5120 32) : FVec F S5120x1 .f32 := take16 indiv (jaCol ja)

/-- The node's own utility where it is the first node of its batch, else zero. -/
def target (indiv : FVec F S5120x16 .f32) (nb ja : IVec S5120 32) : FVec F S5120x1 .f32 := mulf (tailP indiv ja) (firstOf nb)

/-- Result 2: that target plus the sum, over incoming edges, of the source node's target. -/
def tailT (indiv : FVec F S5120x16 .f32) (src dst : IVec S97280 32) (nb ja : IVec S5120 32) : FVec F S5120x1 .f32 :=
  addf (Host.scatterAdd scatter_S5120x1_S97280x1_S97280x1_1_0_0_1
      (broadcastInDim S5120x1 ![] bcast_S_S5120x1 (constant S_ .f32 0x00000000#32))
      (broadcastInDim S97280x1 ![0] bcast_S97280_S97280x1_0 dst)
      (Host.gather gather_S5120x1_S97280x1_S97280x1_1_0_n_n_0_1_11 (target indiv nb ja) (srcCol src)))
    (target indiv nb ja)

end Cert.Tail
end
-- ==== Proof.RDefs.lean ====
/-
  THE REFERENCE PROGRAM'S RESULTS, NAMED BY PARTS. The reference is one straight line of host operations; its three
  results, as the composed terms of its run, are the shared tail functions applied to ITS node utilities
  (`refIndiv`: three dot products with bias rows and two rectifiers) and ITS edge messages (`refUmsg`): the two
  perceptrons of the edge features, each row of 256 read as a 16 × 16 table, the second transposed and added, the sum
  halved and transposed, and the entry at the edge's source action taken along the last axis (`take_along_axis`, with
  its wrap of a negative index and its fill of an out-of-range one), the trailing unit axis dropped.
-/
import proofs.«415585_j20169166422902_1_alg».proof.Proof.Gen.ReferenceIdeal
import Idealize.ShloMosaic.Lib.StableHlo.Run
import proofs.«415585_j20169166422902_1_alg».proof.Proof.Tail

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The reference's node utilities. -/
def refIndiv : FVec F S5120x16 .f32 :=
  addf (Host.dotGeneral dot_S5120x128_S128x16_S5120x16_1_0_0_1_n_n none (maximumf (addf (Host.dotGeneral dot_S5120x128_S128x128_S5120x128_1_0_0_1_n_n none (maximumf (addf (Host.dotGeneral dot_S5120x128_S128x128_S5120x128_1_0_0_1_n_n none (m ((c.tc : Thread nD τ).loc main_arg1)) (m ((c.tc : Thread nD τ).loc main_arg3))) (broadcastInDim S5120x128 ![0, 1] bcast_S1x128_S5120x128_0_1 (broadcastInDim S1x128 ![1] bcast_S128_S1x128_1 (m ((c.tc : Thread nD τ).loc main_arg4))))) (broadcastInDim S5120x128 ![] bcast_S_S5120x128 (constant S_ .f32 0x00000000#32))) (m ((c.tc : Thread nD τ).loc main_arg5))) (broadcastInDim S5120x128 ![0, 1] bcast_S1x128_S5120x128_0_1 (broadcastInDim S1x128 ![1] bcast_S128_S1x128_1 (m ((c.tc : Thread nD τ).loc main_arg6))))) (broadcastInDim S5120x128 ![] bcast_S_S5120x128 (constant S_ .f32 0x00000000#32))) (m ((c.tc : Thread nD τ).loc main_arg7))) (broadcastInDim S5120x16 ![0, 1] bcast_S1x16_S5120x16_0_1 (broadcastInDim S1x16 ![1] bcast_S16_S1x16_1 (m ((c.tc : Thread nD τ).loc main_arg8))))

/-- The reference's action of each edge's source node. -/
def refActs : IVec S97280 32 :=
  Host.gather gather_S5120_S97280x1_S97280_n_0_n_n_0_1_1 (m ((c.tc : Thread nD τ).loc main_arg18)) (broadcastInDim S97280x1 ![0] bcast_S97280_S97280x1_0 (select (cmpi .slt (m ((c.tc : Thread nD τ).loc main_arg15)) (broadcastInDim S97280 ![] bcast_S_S97280 (constantI S_ 32 0#32))) (addi (m ((c.tc : Thread nD τ).loc main_arg15)) (broadcastInDim S97280 ![] bcast_S_S97280 (constantI S_ 32 5120#32))) (m ((c.tc : Thread nD τ).loc main_arg15))))

/-- The reference's edge perceptron of a feature array `x`, as rows of 256. -/
def refHidden (x : FVec F S97280x192 .f32) : FVec F S97280x256 .f32 :=
  addf (Host.dotGeneral dot_S97280x128_S128x256_S97280x256_1_0_0_1_n_n none (maximumf (addf (Host.dotGeneral dot_S97280x128_S128x128_S97280x128_1_0_0_1_n_n none (maximumf (addf (Host.dotGeneral dot_S97280x192_S192x128_S97280x128_1_0_0_1_n_n none x (m ((c.tc : Thread nD τ).loc main_arg9))) (broadcastInDim S97280x128 ![0, 1] bcast_S1x128_S97280x128_0_1 (broadcastInDim S1x128 ![1] bcast_S128_S1x128_1 (m ((c.tc : Thread nD τ).loc main_arg10))))) (broadcastInDim S97280x128 ![] bcast_S_S97280x128 (constant S_ .f32 0x00000000#32))) (m ((c.tc : Thread nD τ).loc main_arg11))) (broadcastInDim S97280x128 ![0, 1] bcast_S1x128_S97280x128_0_1 (broadcastInDim S1x128 ![1] bcast_S128_S1x128_1 (m ((c.tc : Thread nD τ).loc main_arg12))))) (broadcastInDim S97280x128 ![] bcast_S_S97280x128 (constant S_ .f32 0x00000000#32))) (m ((c.tc : Thread nD τ).loc main_arg13))) (broadcastInDim S97280x256 ![0, 1] bcast_S1x256_S97280x256_0_1 (broadcastInDim S1x256 ![1] bcast_S256_S1x256_1 (m ((c.tc : Thread nD τ).loc main_arg14))))

/-- The first table of every edge. -/
def refUC : FVec F S97280x16x16 .f32 := shapeCast _ (refHidden m c (m ((c.tc : Thread nD τ).loc main_arg0))) shapeCasts_S97280x256_S97280x16x16

/-- The second table of every edge. -/
def refUCR : FVec F S97280x16x16 .f32 := shapeCast _ (refHidden m c (m ((c.tc : Thread nD τ).loc main_arg2))) shapeCasts_S97280x256_S97280x16x16

/-- Half the sum of the first table and the transposed second, transposed. -/
def refUtil : FVec F S97280x16x16 .f32 :=
  transpose S97280x16x16 [0, 2, 1] (mulf (addf (refUC m c) (transpose S97280x16x16 [0, 2, 1] (refUCR m c) transposes_S97280x16x16_S97280x16x16_0_2_1)) (broadcastInDim S97280x16x16 ![] bcast_S_S97280x16x16 (constant S_ .f32 0x3F000000#32))) transposes_S97280x16x16_S97280x16x16_0_2_1

/-- The source action of each edge, repeated over the 16 rows of its table, as a column of indices. -/
def refIdxCol : IVec S97280x16x1 32 :=
  broadcastInDim S97280x16x1 ![0, 1, 2] bcast_S97280x1x1_S97280x16x1_0_1_2 (broadcastInDim S97280x1x1 ![0] bcast_S97280_S97280x1x1_0 (refActs m c))

/-- That column with a negative entry wrapped by 16, as the rank-4 array the gather reads. -/
def refWrap3 : IVec S97280x16x1x1 32 :=
  shapeCast _ (select (cmpi .slt (refIdxCol m c) (broadcastInDim S97280x16x1 ![] bcast_S_S97280x16x1 (constantI S_ 32 0#32))) (addi (refIdxCol m c) (broadcastInDim S97280x16x1 ![] bcast_S_S97280x16x1 (constantI S_ 32 16#32))) (refIdxCol m c)) shapeCasts_S97280x16x1_S97280x16x1x1

/-- Where the wrapped index lies in [0, 15]. -/
def refMask3 : IVec S97280x16x1 1 :=
  Host.reduce IntOp.andi (andi (cmpi .sge (refWrap3 m c) (broadcastInDim S97280x16x1x1 ![] bcast_S_S97280x16x1x1 (constantI S_ 32 0#32))) (cmpi .sle (refWrap3 m c) (broadcastInDim S97280x16x1x1 ![0, 1, 2, 3] bcast_S1x1x1x1_S97280x16x1x1_0_1_2_3 (broadcastInDim S1x1x1x1 ![3] bcast_S1_S1x1x1x1_3 (constantI S1 32 15#32))))) (constantI S_ 1 1#1) reducesTo_S97280x16x1x1_S97280x16x1_d3 h_S_

/-- The reference's edge messages. -/
def refUmsg : FVec F S97280x16 .f32 :=
  shapeCast _ (select (refMask3 m c) (Host.gather gather_S97280x16x16_S97280x16x1x1_S97280x16x1_n_2_01_01_2_3_111 (refUtil m c) (refWrap3 m c)) (broadcastInDim S97280x16x1 ![] bcast_S_S97280x16x1 (constant S_ .f32 0x7FC00000#32))) shapeCasts_S97280x16x1_S97280x16

/-- The reference's source actions are the shared function of the two integer arrays. -/
theorem refActs_eq : refActs m c = Tail.actsOf (m ((c.tc : Thread nD τ).loc main_arg15)) (m ((c.tc : Thread nD τ).loc main_arg18)) := by
  unfold refActs Tail.actsOf Tail.srcCol
  rfl

end Cert.ReferenceIdeal.RefValue
end
-- ==== Proof.RChain.lean ====
/-
  THE REFERENCE'S THREE RESULTS, READ THROUGH ITS SEVEN STRETCHES. The reference is one line of host operations; the
  contents of a buffer after it is the fold of the operations from the launch memory, stretch after stretch. Read
  back: the first stretch leaves the node utilities, the next two the two edge tables and their halved, transposed sum,
  the fourth the edge messages, and the last three the three results, which are the shared tail functions of the node
  utilities, the edge messages and the launched integer arrays.
-/
import proofs.«415585_j20169166422902_1_alg».proof.Proof.ROps
import proofs.«415585_j20169166422902_1_alg».proof.Proof.RDefs

set_option maxRecDepth 16384

noncomputable section

namespace Cert.ReferenceIdeal.RChain

open Cert.ReferenceIdeal Cert.ReferenceIdeal.Gen Cert.ReferenceIdeal.Value Cert.ReferenceIdeal.RefValue
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- A buffer that no operation of a stretch writes holds after the stretch what it held before it. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments after each stretch: as launched (no operation writes an argument) -/

theorem RA_main_arg0 : RA m c (Proc.devRef .tc main_arg0) = (m ((c.tc : Thread nD τ).loc main_arg0)) :=
  (by unwritten opsA : RA m c (Proc.devRef .tc main_arg0) = launchContents m c (Proc.devRef .tc main_arg0)).trans rfl
theorem RA_main_arg2 : RA m c (Proc.devRef .tc main_arg2) = (m ((c.tc : Thread nD τ).loc main_arg2)) :=
  (by unwritten opsA : RA m c (Proc.devRef .tc main_arg2) = launchContents m c (Proc.devRef .tc main_arg2)).trans rfl
theorem RB_main_arg2 : RB m c (Proc.devRef .tc main_arg2) = (m ((c.tc : Thread nD τ).loc main_arg2)) :=
  (by unwritten opsB : RB m c (Proc.devRef .tc main_arg2) = RA m c (Proc.devRef .tc main_arg2)).trans (RA_main_arg2 m c)
theorem RA_main_arg9 : RA m c (Proc.devRef .tc main_arg9) = (m ((c.tc : Thread nD τ).loc main_arg9)) :=
  (by unwritten opsA : RA m c (Proc.devRef .tc main_arg9) = launchContents m c (Proc.devRef .tc main_arg9)).trans rfl
theorem RB_main_arg9 : RB m c (Proc.devRef .tc main_arg9) = (m ((c.tc : Thread nD τ).loc main_arg9)) :=
  (by unwritten opsB : RB m c (Proc.devRef .tc main_arg9) = RA m c (Proc.devRef .tc main_arg9)).trans (RA_main_arg9 m c)
theorem RA_main_arg10 : RA m c (Proc.devRef .tc main_arg10) = (m ((c.tc : Thread nD τ).loc main_arg10)) :=
  (by unwritten opsA : RA m c (Proc.devRef .tc main_arg10) = launchContents m c (Proc.devRef .tc main_arg10)).trans rfl
theorem RB_main_arg10 : RB m c (Proc.devRef .tc main_arg10) = (m ((c.tc : Thread nD τ).loc main_arg10)) :=
  (by unwritten opsB : RB m c (Proc.devRef .tc main_arg10) = RA m c (Proc.devRef .tc main_arg10)).trans (RA_main_arg10 m c)
theorem RA_main_arg11 : RA m c (Proc.devRef .tc main_arg11) = (m ((c.tc : Thread nD τ).loc main_arg11)) :=
  (by unwritten opsA : RA m c (Proc.devRef .tc main_arg11) = launchContents m c (Proc.devRef .tc main_arg11)).trans rfl
theorem RB_main_arg11 : RB m c (Proc.devRef .tc main_arg11) = (m ((c.tc : Thread nD τ).loc main_arg11)) :=
  (by unwritten opsB : RB m c (Proc.devRef .tc main_arg11) = RA m c (Proc.devRef .tc main_arg11)).trans (RA_main_arg11 m c)
theorem RA_main_arg12 : RA m c (Proc.devRef .tc main_arg12) = (m ((c.tc : Thread nD τ).loc main_arg12)) :=
  (by unwritten opsA : RA m c (Proc.devRef .tc main_arg12) = launchContents m c (Proc.devRef .tc main_arg12)).trans rfl
theorem RB_main_arg12 : RB m c (Proc.devRef .tc main_arg12) = (m ((c.tc : Thread nD τ).loc main_arg12)) :=
  (by unwritten opsB : RB m c (Proc.devRef .tc main_arg12) = RA m c (Proc.devRef .tc main_arg12)).trans (RA_main_arg12 m c)
theorem RA_main_arg13 : RA m c (Proc.devRef .tc main_arg13) = (m ((c.tc : Thread nD τ).loc main_arg13)) :=
  (by unwritten opsA : RA m c (Proc.devRef .tc main_arg13) = launchContents m c (Proc.devRef .tc main_arg13)).trans rfl
theorem RB_main_arg13 : RB m c (Proc.devRef .tc main_arg13) = (m ((c.tc : Thread nD τ).loc main_arg13)) :=
  (by unwritten opsB : RB m c (Proc.devRef .tc main_arg13) = RA m c (Proc.devRef .tc main_arg13)).trans (RA_main_arg13 m c)
theorem RA_main_arg14 : RA m c (Proc.devRef .tc main_arg14) = (m ((c.tc : Thread nD τ).loc main_arg14)) :=
  (by unwritten opsA : RA m c (Proc.devRef .tc main_arg14) = launchContents m c (Proc.devRef .tc main_arg14)).trans rfl
theorem RB_main_arg14 : RB m c (Proc.devRef .tc main_arg14) = (m ((c.tc : Thread nD τ).loc main_arg14)) :=
  (by unwritten opsB : RB m c (Proc.devRef .tc main_arg14) = RA m c (Proc.devRef .tc main_arg14)).trans (RA_main_arg14 m c)
theorem RA_main_arg15 : RA m c (Proc.devRef .tc main_arg15) = (m ((c.tc : Thread nD τ).loc main_arg15)) :=
  (by unwritten opsA : RA m c (Proc.devRef .tc main_arg15) = launchContents m c (Proc.devRef .tc main_arg15)).trans rfl
theorem RB_main_arg15 : RB m c (Proc.devRef .tc main_arg15) = (m ((c.tc : Thread nD τ).loc main_arg15)) :=
  (by unwritten opsB : RB m c (Proc.devRef .tc main_arg15) = RA m c (Proc.devRef .tc main_arg15)).trans (RA_main_arg15 m c)
theorem RC_main_arg15 : RC m c (Proc.devRef .tc main_arg15) = (m ((c.tc : Thread nD τ).loc main_arg15)) :=
  (by unwritten opsC : RC m c (Proc.devRef .tc main_arg15) = RB m c (Proc.devRef .tc main_arg15)).trans (RB_main_arg15 m c)
theorem RD_main_arg15 : RD m c (Proc.devRef .tc main_arg15) = (m ((c.tc : Thread nD τ).loc main_arg15)) :=
  (by unwritten opsD : RD m c (Proc.devRef .tc main_arg15) = RC m c (Proc.devRef .tc main_arg15)).trans (RC_main_arg15 m c)
theorem RE_main_arg15 : RE m c (Proc.devRef .tc main_arg15) = (m ((c.tc : Thread nD τ).loc main_arg15)) :=
  (by unwritten opsE : RE m c (Proc.devRef .tc main_arg15) = RD m c (Proc.devRef .tc main_arg15)).trans (RD_main_arg15 m c)
theorem RF_main_arg15 : RF m c (Proc.devRef .tc main_arg15) = (m ((c.tc : Thread nD τ).loc main_arg15)) :=
  (by unwritten opsF : RF m c (Proc.devRef .tc main_arg15) = RE m c (Proc.devRef .tc main_arg15)).trans (RE_main_arg15 m c)
theorem RA_main_arg16 : RA m c (Proc.devRef .tc main_arg16) = (m ((c.tc : Thread nD τ).loc main_arg16)) :=
  (by unwritten opsA : RA m c (Proc.devRef .tc main_arg16) = launchContents m c (Proc.devRef .tc main_arg16)).trans rfl
theorem RB_main_arg16 : RB m c (Proc.devRef .tc main_arg16) = (m ((c.tc : Thread nD τ).loc main_arg16)) :=
  (by unwritten opsB : RB m c (Proc.devRef .tc main_arg16) = RA m c (Proc.devRef .tc main_arg16)).trans (RA_main_arg16 m c)
theorem RC_main_arg16 : RC m c (Proc.devRef .tc main_arg16) = (m ((c.tc : Thread nD τ).loc main_arg16)) :=
  (by unwritten opsC : RC m c (Proc.devRef .tc main_arg16) = RB m c (Proc.devRef .tc main_arg16)).trans (RB_main_arg16 m c)
theorem RD_main_arg16 : RD m c (Proc.devRef .tc main_arg16) = (m ((c.tc : Thread nD τ).loc main_arg16)) :=
  (by unwritten opsD : RD m c (Proc.devRef .tc main_arg16) = RC m c (Proc.devRef .tc main_arg16)).trans (RC_main_arg16 m c)
theorem RE_main_arg16 : RE m c (Proc.devRef .tc main_arg16) = (m ((c.tc : Thread nD τ).loc main_arg16)) :=
  (by unwritten opsE : RE m c (Proc.devRef .tc main_arg16) = RD m c (Proc.devRef .tc main_arg16)).trans (RD_main_arg16 m c)
theorem RF_main_arg16 : RF m c (Proc.devRef .tc main_arg16) = (m ((c.tc : Thread nD τ).loc main_arg16)) :=
  (by unwritten opsF : RF m c (Proc.devRef .tc main_arg16) = RE m c (Proc.devRef .tc main_arg16)).trans (RE_main_arg16 m c)
theorem RA_main_arg17 : RA m c (Proc.devRef .tc main_arg17) = (m ((c.tc : Thread nD τ).loc main_arg17)) :=
  (by unwritten opsA : RA m c (Proc.devRef .tc main_arg17) = launchContents m c (Proc.devRef .tc main_arg17)).trans rfl
theorem RB_main_arg17 : RB m c (Proc.devRef .tc main_arg17) = (m ((c.tc : Thread nD τ).loc main_arg17)) :=
  (by unwritten opsB : RB m c (Proc.devRef .tc main_arg17) = RA m c (Proc.devRef .tc main_arg17)).trans (RA_main_arg17 m c)
theorem RC_main_arg17 : RC m c (Proc.devRef .tc main_arg17) = (m ((c.tc : Thread nD τ).loc main_arg17)) :=
  (by unwritten opsC : RC m c (Proc.devRef .tc main_arg17) = RB m c (Proc.devRef .tc main_arg17)).trans (RB_main_arg17 m c)
theorem RD_main_arg17 : RD m c (Proc.devRef .tc main_arg17) = (m ((c.tc : Thread nD τ).loc main_arg17)) :=
  (by unwritten opsD : RD m c (Proc.devRef .tc main_arg17) = RC m c (Proc.devRef .tc main_arg17)).trans (RC_main_arg17 m c)
theorem RE_main_arg17 : RE m c (Proc.devRef .tc main_arg17) = (m ((c.tc : Thread nD τ).loc main_arg17)) :=
  (by unwritten opsE : RE m c (Proc.devRef .tc main_arg17) = RD m c (Proc.devRef .tc main_arg17)).trans (RD_main_arg17 m c)
theorem RA_main_arg18 : RA m c (Proc.devRef .tc main_arg18) = (m ((c.tc : Thread nD τ).loc main_arg18)) :=
  (by unwritten opsA : RA m c (Proc.devRef .tc main_arg18) = launchContents m c (Proc.devRef .tc main_arg18)).trans rfl
theorem RB_main_arg18 : RB m c (Proc.devRef .tc main_arg18) = (m ((c.tc : Thread nD τ).loc main_arg18)) :=
  (by unwritten opsB : RB m c (Proc.devRef .tc main_arg18) = RA m c (Proc.devRef .tc main_arg18)).trans (RA_main_arg18 m c)
theorem RC_main_arg18 : RC m c (Proc.devRef .tc main_arg18) = (m ((c.tc : Thread nD τ).loc main_arg18)) :=
  (by unwritten opsC : RC m c (Proc.devRef .tc main_arg18) = RB m c (Proc.devRef .tc main_arg18)).trans (RB_main_arg18 m c)
theorem RD_main_arg18 : RD m c (Proc.devRef .tc main_arg18) = (m ((c.tc : Thread nD τ).loc main_arg18)) :=
  (by unwritten opsD : RD m c (Proc.devRef .tc main_arg18) = RC m c (Proc.devRef .tc main_arg18)).trans (RC_main_arg18 m c)
theorem RE_main_arg18 : RE m c (Proc.devRef .tc main_arg18) = (m ((c.tc : Thread nD τ).loc main_arg18)) :=
  (by unwritten opsE : RE m c (Proc.devRef .tc main_arg18) = RD m c (Proc.devRef .tc main_arg18)).trans (RD_main_arg18 m c)

/-! ## The fourth stretch in four pieces: the source-action column, its wrap by 16, the range mask, the selection -/

abbrev opsD1 : List (HloOp τ sig (Elt F)) :=
  [ nullary main_c (constantI S_ 32 0#32),
    unary main_c main_v49 (broadcastInDim S97280 ![] bcast_S_S97280 : (⟨S_, .i32⟩ : BufTy).Contents (Elt F) → (⟨S97280, .i32⟩ : BufTy).Contents (Elt F)),
    binary main_arg15 main_v49 main_v50 (cmpi .slt : (⟨S97280, .i32⟩ : BufTy).Contents (Elt F) → (⟨S97280, .i32⟩ : BufTy).Contents (Elt F) → (⟨S97280, .i1⟩ : BufTy).Contents (Elt F)),
    nullary main_c_0 (constantI S_ 32 5120#32),
    unary main_c_0 main_v51 (broadcastInDim S97280 ![] bcast_S_S97280 : (⟨S_, .i32⟩ : BufTy).Contents (Elt F) → (⟨S97280, .i32⟩ : BufTy).Contents (Elt F)),
    binary main_arg15 main_v51 main_v52 (addi : (⟨S97280, .i32⟩ : BufTy).Contents (Elt F) → (⟨S97280, .i32⟩ : BufTy).Contents (Elt F) → (⟨S97280, .i32⟩ : BufTy).Contents (Elt F)),
    ternary main_v50 main_v52 main_arg15 main_v53 (select : (⟨S97280, .i1⟩ : BufTy).Contents (Elt F) → (⟨S97280, .i32⟩ : BufTy).Contents (Elt F) → (⟨S97280, .i32⟩ : BufTy).Contents (Elt F) → (⟨S97280, .i32⟩ : BufTy).Contents (Elt F)),
    unary main_v53 main_v54 (broadcastInDim S97280x1 ![0] bcast_S97280_S97280x1_0 : (⟨S97280, .i32⟩ : BufTy).Contents (Elt F) → (⟨S97280x1, .i32⟩ : BufTy).Contents (Elt F)),
    binary main_arg18 main_v54 main_v55 ((fun x i => Host.gather gather_S5120_S97280x1_S97280_n_0_n_n_0_1_1 x i) : (⟨S5120, .i32⟩ : BufTy).Contents (Elt F) → (⟨S97280x1, .i32⟩ : BufTy).Contents (Elt F) → (⟨S97280, .i32⟩ : BufTy).Contents (Elt F)),
    unary main_v55 main_v56 (broadcastInDim S97280x1x1 ![0] bcast_S97280_S97280x1x1_0 : (⟨S97280, .i32⟩ : BufTy).Contents (Elt F) → (⟨S97280x1x1, .i32⟩ : BufTy).Contents (Elt F)),
    unary main_v56 main_v57 (broadcastInDim S97280x16x1 ![0, 1, 2] bcast_S97280x1x1_S97280x16x1_0_1_2 : (⟨S97280x1x1, .i32⟩ : BufTy).Contents (Elt F) → (⟨S97280x16x1, .i32⟩ : BufTy).Contents (Elt F)) ]
abbrev opsD2 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S97280x16x1, .i32⟩) main_call6_v0) (broadcastInDim S97280x16x1 ![] bcast_S_S97280x16x1),
    TRef.binary (TRef.of (T := ⟨S97280x16x1, .i32⟩) main_v57) (TRef.of (T := ⟨S97280x16x1, .i32⟩) main_call6_v0) (TRef.of (T := ⟨S97280x16x1, .i1⟩) main_call6_v1) (cmpi .slt),
    TRef.nullary (TRef.of (T := ⟨S_, .i32⟩) main_call6_c_0) (constantI S_ 32 16#32),
    TRef.unary (TRef.of (T := ⟨S_, .i32⟩) main_call6_c_0) (TRef.of (T := ⟨S97280x16x1, .i32⟩) main_call6_v2) (broadcastInDim S97280x16x1 ![] bcast_S_S97280x16x1),
    TRef.binary (TRef.of (T := ⟨S97280x16x1, .i32⟩) main_v57) (TRef.of (T := ⟨S97280x16x1, .i32⟩) main_call6_v2) (TRef.of (T := ⟨S97280x16x1, .i32⟩) main_call6_v3) addi,
    TRef.ternary (TRef.of (T := ⟨S97280x16x1, .i1⟩) main_call6_v1) (TRef.of (T := ⟨S97280x16x1, .i32⟩) main_call6_v3) (TRef.of (T := ⟨S97280x16x1, .i32⟩) main_v57) (TRef.of (T := ⟨S97280x16x1, .i32⟩) main_call6_v4) select,
    TRef.reshape (TRef.of (T := ⟨S97280x16x1, .i32⟩) main_call6_v4) (TRef.of (T := ⟨S97280x16x1x1, .i32⟩) main_call6_v5) rfl shapeCasts_S97280x16x1_S97280x16x1x1 ]
abbrev opsD3 : List (HloOp τ sig (Elt F)) :=
  [ TRef.nullary (TRef.of (T := ⟨S1, .i32⟩) main_call6_c_1) (constantI S1 32 15#32),
    TRef.nullary (TRef.of (T := ⟨S_, .i32⟩) main_call6_c_2) (constantI S_ 32 0#32),
    TRef.unary (TRef.of (T := ⟨S_, .i32⟩) main_call6_c_2) (TRef.of (T := ⟨S97280x16x1x1, .i32⟩) main_call6_v6) (broadcastInDim S97280x16x1x1 ![] bcast_S_S97280x16x1x1),
    TRef.binary (TRef.of (T := ⟨S97280x16x1x1, .i32⟩) main_call6_v5) (TRef.of (T := ⟨S97280x16x1x1, .i32⟩) main_call6_v6) (TRef.of (T := ⟨S97280x16x1x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3),
    TRef.unary (TRef.of (T := ⟨S1x1x1x1, .i32⟩) main_call6_v8) (TRef.of (T := ⟨S97280x16x1x1, .i32⟩) main_call6_v9) (broadcastInDim S97280x16x1x1 ![0, 1, 2, 3] bcast_S1x1x1x1_S97280x16x1x1_0_1_2_3),
    TRef.binary (TRef.of (T := ⟨S97280x16x1x1, .i32⟩) main_call6_v5) (TRef.of (T := ⟨S97280x16x1x1, .i32⟩) main_call6_v9) (TRef.of (T := ⟨S97280x16x1x1, .i1⟩) main_call6_v10) (cmpi .sle),
    TRef.binary (TRef.of (T := ⟨S97280x16x1x1, .i1⟩) main_call6_v7) (TRef.of (T := ⟨S97280x16x1x1, .i1⟩) main_call6_v10) (TRef.of (T := ⟨S97280x16x1x1, .i1⟩) main_call6_v11) andi,
    TRef.nullary (TRef.of (T := ⟨S_, .i1⟩) main_call6_c_3) (constantI S_ 1 1#1),
    TRef.binary (TRef.of (T := ⟨S97280x16x1x1, .i1⟩) main_call6_v11) (TRef.of (T := ⟨S_, .i1⟩) main_call6_c_3) (TRef.of (T := ⟨S97280x16x1, .i1⟩) main_call6_v12) (fun x v => Host.reduce IntOp.andi x v reducesTo_S97280x16x1x1_S97280x16x1_d3 h_S_) ]
abbrev opsD4 : List (HloOp τ sig (Elt F)) :=
  [ TRef.binary (TRef.of (T := ⟨S97280x16x16, .f32⟩) main_v48) (TRef.of (T := ⟨S97280x16x1x1, .i32⟩) main_call6_v5) (TRef.of (T := ⟨S97280x16x1, .f32⟩) main_call6_v13) (fun x i => Host.gather gather_S97280x16x16_S97280x16x1x1_S97280x16x1_n_2_01_01_2_3_111 x i),
    TRef.nullary (TRef.of (T := ⟨S_, .f32⟩) main_call6_cst) (constant S_ .f32 0x7FC00000#32),
    TRef.unary (TRef.of (T := ⟨S_, .f32⟩) main_call6_cst) (TRef.of (T := ⟨S97280x16x1, .f32⟩) main_call6_v14) (broadcastInDim S97280x16x1 ![] bcast_S_S97280x16x1),
    TRef.ternary (TRef.of (T := ⟨S97280x16x1, .i1⟩) main_call6_v12) (TRef.of (T := ⟨S97280x16x1, .f32⟩) main_call6_v13) (TRef.of (T := ⟨S97280x16x1, .f32⟩) main_call6_v14) (TRef.of (T := ⟨S97280x16x1, .f32⟩) main_v58) select,
    reshape main_v58 main_v59 rfl shapeCasts_S97280x16x1_S97280x16 ]

/-- The fourth stretch is its four pieces one after the other. -/
theorem opsD_eq : (opsD : List (HloOp τ sig (Elt F))) = opsD1 ++ (opsD2 ++ (opsD3 ++ opsD4)) := rfl

section Pieces
variable (V : Valuation τ sig (Elt F))

/-- The first piece leaves the source action of each edge, repeated over the 16 rows of its table. -/
theorem pieceD1_v57 (h15 : V (Proc.devRef .tc main_arg15) = (m ((c.tc : Thread nD τ).loc main_arg15))) (h18 : V (Proc.devRef .tc main_arg18) = (m ((c.tc : Thread nD τ).loc main_arg18))) :
    StableHlo.after opsD1 V (Proc.devRef .tc main_v57) = refIdxCol m c := by
  unfold refIdxCol refActs
  after_results_simp
  rw [h15, h18] <;> rfl

/-- The second piece leaves that column with a negative entry wrapped by 16. -/
theorem pieceD2_v5 (h57 : V (Proc.devRef .tc main_v57) = refIdxCol m c) :
    StableHlo.after opsD2 V (Proc.devRef .tc main_call6_v5) = refWrap3 m c := by
  unfold refWrap3
  after_results_simp
  rw [h57] <;> rfl

attribute [local irreducible] Host.reduce in
/-- The third piece leaves where the wrapped index lies in [0, 15]. -/
theorem pieceD3_v12 (h5 : V (Proc.devRef .tc main_call6_v5) = refWrap3 m c) :
    StableHlo.after opsD3 V (Proc.devRef .tc main_call6_v12) = refMask3 m c := by
  unfold refMask3
  generalize refWrap3 m c = w at h5 ⊢
  subst h5
  after_results_simp <;> rfl

/-- The last piece leaves the edge messages. -/
theorem pieceD4_v59 (h48 : V (Proc.devRef .tc main_v48) = refUtil m c) (h5 : V (Proc.devRef .tc main_call6_v5) = refWrap3 m c)
    (h12 : V (Proc.devRef .tc main_call6_v12) = refMask3 m c) :
    StableHlo.after opsD4 V (Proc.devRef .tc main_v59) = refUmsg m c := by
  unfold refUmsg
  generalize refUtil m c = u at h48 ⊢
  generalize refWrap3 m c = w at h5 ⊢
  generalize refMask3 m c = k at h12 ⊢
  subst h48 h5 h12
  after_results_simp <;> rfl

end Pieces

/-! ## What each stretch leaves, from any contents `V` at its entry that holds what the stretch reads -/

section Stretches
variable (V : Valuation τ sig (Elt F))

/-- The second stretch leaves the first table of every edge. -/
theorem stretchB_v28 (h0 : V (Proc.devRef .tc main_arg0) = (m ((c.tc : Thread nD τ).loc main_arg0))) (h9 : V (Proc.devRef .tc main_arg9) = (m ((c.tc : Thread nD τ).loc main_arg9))) (h10 : V (Proc.devRef .tc main_arg10) = (m ((c.tc : Thread nD τ).loc main_arg10))) (h11 : V (Proc.devRef .tc main_arg11) = (m ((c.tc : Thread nD τ).loc main_arg11))) (h12 : V (Proc.devRef .tc main_arg12) = (m ((c.tc : Thread nD τ).loc main_arg12))) (h13 : V (Proc.devRef .tc main_arg13) = (m ((c.tc : Thread nD τ).loc main_arg13))) (h14 : V (Proc.devRef .tc main_arg14) = (m ((c.tc : Thread nD τ).loc main_arg14))) :
    StableHlo.after opsB V (Proc.devRef .tc main_v28) = refUC m c := by
  unfold refUC refHidden
  after_results_simp
  rw [h0, h9, h10, h11, h12, h13, h14] <;> rfl

/-- The third stretch leaves half the sum of the first table and the transposed second, transposed. -/
theorem stretchC_v48 (h28 : V (Proc.devRef .tc main_v28) = refUC m c) (h2 : V (Proc.devRef .tc main_arg2) = (m ((c.tc : Thread nD τ).loc main_arg2))) (h9 : V (Proc.devRef .tc main_arg9) = (m ((c.tc : Thread nD τ).loc main_arg9))) (h10 : V (Proc.devRef .tc main_arg10) = (m ((c.tc : Thread nD τ).loc main_arg10))) (h11 : V (Proc.devRef .tc main_arg11) = (m ((c.tc : Thread nD τ).loc main_arg11))) (h12 : V (Proc.devRef .tc main_arg12) = (m ((c.tc : Thread nD τ).loc main_arg12))) (h13 : V (Proc.devRef .tc main_arg13) = (m ((c.tc : Thread nD τ).loc main_arg13))) (h14 : V (Proc.devRef .tc main_arg14) = (m ((c.tc : Thread nD τ).loc main_arg14))) :
    StableHlo.after opsC V (Proc.devRef .tc main_v48) = refUtil m c := by
  unfold refUtil refUCR refHidden
  after_results_simp
  rw [h28, h2, h9, h10, h11, h12, h13, h14] <;> rfl

/-- The fourth stretch leaves the edge messages. -/
theorem stretchD_v59 (h48 : V (Proc.devRef .tc main_v48) = refUtil m c) (h15 : V (Proc.devRef .tc main_arg15) = (m ((c.tc : Thread nD τ).loc main_arg15))) (h18 : V (Proc.devRef .tc main_arg18) = (m ((c.tc : Thread nD τ).loc main_arg18))) :
    StableHlo.after opsD V (Proc.devRef .tc main_v59) = refUmsg m c := by
  rw [opsD_eq, StableHlo.after_append, StableHlo.after_append, StableHlo.after_append]
  have a57 : StableHlo.after opsD1 V (Proc.devRef .tc main_v57) = refIdxCol m c := pieceD1_v57 m c V h15 h18
  have a5 : StableHlo.after opsD2 (StableHlo.after opsD1 V) (Proc.devRef .tc main_call6_v5) = refWrap3 m c := pieceD2_v5 m c _ a57
  have a12 : StableHlo.after opsD3 (StableHlo.after opsD2 (StableHlo.after opsD1 V)) (Proc.devRef .tc main_call6_v12) = refMask3 m c := pieceD3_v12 m c _ a5
  have b5 : StableHlo.after opsD3 (StableHlo.after opsD2 (StableHlo.after opsD1 V)) (Proc.devRef .tc main_call6_v5) = refWrap3 m c :=
    (by unwritten opsD3 : StableHlo.after opsD3 (StableHlo.after opsD2 (StableHlo.after opsD1 V)) (Proc.devRef .tc main_call6_v5) = StableHlo.after opsD2 (StableHlo.after opsD1 V) (Proc.devRef .tc main_call6_v5)).trans a5
  have b48 : StableHlo.after opsD3 (StableHlo.after opsD2 (StableHlo.after opsD1 V)) (Proc.devRef .tc main_v48) = refUtil m c :=
    (by unwritten opsD3 : StableHlo.after opsD3 (StableHlo.after opsD2 (StableHlo.after opsD1 V)) (Proc.devRef .tc main_v48) = StableHlo.after opsD2 (StableHlo.after opsD1 V) (Proc.devRef .tc main_v48)).trans
      ((by unwritten opsD2 : StableHlo.after opsD2 (StableHlo.after opsD1 V) (Proc.devRef .tc main_v48) = StableHlo.after opsD1 V (Proc.devRef .tc main_v48)).trans
        ((by unwritten opsD1 : StableHlo.after opsD1 V (Proc.devRef .tc main_v48) = V (Proc.devRef .tc main_v48)).trans h48))
  exact pieceD4_v59 m c _ b48 b5 a12

/-- The fifth stretch leaves result 0 of what it reads. -/
theorem stretchE_v70 :
    StableHlo.after opsE V (Proc.devRef .tc main_v70)
      = Tail.tailQ (F := F) (V (Proc.devRef .tc main_v13)) (V (Proc.devRef .tc main_v59)) (V (Proc.devRef .tc main_arg16)) (V (Proc.devRef .tc main_arg17)) (V (Proc.devRef .tc main_arg18)) := by
  unfold Tail.tailQ Tail.take16 Tail.wrap16 Tail.mixed Tail.jaCol
  after_results_simp <;> rfl

/-- The sixth stretch leaves the indicator of a batch's first node … -/
theorem stretchF_v77 :
    StableHlo.after opsF V (Proc.devRef .tc main_v77) = Tail.firstOf (F := F) (V (Proc.devRef .tc main_arg17)) := by
  unfold Tail.firstOf
  after_results_simp <;> rfl

/-- … and result 1 of what it reads. -/
theorem stretchF_v79 :
    StableHlo.after opsF V (Proc.devRef .tc main_v79) = Tail.tailP (F := F) (V (Proc.devRef .tc main_v13)) (V (Proc.devRef .tc main_arg18)) := by
  unfold Tail.tailP Tail.take16 Tail.wrap16 Tail.jaCol
  after_results_simp <;> rfl

/-- The last stretch leaves result 2, from result 1 and the first-node indicator. -/
theorem stretchG_v91 (indiv : FVec F S5120x16 .f32) (src dst : IVec S97280 32) (nb ja : IVec S5120 32)
    (h79 : V (Proc.devRef .tc main_v79) = Tail.tailP indiv ja) (h77 : V (Proc.devRef .tc main_v77) = Tail.firstOf (F := F) nb)
    (h15 : V (Proc.devRef .tc main_arg15) = src) (h16 : V (Proc.devRef .tc main_arg16) = dst) :
    StableHlo.after opsG V (Proc.devRef .tc main_v91) = Tail.tailT indiv src dst nb ja := by
  unfold Tail.tailT Tail.target Tail.srcCol
  after_results_simp
  rw [h79, h77, h15, h16] <;> rfl

end Stretches

/-! ## The stretches chained from the launch -/

/-- The first stretch leaves the node utilities. -/
theorem RA_main_v13 : RA m c (Proc.devRef .tc main_v13) = refIndiv m c := by
  show StableHlo.after opsA (launchContents m c) (Proc.devRef .tc main_v13) = _
  unfold refIndiv
  after_results_simp <;> rfl
theorem RB_main_v13 : RB m c (Proc.devRef .tc main_v13) = refIndiv m c :=
  (by unwritten opsB : RB m c (Proc.devRef .tc main_v13) = RA m c (Proc.devRef .tc main_v13)).trans (RA_main_v13 m c)
theorem RC_main_v13 : RC m c (Proc.devRef .tc main_v13) = refIndiv m c :=
  (by unwritten opsC : RC m c (Proc.devRef .tc main_v13) = RB m c (Proc.devRef .tc main_v13)).trans (RB_main_v13 m c)
theorem RD_main_v13 : RD m c (Proc.devRef .tc main_v13) = refIndiv m c :=
  (by unwritten opsD : RD m c (Proc.devRef .tc main_v13) = RC m c (Proc.devRef .tc main_v13)).trans (RC_main_v13 m c)
theorem RE_main_v13 : RE m c (Proc.devRef .tc main_v13) = refIndiv m c :=
  (by unwritten opsE : RE m c (Proc.devRef .tc main_v13) = RD m c (Proc.devRef .tc main_v13)).trans (RD_main_v13 m c)

theorem RB_main_v28 : RB m c (Proc.devRef .tc main_v28) = refUC m c :=
  stretchB_v28 m c (RA m c) (RA_main_arg0 m c) (RA_main_arg9 m c) (RA_main_arg10 m c) (RA_main_arg11 m c) (RA_main_arg12 m c) (RA_main_arg13 m c) (RA_main_arg14 m c)
theorem RC_main_v48 : RC m c (Proc.devRef .tc main_v48) = refUtil m c :=
  stretchC_v48 m c (RB m c) (RB_main_v28 m c) (RB_main_arg2 m c) (RB_main_arg9 m c) (RB_main_arg10 m c) (RB_main_arg11 m c) (RB_main_arg12 m c) (RB_main_arg13 m c) (RB_main_arg14 m c)
theorem RD_main_v59 : RD m c (Proc.devRef .tc main_v59) = refUmsg m c :=
  stretchD_v59 m c (RC m c) (RC_main_v48 m c) (RC_main_arg15 m c) (RC_main_arg18 m c)

theorem RE_main_v70 : RE m c (Proc.devRef .tc main_v70) = Tail.tailQ (refIndiv m c) (refUmsg m c) (m ((c.tc : Thread nD τ).loc main_arg16)) (m ((c.tc : Thread nD τ).loc main_arg17)) (m ((c.tc : Thread nD τ).loc main_arg18)) := by
  refine (stretchE_v70 (RD m c)).trans ?_
  rw [RD_main_v13 m c, RD_main_v59 m c, RD_main_arg16 m c, RD_main_arg17 m c, RD_main_arg18 m c]
theorem RF_main_v70 : RF m c (Proc.devRef .tc main_v70) = Tail.tailQ (refIndiv m c) (refUmsg m c) (m ((c.tc : Thread nD τ).loc main_arg16)) (m ((c.tc : Thread nD τ).loc main_arg17)) (m ((c.tc : Thread nD τ).loc main_arg18)) :=
  (by unwritten opsF : RF m c (Proc.devRef .tc main_v70) = RE m c (Proc.devRef .tc main_v70)).trans (RE_main_v70 m c)

theorem RF_main_v77 : RF m c (Proc.devRef .tc main_v77) = Tail.firstOf (F := F) (m ((c.tc : Thread nD τ).loc main_arg17)) :=
  (stretchF_v77 (RE m c)).trans (congrArg (Tail.firstOf (F := F)) (RE_main_arg17 m c))
theorem RF_main_v79 : RF m c (Proc.devRef .tc main_v79) = Tail.tailP (refIndiv m c) (m ((c.tc : Thread nD τ).loc main_arg18)) :=
  (stretchF_v79 (RE m c)).trans (congrArg₂ (Tail.tailP (F := F)) (RE_main_v13 m c) (RE_main_arg18 m c))

/-- Result 0 after the whole line. -/
theorem RG_main_v70 :
    RG m c (Proc.devRef .tc main_v70) = Tail.tailQ (refIndiv m c) (refUmsg m c) (m ((c.tc : Thread nD τ).loc main_arg16)) (m ((c.tc : Thread nD τ).loc main_arg17)) (m ((c.tc : Thread nD τ).loc main_arg18)) :=
  (by unwritten opsG : RG m c (Proc.devRef .tc main_v70) = RF m c (Proc.devRef .tc main_v70)).trans (RF_main_v70 m c)

/-- Result 1 after the whole line. -/
theorem RG_main_v79 : RG m c (Proc.devRef .tc main_v79) = Tail.tailP (refIndiv m c) (m ((c.tc : Thread nD τ).loc main_arg18)) :=
  (by unwritten opsG : RG m c (Proc.devRef .tc main_v79) = RF m c (Proc.devRef .tc main_v79)).trans (RF_main_v79 m c)

/-- Result 2 after the whole line. -/
theorem RG_main_v91 :
    RG m c (Proc.devRef .tc main_v91) = Tail.tailT (refIndiv m c) (m ((c.tc : Thread nD τ).loc main_arg15)) (m ((c.tc : Thread nD τ).loc main_arg16)) (m ((c.tc : Thread nD τ).loc main_arg17)) (m ((c.tc : Thread nD τ).loc main_arg18)) :=
  stretchG_v91 (RF m c) (refIndiv m c) _ _ _ _ (RF_main_v79 m c) (RF_main_v77 m c) (RF_main_arg15 m c) (RF_main_arg16 m c)

end Cert.ReferenceIdeal.RChain
end
-- ==== Proof.RArgs.lean ====
/-
  THE REFERENCE LEAVES ITS ARGUMENTS AS LAUNCHED: no operation of any of the seven stretches writes an argument's
  buffer, so the fold at an argument's buffer walks back to the launch memory.
-/
import proofs.«415585_j20169166422902_1_alg».proof.Proof.ROps
import proofs.«415585_j20169166422902_1_alg».proof.Proof.RDefs

set_option maxRecDepth 16384

noncomputable section

namespace Cert.ReferenceIdeal.RArgs

open Cert.ReferenceIdeal Cert.ReferenceIdeal.Gen Cert.ReferenceIdeal.Value Cert.ReferenceIdeal.RefValue
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- One step back: a buffer that no operation of a stretch writes holds after the stretch what it held before it. -/
local macro "unwritten " ops:ident : tactic =>
  `(tactic| refine Eq.trans (StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))) ?_)

/-- The walk back through the seven stretches to the launch memory. -/
local macro "walk_back" : tactic =>
  `(tactic| (
      unwritten opsG
      unwritten opsF
      unwritten opsE
      unwritten opsD
      unwritten opsC
      unwritten opsB
      unwritten opsA
      rfl))

theorem RG_main_arg0 : RG m c (Proc.devRef .tc main_arg0) = m ((c.tc : Thread nD τ).loc main_arg0) := by
  walk_back
theorem RG_main_arg1 : RG m c (Proc.devRef .tc main_arg1) = m ((c.tc : Thread nD τ).loc main_arg1) := by
  walk_back
theorem RG_main_arg2 : RG m c (Proc.devRef .tc main_arg2) = m ((c.tc : Thread nD τ).loc main_arg2) := by
  walk_back
theorem RG_main_arg3 : RG m c (Proc.devRef .tc main_arg3) = m ((c.tc : Thread nD τ).loc main_arg3) := by
  walk_back
theorem RG_main_arg4 : RG m c (Proc.devRef .tc main_arg4) = m ((c.tc : Thread nD τ).loc main_arg4) := by
  walk_back
theorem RG_main_arg5 : RG m c (Proc.devRef .tc main_arg5) = m ((c.tc : Thread nD τ).loc main_arg5) := by
  walk_back
theorem RG_main_arg6 : RG m c (Proc.devRef .tc main_arg6) = m ((c.tc : Thread nD τ).loc main_arg6) := by
  walk_back
theorem RG_main_arg7 : RG m c (Proc.devRef .tc main_arg7) = m ((c.tc : Thread nD τ).loc main_arg7) := by
  walk_back
theorem RG_main_arg8 : RG m c (Proc.devRef .tc main_arg8) = m ((c.tc : Thread nD τ).loc main_arg8) := by
  walk_back
theorem RG_main_arg9 : RG m c (Proc.devRef .tc main_arg9) = m ((c.tc : Thread nD τ).loc main_arg9) := by
  walk_back
theorem RG_main_arg10 : RG m c (Proc.devRef .tc main_arg10) = m ((c.tc : Thread nD τ).loc main_arg10) := by
  walk_back
theorem RG_main_arg11 : RG m c (Proc.devRef .tc main_arg11) = m ((c.tc : Thread nD τ).loc main_arg11) := by
  walk_back
theorem RG_main_arg12 : RG m c (Proc.devRef .tc main_arg12) = m ((c.tc : Thread nD τ).loc main_arg12) := by
  walk_back
theorem RG_main_arg13 : RG m c (Proc.devRef .tc main_arg13) = m ((c.tc : Thread nD τ).loc main_arg13) := by
  walk_back
theorem RG_main_arg14 : RG m c (Proc.devRef .tc main_arg14) = m ((c.tc : Thread nD τ).loc main_arg14) := by
  walk_back
theorem RG_main_arg15 : RG m c (Proc.devRef .tc main_arg15) = m ((c.tc : Thread nD τ).loc main_arg15) := by
  walk_back
theorem RG_main_arg16 : RG m c (Proc.devRef .tc main_arg16) = m ((c.tc : Thread nD τ).loc main_arg16) := by
  walk_back
theorem RG_main_arg17 : RG m c (Proc.devRef .tc main_arg17) = m ((c.tc : Thread nD τ).loc main_arg17) := by
  walk_back
theorem RG_main_arg18 : RG m c (Proc.devRef .tc main_arg18) = m ((c.tc : Thread nD τ).loc main_arg18) := by
  walk_back

end Cert.ReferenceIdeal.RArgs
end
-- ==== Proof.KChain.lean ====
/-
  THE KERNEL PROGRAM'S BOUNDARY CONTENTS, READ. Between its two regions and after the second the program runs host
  operations; the contents of a buffer at a segment boundary is the fold of those operations from the launch memory,
  a region leaving its output array at what its write-backs fold to. Read back:
  * region 1 finds every parameter and feature array as launched, and its weights array at the indicator weights of
    `joint_acts[src]`;
  * the three results are the shared tail functions of region 0's output array (the node utilities), region 1's (the
    edge messages) and the launched integer arrays.
-/
import proofs.«415585_j20169166422902_1_alg».proof.Proof.Gen.KernelIdeal.Frame
import proofs.«415585_j20169166422902_1_alg».proof.Proof.Tail

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A buffer that no operation of a stretch writes holds after the stretch what it held before it. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Region 0 finds every array as launched. -/
theorem V0_eq (c : Dev nD) (b : Ref sig .tc) : V0 m ρ c b = m ((c : Thread nD τ).loc b) := rfl

/-! ## Region 1's inputs: no operation before it and no array of region 0 is one of them -/

/-- Region 1 finds the feature and parameter arrays as launched. -/
theorem V3_main_arg0 (c : Dev nD) : V3 m ρ c main_arg0 = m ((c : Thread nD τ).loc main_arg0) :=
  calc W3 m ρ c (Proc.devRef .tc main_arg0)
    _ = W2 m ρ c (Proc.devRef .tc main_arg0) := by unwritten hostOps1_1
    _ = W1 m ρ c (Proc.devRef .tc main_arg0) := by unwritten hostOps1
    _ = W0 m ρ c (Proc.devRef .tc main_arg0) := W1_of_ne m ρ c main_arg0 (by decide)
    _ = m ((c : Thread nD τ).loc main_arg0) := rfl
theorem V3_main_arg2 (c : Dev nD) : V3 m ρ c main_arg2 = m ((c : Thread nD τ).loc main_arg2) :=
  calc W3 m ρ c (Proc.devRef .tc main_arg2)
    _ = W2 m ρ c (Proc.devRef .tc main_arg2) := by unwritten hostOps1_1
    _ = W1 m ρ c (Proc.devRef .tc main_arg2) := by unwritten hostOps1
    _ = W0 m ρ c (Proc.devRef .tc main_arg2) := W1_of_ne m ρ c main_arg2 (by decide)
    _ = m ((c : Thread nD τ).loc main_arg2) := rfl
theorem V3_main_arg9 (c : Dev nD) : V3 m ρ c main_arg9 = m ((c : Thread nD τ).loc main_arg9) :=
  calc W3 m ρ c (Proc.devRef .tc main_arg9)
    _ = W2 m ρ c (Proc.devRef .tc main_arg9) := by unwritten hostOps1_1
    _ = W1 m ρ c (Proc.devRef .tc main_arg9) := by unwritten hostOps1
    _ = W0 m ρ c (Proc.devRef .tc main_arg9) := W1_of_ne m ρ c main_arg9 (by decide)
    _ = m ((c : Thread nD τ).loc main_arg9) := rfl
theorem V3_main_arg10 (c : Dev nD) : V3 m ρ c main_arg10 = m ((c : Thread nD τ).loc main_arg10) :=
  calc W3 m ρ c (Proc.devRef .tc main_arg10)
    _ = W2 m ρ c (Proc.devRef .tc main_arg10) := by unwritten hostOps1_1
    _ = W1 m ρ c (Proc.devRef .tc main_arg10) := by unwritten hostOps1
    _ = W0 m ρ c (Proc.devRef .tc main_arg10) := W1_of_ne m ρ c main_arg10 (by decide)
    _ = m ((c : Thread nD τ).loc main_arg10) := rfl
theorem V3_main_arg11 (c : Dev nD) : V3 m ρ c main_arg11 = m ((c : Thread nD τ).loc main_arg11) :=
  calc W3 m ρ c (Proc.devRef .tc main_arg11)
    _ = W2 m ρ c (Proc.devRef .tc main_arg11) := by unwritten hostOps1_1
    _ = W1 m ρ c (Proc.devRef .tc main_arg11) := by unwritten hostOps1
    _ = W0 m ρ c (Proc.devRef .tc main_arg11) := W1_of_ne m ρ c main_arg11 (by decide)
    _ = m ((c : Thread nD τ).loc main_arg11) := rfl
theorem V3_main_arg12 (c : Dev nD) : V3 m ρ c main_arg12 = m ((c : Thread nD τ).loc main_arg12) :=
  calc W3 m ρ c (Proc.devRef .tc main_arg12)
    _ = W2 m ρ c (Proc.devRef .tc main_arg12) := by unwritten hostOps1_1
    _ = W1 m ρ c (Proc.devRef .tc main_arg12) := by unwritten hostOps1
    _ = W0 m ρ c (Proc.devRef .tc main_arg12) := W1_of_ne m ρ c main_arg12 (by decide)
    _ = m ((c : Thread nD τ).loc main_arg12) := rfl
theorem V3_main_arg13 (c : Dev nD) : V3 m ρ c main_arg13 = m ((c : Thread nD τ).loc main_arg13) :=
  calc W3 m ρ c (Proc.devRef .tc main_arg13)
    _ = W2 m ρ c (Proc.devRef .tc main_arg13) := by unwritten hostOps1_1
    _ = W1 m ρ c (Proc.devRef .tc main_arg13) := by unwritten hostOps1
    _ = W0 m ρ c (Proc.devRef .tc main_arg13) := W1_of_ne m ρ c main_arg13 (by decide)
    _ = m ((c : Thread nD τ).loc main_arg13) := rfl
theorem V3_main_arg14 (c : Dev nD) : V3 m ρ c main_arg14 = m ((c : Thread nD τ).loc main_arg14) :=
  calc W3 m ρ c (Proc.devRef .tc main_arg14)
    _ = W2 m ρ c (Proc.devRef .tc main_arg14) := by unwritten hostOps1_1
    _ = W1 m ρ c (Proc.devRef .tc main_arg14) := by unwritten hostOps1
    _ = W0 m ρ c (Proc.devRef .tc main_arg14) := W1_of_ne m ρ c main_arg14 (by decide)
    _ = m ((c : Thread nD τ).loc main_arg14) := rfl

/-! ## What each stretch of host operations leaves, from any contents `V` at its entry -/

section Stretches
variable (V : Valuation τ sig (Elt F))

/-- The first stretch leaves the action of each edge's source node. -/
theorem stretch1_v7 :
    StableHlo.after hostOps1 V (Proc.devRef .tc main_v7)
      = Tail.actsOf (V (Proc.devRef .tc main_arg15)) (V (Proc.devRef .tc main_arg18)) := by
  unfold Tail.actsOf Tail.srcCol
  after_results <;> rfl

/-- The indicator stretch leaves the 16 indicator weights of that action. -/
theorem stretch1_1_v8 :
    StableHlo.after hostOps1_1 V (Proc.devRef .tc main_v8) = Tail.oneHotOf (F := F) (V (Proc.devRef .tc main_v7)) := by
  unfold Tail.oneHotOf
  after_results <;> rfl

/-- After region 1: the mixed utilities. -/
theorem stretch2_v15 :
    StableHlo.after hostOps2 V (Proc.devRef .tc main_v15)
      = Tail.mixed (F := F) (V (Proc.devRef .tc main_v0)) (V (Proc.devRef .tc main_v9)) (V (Proc.devRef .tc main_arg16)) := by
  unfold Tail.mixed
  after_results <;> rfl

/-- After region 1: the joint actions as a column. -/
theorem stretch2_v16 :
    StableHlo.after hostOps2 V (Proc.devRef .tc main_v16) = Tail.jaCol (V (Proc.devRef .tc main_arg18)) := by
  unfold Tail.jaCol
  after_results <;> rfl

/-- The first selection along the actions. -/
theorem stretch2_1_v17 :
    StableHlo.after hostOps2_1 V (Proc.devRef .tc main_v17)
      = Tail.take16 (F := F) (V (Proc.devRef .tc main_v15)) (V (Proc.devRef .tc main_v16)) := by
  unfold Tail.take16 Tail.wrap16
  after_results_simp <;> rfl

/-- The sum per batch of the selected mixed utilities. -/
theorem stretch2_2_v20 :
    StableHlo.after hostOps2_2 V (Proc.devRef .tc main_v20)
      = Host.scatterAdd scatter_S256x1_S5120x1_S5120x1_1_0_0_1
          (broadcastInDim S256x1 ![] bcast_S_S256x1 (constant (F := F) S_ .f32 0x00000000#32))
          (broadcastInDim S5120x1 ![0] bcast_S5120_S5120x1_0 (V (Proc.devRef .tc main_arg17)))
          (V (Proc.devRef .tc main_v17)) := by
  after_results <;> rfl

/-- The indicator of a batch's first node. -/
theorem stretch2_2_v27 :
    StableHlo.after hostOps2_2 V (Proc.devRef .tc main_v27) = Tail.firstOf (F := F) (V (Proc.devRef .tc main_arg17)) := by
  unfold Tail.firstOf
  after_results <;> rfl

/-- The joint actions as a column, again. -/
theorem stretch2_2_v28 :
    StableHlo.after hostOps2_2 V (Proc.devRef .tc main_v28) = Tail.jaCol (V (Proc.devRef .tc main_arg18)) := by
  unfold Tail.jaCol
  after_results <;> rfl

/-- The second selection along the actions. -/
theorem stretch2_3_v29 :
    StableHlo.after hostOps2_3 V (Proc.devRef .tc main_v29)
      = Tail.take16 (F := F) (V (Proc.devRef .tc main_v0)) (V (Proc.devRef .tc main_v28)) := by
  unfold Tail.take16 Tail.wrap16
  after_results_simp <;> rfl

/-- The last stretch: the target plus the sum over incoming edges of the source node's target. -/
theorem stretch2_4_v41 :
    StableHlo.after hostOps2_4 V (Proc.devRef .tc main_v41)
      = addf (Host.scatterAdd scatter_S5120x1_S97280x1_S97280x1_1_0_0_1
            (broadcastInDim S5120x1 ![] bcast_S_S5120x1 (constant (F := F) S_ .f32 0x00000000#32))
            (broadcastInDim S97280x1 ![0] bcast_S97280_S97280x1_0 (V (Proc.devRef .tc main_arg16)))
            (Host.gather gather_S5120x1_S97280x1_S97280x1_1_0_n_n_0_1_11
              (mulf (V (Proc.devRef .tc main_v29)) (V (Proc.devRef .tc main_v27))) (Tail.srcCol (V (Proc.devRef .tc main_arg15)))))
          (mulf (V (Proc.devRef .tc main_v29)) (V (Proc.devRef .tc main_v27))) := by
  unfold Tail.srcCol
  after_results_simp <;> rfl

end Stretches

/-- Region 1 finds its weights array at the indicator weights of each edge's source action. -/
theorem V3_main_v8 (c : Dev nD) :
    V3 m ρ c main_v8 = Tail.oneHotOf (Tail.actsOf (m ((c : Thread nD τ).loc main_arg15)) (m ((c : Thread nD τ).loc main_arg18))) :=
  (stretch1_1_v8 (W2 m ρ c)).trans (congrArg (Tail.oneHotOf (F := F))
    ((stretch1_v7 (W1 m ρ c)).trans (congrArg₂ Tail.actsOf
      (W1_of_ne m ρ c main_arg15 (by decide)) (W1_of_ne m ρ c main_arg18 (by decide)))))

/-! ## The integer arguments at the later boundaries: as launched -/

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by unwritten hostOps1_1
    _ = W1 m ρ c (Proc.devRef .tc main_arg15) := by unwritten hostOps1
    _ = W0 m ρ c (Proc.devRef .tc main_arg15) := W1_of_ne m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by unwritten hostOps1_1
    _ = W1 m ρ c (Proc.devRef .tc main_arg16) := by unwritten hostOps1
    _ = W0 m ρ c (Proc.devRef .tc main_arg16) := W1_of_ne m ρ c main_arg16 (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by unwritten hostOps1_1
    _ = W1 m ρ c (Proc.devRef .tc main_arg17) := by unwritten hostOps1
    _ = W0 m ρ c (Proc.devRef .tc main_arg17) := W1_of_ne m ρ c main_arg17 (by decide)
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by unwritten hostOps1_1
    _ = W1 m ρ c (Proc.devRef .tc main_arg18) := by unwritten hostOps1
    _ = W0 m ρ c (Proc.devRef .tc main_arg18) := W1_of_ne m ρ c main_arg18 (by decide)
    _ = m ((c : Thread nD τ).loc main_arg18) := rfl
theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := by unwritten hostOps2_1
    _ = W4 m ρ c (Proc.devRef .tc main_arg15) := by unwritten hostOps2
    _ = m ((c : Thread nD τ).loc main_arg15) := W4_main_arg15 m ρ c
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := by unwritten hostOps2_1
    _ = W4 m ρ c (Proc.devRef .tc main_arg16) := by unwritten hostOps2
    _ = m ((c : Thread nD τ).loc main_arg16) := W4_main_arg16 m ρ c
theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := by unwritten hostOps2_1
    _ = W4 m ρ c (Proc.devRef .tc main_arg17) := by unwritten hostOps2
    _ = m ((c : Thread nD τ).loc main_arg17) := W4_main_arg17 m ρ c
theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := by unwritten hostOps2_1
    _ = W4 m ρ c (Proc.devRef .tc main_arg18) := by unwritten hostOps2
    _ = m ((c : Thread nD τ).loc main_arg18) := W4_main_arg18 m ρ c
theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := by unwritten hostOps2_3
    _ = W6 m ρ c (Proc.devRef .tc main_arg15) := by unwritten hostOps2_2
    _ = m ((c : Thread nD τ).loc main_arg15) := W6_main_arg15 m ρ c
theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := by unwritten hostOps2_3
    _ = W6 m ρ c (Proc.devRef .tc main_arg16) := by unwritten hostOps2_2
    _ = m ((c : Thread nD τ).loc main_arg16) := W6_main_arg16 m ρ c

/-! ## The two regions' output arrays at the later boundaries -/

/-- The node utilities (region 0's output array) reach region 1's exit as region 0 left them. -/
theorem W4_main_v0 (c : Dev nD) : W4 m ρ c (Proc.devRef .tc main_v0) = (dat0 (V0 m ρ) c).arrAt 7 cfg0.N :=
  calc W4 m ρ c (Proc.devRef .tc main_v0)
    _ = W3 m ρ c (Proc.devRef .tc main_v0) := W4_of_ne m ρ c main_v0 (by decide)
    _ = W2 m ρ c (Proc.devRef .tc main_v0) := by unwritten hostOps1_1
    _ = W1 m ρ c (Proc.devRef .tc main_v0) := by unwritten hostOps1
    _ = (dat0 (V0 m ρ) c).arrAt 7 cfg0.N := W1_arr m ρ c 7

/-- And they are there still when the second selection reads them. -/
theorem W7_main_v0 (c : Dev nD) : W7 m ρ c (Proc.devRef .tc main_v0) = (dat0 (V0 m ρ) c).arrAt 7 cfg0.N :=
  calc W7 m ρ c (Proc.devRef .tc main_v0)
    _ = W6 m ρ c (Proc.devRef .tc main_v0) := by unwritten hostOps2_2
    _ = W5 m ρ c (Proc.devRef .tc main_v0) := by unwritten hostOps2_1
    _ = W4 m ρ c (Proc.devRef .tc main_v0) := by unwritten hostOps2
    _ = (dat0 (V0 m ρ) c).arrAt 7 cfg0.N := W4_main_v0 m ρ c

/-- The selected node utilities two boundaries before the last. -/
theorem W8_main_v29 (c : Dev nD) :
    W8 m ρ c (Proc.devRef .tc main_v29) = Tail.tailP ((dat0 (V0 m ρ) c).arrAt 7 cfg0.N) (m ((c : Thread nD τ).loc main_arg18)) :=
  (stretch2_3_v29 (W7 m ρ c)).trans (congrArg₂ (Tail.take16 (F := F)) (W7_main_v0 m ρ c)
    ((stretch2_2_v28 (W6 m ρ c)).trans (congrArg Tail.jaCol (W6_main_arg18 m ρ c))))

/-- The first-node indicator two boundaries before the last. -/
theorem W8_main_v27 (c : Dev nD) :
    W8 m ρ c (Proc.devRef .tc main_v27) = Tail.firstOf (F := F) (m ((c : Thread nD τ).loc main_arg17)) :=
  calc W8 m ρ c (Proc.devRef .tc main_v27)
    _ = W7 m ρ c (Proc.devRef .tc main_v27) := by unwritten hostOps2_3
    _ = Tail.firstOf (F := F) (W6 m ρ c (Proc.devRef .tc main_arg17)) := stretch2_2_v27 (W6 m ρ c)
    _ = Tail.firstOf (F := F) (m ((c : Thread nD τ).loc main_arg17)) := congrArg (Tail.firstOf (F := F)) (W6_main_arg17 m ρ c)

/-- Result 0 at the last boundary. -/
theorem W9_main_v20 (c : Dev nD) :
    W9 m ρ c (Proc.devRef .tc main_v20)
      = Tail.tailQ ((dat0 (V0 m ρ) c).arrAt 7 cfg0.N) ((dat1 (V3 m ρ) c).arrAt 9 cfg1.N)
          (m ((c : Thread nD τ).loc main_arg16)) (m ((c : Thread nD τ).loc main_arg17)) (m ((c : Thread nD τ).loc main_arg18)) := by
  have h98 : W9 m ρ c (Proc.devRef .tc main_v20) = W8 m ρ c (Proc.devRef .tc main_v20) := by unwritten hostOps2_4
  have h87 : W8 m ρ c (Proc.devRef .tc main_v20) = W7 m ρ c (Proc.devRef .tc main_v20) := by unwritten hostOps2_3
  have h15 : W5 m ρ c (Proc.devRef .tc main_v15)
      = Tail.mixed ((dat0 (V0 m ρ) c).arrAt 7 cfg0.N) ((dat1 (V3 m ρ) c).arrAt 9 cfg1.N) (m ((c : Thread nD τ).loc main_arg16)) := by
    refine (stretch2_v15 (W4 m ρ c)).trans ?_
    rw [W4_main_v0 m ρ c, W4_arr m ρ c 9, W4_main_arg16 m ρ c]
  have h16 : W5 m ρ c (Proc.devRef .tc main_v16) = Tail.jaCol (m ((c : Thread nD τ).loc main_arg18)) :=
    (stretch2_v16 (W4 m ρ c)).trans (congrArg Tail.jaCol (W4_main_arg18 m ρ c))
  have h17 : W6 m ρ c (Proc.devRef .tc main_v17)
      = Tail.take16 (Tail.mixed ((dat0 (V0 m ρ) c).arrAt 7 cfg0.N) ((dat1 (V3 m ρ) c).arrAt 9 cfg1.N) (m ((c : Thread nD τ).loc main_arg16)))
          (Tail.jaCol (m ((c : Thread nD τ).loc main_arg18))) :=
    (stretch2_1_v17 (W5 m ρ c)).trans (congrArg₂ (Tail.take16 (F := F)) h15 h16)
  refine h98.trans (h87.trans ((stretch2_2_v20 (W6 m ρ c)).trans ?_))
  unfold Tail.tailQ
  rw [h17, W6_main_arg17 m ρ c]

/-- Result 1 at the last boundary. -/
theorem W9_main_v29 (c : Dev nD) :
    W9 m ρ c (Proc.devRef .tc main_v29) = Tail.tailP ((dat0 (V0 m ρ) c).arrAt 7 cfg0.N) (m ((c : Thread nD τ).loc main_arg18)) :=
  calc W9 m ρ c (Proc.devRef .tc main_v29)
    _ = W8 m ρ c (Proc.devRef .tc main_v29) := by unwritten hostOps2_4
    _ = Tail.tailP ((dat0 (V0 m ρ) c).arrAt 7 cfg0.N) (m ((c : Thread nD τ).loc main_arg18)) := W8_main_v29 m ρ c

/-- Result 2 at the last boundary. -/
theorem W9_main_v41 (c : Dev nD) :
    W9 m ρ c (Proc.devRef .tc main_v41)
      = Tail.tailT ((dat0 (V0 m ρ) c).arrAt 7 cfg0.N) (m ((c : Thread nD τ).loc main_arg15)) (m ((c : Thread nD τ).loc main_arg16))
          (m ((c : Thread nD τ).loc main_arg17)) (m ((c : Thread nD τ).loc main_arg18)) := by
  refine (stretch2_4_v41 (W8 m ρ c)).trans ?_
  unfold Tail.tailT Tail.target
  rw [W8_main_v29 m ρ c, W8_main_v27 m ρ c, W8_main_arg15 m ρ c, W8_main_arg16 m ρ c]

end Cert.KernelIdeal.Chain
end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.Spec.lean ====
/-
  THE MATHEMATICS BOTH PROGRAMS COMPUTE, at the extended reals.

  A three-layer perceptron acts row by row: a rectified affine layer, a second one, and a last affine layer with no
  rectifier. Its entry (r, c) depends on row r of the input only, so the perceptron of a block of rows has the same
  entries as the perceptron of the whole matrix at the block's rows (`mlp_rows`).

  The edge message. Each edge e carries two 16 × 16 tables, laid out row-major as rows of 256 entries: `UC` and `UCR`,
  and an action `s e` in `Fin 16`. The message is, for each action a,
      u (e, a) = ½ · UC (e, s e, a) + ½ · UCR (e, a, s e).
  One program gets there by multiplying with the indicator row of `s e` and summing over the 16 actions (`umsgOH`): every
  term but the one at `s e` is `0 · x = 0` (also for an infinite x, in the extended reals), so the sum is the selected
  entry (`umsgOH_eq`). The other adds the two tables, the second one transposed, halves, transposes and selects:
  `(x + y) · ½ = ½ · x + ½ · y` holds for every pair of extended reals because ½ is a non-negative real (`half_add`).
-/
import Idealize.ShloMosaic.PureOps.Ideal.Laws
import Idealize.ShloMosaic.Lib.ValueIdx
import proofs.«415585_j20169166422902_1_alg».proof.Proof.LibDense

noncomputable section
namespace Cert.Spec
open Idealize.ShloMosaic
open Idealize.ShloMosaic.ValueIdx
open Cert.Lib.Dense

/-- A matrix of extended reals, indexed as the programs index a rank-2 array. -/
abbrev Mat (M N : Nat) := (⟨2, ![M, N]⟩ : Shape).Idx → EReal

/-- The f32 word of one half. -/
abbrev half : EReal := Ideal.ofBits .f32 0x3F000000#32

theorem half_eq : half = ((2⁻¹ : ℝ) : EReal) := by
  simp [half, Ideal.ofBits, Ideal.ieee, -EReal.coe_mul]; norm_num

theorem half_nonneg : (0 : EReal) ≤ half := by
  rw [half_eq]; exact EReal.coe_nonneg.mpr (by norm_num)

theorem half_ne_top : half ≠ ⊤ := by
  rw [half_eq]; exact EReal.coe_ne_top _

/-- Halving a sum of two extended reals halves each: ½ is a non-negative real, for which the product distributes
    over any sum. -/
theorem half_add (x y : EReal) : (x + y) * half = half * x + half * y := by
  rw [mul_comm, EReal.left_distrib_of_nonneg_of_ne_top half_nonneg half_ne_top]

/-- The rectifier: the larger of y and the f32 word of zero. -/
def relu (y : EReal) : EReal := max y (Ideal.ofBits .f32 0x00000000#32)

/-- A rectified affine layer, entry by entry. -/
def layer {M K N : Nat} (X : Mat M K) (W : Mat K N) (B : Mat 1 N) : Mat M N := fun j => relu (affine X W B j)

/-- The three-layer perceptron: two rectified affine layers, then an affine layer. -/
def mlp {M K H N : Nat} (X : Mat M K) (W1 : Mat K H) (B1 : Mat 1 H) (W3 : Mat H H) (B3 : Mat 1 H) (W2 : Mat H N) (B2 : Mat 1 N) :
    Mat M N :=
  affine (layer (layer X W1 B1) W3 B3) W2 B2

theorem layer_rows {Mb M K N : Nat} (xb : Mat Mb K) (X : Mat M K) (W : Mat K N) (B : Mat 1 N) (r : Fin Mb) (e : Fin M)
    (hx : ∀ k : Fin K, xb (ix2 r k) = X (ix2 e k)) (c : Fin N) : layer xb W B (ix2 r c) = layer X W B (ix2 e c) := by
  unfold layer
  exact congrArg relu (affine_congr xb X W W B B (ix2 r c) (ix2 e c) hx (fun _ => rfl) rfl)

/-- THE PERCEPTRON ACTS ROW BY ROW: if row r of the block `xb` is row e of `X`, then row r of the block's perceptron is
    row e of `X`'s. -/
theorem mlp_rows {Mb M K H N : Nat} (xb : Mat Mb K) (X : Mat M K) (W1 : Mat K H) (B1 : Mat 1 H) (W3 : Mat H H) (B3 : Mat 1 H)
    (W2 : Mat H N) (B2 : Mat 1 N) (r : Fin Mb) (e : Fin M) (hx : ∀ k : Fin K, xb (ix2 r k) = X (ix2 e k)) (c : Fin N) :
    mlp xb W1 B1 W3 B3 W2 B2 (ix2 r c) = mlp X W1 B1 W3 B3 W2 B2 (ix2 e c) := by
  unfold mlp
  refine affine_congr _ _ W2 W2 B2 B2 (ix2 r c) (ix2 e c) (fun k => ?_) (fun _ => rfl) rfl
  exact layer_rows _ _ W3 B3 r e (fun k' => layer_rows xb X W1 B1 r e hx k') k

/-- Entry (b, a) of a 16 × 16 table laid out row-major as 256 entries. -/
def flat (b a : Fin 16) : Fin 256 := ⟨16 * b.val + a.val, by omega⟩

/-- THE EDGE MESSAGE in its selected form: ½ · UC (e, s e, a) + ½ · UCR (e, a, s e). -/
def umsg {E : Nat} (UC UCR : Mat E 256) (s : Fin E → Fin 16) : Mat E 16 := fun j =>
  half * UC (ix2 (j 0) (flat (s (j 0)) (j 1))) + half * UCR (ix2 (j 0) (flat (j 1) (s (j 0))))

/-- The edge message as a sum against a row of weights `OH (e, ·)` over the 16 actions. -/
def umsgOH {E : Nat} (UC UCR : Mat E 256) (OH : Mat E 16) : Mat E 16 := fun j =>
  half * (∑ b : Fin 16, OH (ix2 (j 0) b) * UC (ix2 (j 0) (flat b (j 1))))
    + half * (∑ b : Fin 16, OH (ix2 (j 0) b) * UCR (ix2 (j 0) (flat (j 1) b)))

/-- A sum against an indicator row selects: every other term is `0 · x = 0`, whatever extended real x is. -/
theorem sum_indicator (s : Fin 16) (w : Fin 16 → EReal) (hw : ∀ b, w b = if s = b then 1 else 0) (f : Fin 16 → EReal) :
    ∑ b : Fin 16, w b * f b = f s := by
  rw [Finset.sum_eq_single s]
  · rw [hw s, if_pos rfl, one_mul]
  · intro b _ hb
    rw [hw b, if_neg (fun h => hb h.symm), zero_mul]
  · intro h; exact absurd (Finset.mem_univ s) h

/-- With indicator rows for weights the summed form IS the selected form. -/
theorem umsgOH_eq {E : Nat} (UC UCR : Mat E 256) (OH : Mat E 16) (s : Fin E → Fin 16)
    (hOH : ∀ (e : Fin E) (b : Fin 16), OH (ix2 e b) = if s e = b then 1 else 0) : umsgOH UC UCR OH = umsg UC UCR s := by
  funext j
  unfold umsgOH umsg
  rw [sum_indicator (s (j 0)) (fun b => OH (ix2 (j 0) b)) (hOH (j 0)) (fun b => UC (ix2 (j 0) (flat b (j 1)))),
    sum_indicator (s (j 0)) (fun b => OH (ix2 (j 0) b)) (hOH (j 0)) (fun b => UCR (ix2 (j 0) (flat (j 1) b)))]

end Cert.Spec
end
-- ==== Proof.KNode.lean ====
/-
  REGION 0, THE NODE PERCEPTRON: what its output array holds after the region.

  The region has one grid point and every window's block is its whole array, so the one write-back is the body's
  value of the whole arrays: a product into a zero accumulator plus the bias row, rectified, twice, and a last
  product plus bias row: the three-layer perceptron of the node features, entry by entry.
-/
import proofs.«415585_j20169166422902_1_alg».proof.Proof.Gen.KernelIdeal.Frame
import proofs.«415585_j20169166422902_1_alg».proof.Proof.Spec

set_option maxRecDepth 16384

noncomputable section

namespace Cert.KernelIdeal.NodeValue

open Idealize.ShloMosaic Idealize.ShloMosaic.TcCoe Idealize.SL.Sem
open Idealize.ShloMosaic.ValueIdx
open Idealize.ShloMosaic.Pipeline (Dat Cfg Window)
open Cert.KernelIdeal Cert.KernelIdeal.Gen
open Cert.Spec Cert.Lib.Dense

/-! ## The body's arithmetic, entry by entry -/

/-- A product into a zero accumulator plus a bias vector made a row and repeated down the rows is the affine layer
    over the bias row. The operands may be typed at a narrower format: it holds the same extended reals. -/
theorem unit_affine {M K N : Nat} {φ₁ φ₂ : FTy} (X : FVec Ideal ⟨2, ![M, K]⟩ φ₁) (W : FVec Ideal ⟨2, ![K, N]⟩ φ₂)
    (b : FVec Ideal ⟨1, ![N]⟩ .f32) (sc : (⟨1, ![N]⟩ : Shape).ShapeCasts ⟨2, ![1, N]⟩)
    (bt : (⟨2, ![1, N]⟩ : Shape).Broadcasts ⟨2, ![M, N]⟩) :
    addf (matmul (DotDims.plain M K N) none X W (constant ⟨2, ![M, N]⟩ .f32 0x00000000#32))
        (broadcastTo ⟨2, ![M, N]⟩ (shapeCast ⟨2, ![1, N]⟩ b sc) bt) = affine (M := M) (K := K) (N := N) X W (biasRow b) := by
  funext y
  rw [shapeCast_row]
  show FloatOps.matmul (DotDims.plain M K N) none (show FVec Ideal ⟨2, ![M, K]⟩ .f32 from X) (show FVec Ideal ⟨2, ![K, N]⟩ .f32 from W)
      (constant _ .f32 0x00000000#32) y + broadcastTo ⟨2, ![M, N]⟩ (biasRow b) bt y = _
  rw [plain_matmul_apply, broadcastTo_apply (biasRow b) bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The larger of each entry and the zero splat is the rectifier of each entry. -/
theorem unit_relu {S : Shape} (Y : FVec Ideal S .f32) :
    maximumf Y (broadcast S (Scalar.ofBits .f32 0x00000000#32)) = fun j => relu (Y j) := rfl

/-- The body's one stored value, with the narrowing conversions dropped (each is the identity on extended reals)
    and each product's dimension record named as the plain row-by-column one. -/
theorem pay_plain (v0 : Vec Ideal S5120x128 .f32) (v2 : Vec Ideal S128x128 .f32) (v4 : Vec Ideal S128 .f32)
    (v11 : Vec Ideal S128x128 .f32) (v13 : Vec Ideal S128 .f32) (v21 : Vec Ideal S128x16 .f32) (v23 : Vec Ideal S16 .f32) :
    k0_pay1 (F := Ideal) v0 v2 v4 v11 v13 v21 v23
      = addf (matmul (φ₁ := .f32) (φ₂ := .f32) (DotDims.plain 5120 128 16) none
            (maximumf (addf (matmul (φ₁ := .f32) (φ₂ := .f32) (DotDims.plain 5120 128 128) none
                (maximumf (addf (matmul (φ₁ := .f32) (φ₂ := .f32) (DotDims.plain 5120 128 128) none v0 v2 (constant S5120x128 .f32 0x00000000#32))
                    (broadcastTo S5120x128 (shapeCast S1x128 v4 shapeCasts_S128_S1x128) broadcasts_S1x128_S5120x128))
                  (broadcast S5120x128 (Scalar.ofBits .f32 0x00000000#32)))
                v11 (constant S5120x128 .f32 0x00000000#32))
                (broadcastTo S5120x128 (shapeCast S1x128 v13 shapeCasts_S128_S1x128) broadcasts_S1x128_S5120x128))
              (broadcast S5120x128 (Scalar.ofBits .f32 0x00000000#32)))
            v21 (constant S5120x16 .f32 0x00000000#32))
          (broadcastTo S5120x16 (shapeCast S1x16 v23 shapeCasts_S16_S1x16) broadcasts_S1x16_S5120x16) := rfl

/-- THE BODY'S VALUE: the three-layer perceptron of its loaded blocks. -/
theorem pay_mlp (v0 : Vec Ideal S5120x128 .f32) (v2 : Vec Ideal S128x128 .f32) (v4 : Vec Ideal S128 .f32)
    (v11 : Vec Ideal S128x128 .f32) (v13 : Vec Ideal S128 .f32) (v21 : Vec Ideal S128x16 .f32) (v23 : Vec Ideal S16 .f32) :
    k0_pay1 (F := Ideal) v0 v2 v4 v11 v13 v21 v23 = mlp v0 v2 (biasRow v4) v11 (biasRow v13) v21 (biasRow v23) := by
  rw [pay_plain, unit_affine, unit_relu, unit_affine, unit_relu, unit_affine]
  rfl

theorem hz2 : (![0, 0] : Fin 2 → Nat) = fun _ => 0 := funext fun a => by fin_cases a <;> rfl
theorem hz1 : (![0] : Fin 1 → Nat) = fun _ => 0 := funext fun a => by fin_cases a; rfl

/-- What the body leaves in the output's buffer: its one store covers the buffer and every load reads a whole block. -/
theorem out_mlp (x0 : Vec Ideal S5120x128 .f32) (x1 : Vec Ideal S128x128 .f32) (x2 : Vec Ideal S128 .f32)
    (x3 : Vec Ideal S128x128 .f32) (x4 : Vec Ideal S128 .f32) (x5 : Vec Ideal S128x16 .f32) (x6 : Vec Ideal S16 .f32) :
    out0_7 (F := Ideal) x0 x1 x2 x3 x4 x5 x6 = mlp x0 x1 (biasRow x2) x3 (biasRow x4) x5 (biasRow x6) := by
  unfold out0_7
  rw [View.canon_unit_zero hz2]
  simp only [View.ld_unit_zero (S := S5120x128) hz2, View.ld_unit_zero (S := S128x128) hz2, View.ld_unit_zero (S := S128x16) hz2,
    View.ld_unit_zero (S := S128) hz1, View.ld_unit_zero (S := S16) hz1]
  exact pay_mlp x0 x1 x2 x3 x4 x5 x6

variable (V : (c : Dev nD) → (b : Ref sig .tc) → Buf (Elt Ideal) ((c : Thread nD τ).loc b))

/-- The node utilities: the perceptron of the node features as the region finds them. -/
def indivOf (c : Dev nD) : Mat 5120 16 :=
  mlp (V c main_arg1) (V c main_arg3) (biasRow (V c main_arg4)) (V c main_arg5) (biasRow (V c main_arg6))
    (V c main_arg7) (biasRow (V c main_arg8))

/-! ## The one point's blocks are the whole arrays -/

/-- The printed index maps, decided over the grid: every window's block index is zero on every axis. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0 :=
  (by decide +kernel : ∀ t : Fin grid0.N, _)

/-- The features' block is the features. -/
theorem blk_x (c : Dev nD) (t : Fin cfg0.N) : iblk0 (F := Ideal) V c 0 t = V c main_arg1 := by
  obtain ⟨e0, e1, e2, e3, e4, e5, e6, e7, e8, e9, e10, e11, e12⟩ := idx_facts t
  funext j
  show V c main_arg1 (((cfg0.win 0).blk t).view.emb j) = V c main_arg1 j
  refine congrArg (V c main_arg1) (funext fun a => Fin.ext ?_)
  match a with
  | ⟨0, _⟩ => show win0_0.index t (0 : Fin 2) * 5120 + 1 * (j 0).val = (j 0).val; omega
  | ⟨1, _⟩ => show win0_0.index t (1 : Fin 2) * 128 + 1 * (j 1).val = (j 1).val; omega

/-- The first layer's weights' block is the weights. -/
theorem blk_w1 (c : Dev nD) (t : Fin cfg0.N) : iblk0 (F := Ideal) V c 1 t = V c main_arg3 := by
  obtain ⟨e0, e1, e2, e3, e4, e5, e6, e7, e8, e9, e10, e11, e12⟩ := idx_facts t
  funext j
  show V c main_arg3 (((cfg0.win 1).blk t).view.emb j) = V c main_arg3 j
  refine congrArg (V c main_arg3) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The first layer's bias' block is the bias. -/
theorem blk_b1 (c : Dev nD) (t : Fin cfg0.N) : iblk0 (F := Ideal) V c 2 t = V c main_arg4 := by
  obtain ⟨e0, e1, e2, e3, e4, e5, e6, e7, e8, e9, e10, e11, e12⟩ := idx_facts t
  funext j
  show V c main_arg4 (((cfg0.win 2).blk t).view.emb j) = V c main_arg4 j
  refine congrArg (V c main_arg4) (funext fun a => Fin.ext ?_)
  match a with
  | ⟨0, _⟩ => show win0_2.index t (0 : Fin 1) * 128 + 1 * (j 0).val = (j 0).val; omega

/-- The second layer's weights' block is the weights. -/
theorem blk_w3 (c : Dev nD) (t : Fin cfg0.N) : iblk0 (F := Ideal) V c 3 t = V c main_arg5 := by
  obtain ⟨e0, e1, e2, e3, e4, e5, e6, e7, e8, e9, e10, e11, e12⟩ := idx_facts t
  funext j
  show V c main_arg5 (((cfg0.win 3).blk t).view.emb j) = V c main_arg5 j
  refine congrArg (V c main_arg5) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The second layer's bias' block is the bias. -/
theorem blk_b3 (c : Dev nD) (t : Fin cfg0.N) : iblk0 (F := Ideal) V c 4 t = V c main_arg6 := by
  obtain ⟨e0, e1, e2, e3, e4, e5, e6, e7, e8, e9, e10, e11, e12⟩ := idx_facts t
  funext j
  show V c main_arg6 (((cfg0.win 4).blk t).view.emb j) = V c main_arg6 j
  refine congrArg (V c main_arg6) (funext fun a => Fin.ext ?_)
  match a with
  | ⟨0, _⟩ => show win0_4.index t (0 : Fin 1) * 128 + 1 * (j 0).val = (j 0).val; omega

/-- The last layer's weights' block is the weights. -/
theorem blk_w2 (c : Dev nD) (t : Fin cfg0.N) : iblk0 (F := Ideal) V c 5 t = V c main_arg7 := by
  obtain ⟨e0, e1, e2, e3, e4, e5, e6, e7, e8, e9, e10, e11, e12⟩ := idx_facts t
  funext j
  show V c main_arg7 (((cfg0.win 5).blk t).view.emb j) = V c main_arg7 j
  refine congrArg (V c main_arg7) (funext fun a => Fin.ext ?_)
  match a with
  | ⟨0, _⟩ => show win0_5.index t (0 : Fin 2) * 128 + 1 * (j 0).val = (j 0).val; omega
  | ⟨1, _⟩ => show win0_5.index t (1 : Fin 2) * 16 + 1 * (j 1).val = (j 1).val; omega

/-- The last layer's bias' block is the bias. -/
theorem blk_b2 (c : Dev nD) (t : Fin cfg0.N) : iblk0 (F := Ideal) V c 6 t = V c main_arg8 := by
  obtain ⟨e0, e1, e2, e3, e4, e5, e6, e7, e8, e9, e10, e11, e12⟩ := idx_facts t
  funext j
  show V c main_arg8 (((cfg0.win 6).blk t).view.emb j) = V c main_arg8 j
  refine congrArg (V c main_arg8) (funext fun a => Fin.ext ?_)
  match a with
  | ⟨0, _⟩ => show win0_6.index t (0 : Fin 1) * 16 + 1 * (j 0).val = (j 0).val; omega

/-! ## What the point writes back, and the array after the region -/

/-- WHAT THE POINT WRITES BACK is its block of the node utilities. -/
theorem flushed_eq (c : Dev nD) (t : Fin cfg0.N) :
    (dat0 (F := Ideal) V c).flushed 7 t = ((cfg0.win 7).blk t).view.read (Elt Ideal) (indivOf V c) := by
  show (cfg0.win 7).cut (grid0.coords t) ((dat0 (F := Ideal) V c).after 7 t) = _
  rw [after0_7, out_mlp, blk_x, blk_w1, blk_b1, blk_w3, blk_b3, blk_w2, blk_b2]
  obtain ⟨e0, e1, e2, e3, e4, e5, e6, e7, e8, e9, e10, e11, e12⟩ := idx_facts t
  funext j
  show indivOf V c j = indivOf V c (((cfg0.win 7).blk t).view.emb j)
  refine congrArg (indivOf V c) (funext fun a => Fin.ext ?_)
  match a with
  | ⟨0, _⟩ => show (j 0).val = win0_7.index t (0 : Fin 2) * 5120 + 1 * (j 0).val; omega
  | ⟨1, _⟩ => show (j 1).val = win0_7.index t (1 : Fin 2) * 16 + 1 * (j 1).val; omega

/-- An index of the array is in the point's block iff each coordinate is in the block's range on its axis. -/
theorem mem_blk (t : Fin cfg0.N) (i : S5120x16.Idx) :
    i ∈ ((cfg0.win 7).blk t).view.set ↔ ∀ a : Fin 2, win0_7.index t a * S5120x16.size a ≤ (i a).val ∧ (i a).val < win0_7.index t a * S5120x16.size a + S5120x16.size a := by
  show i ∈ ((View.whole main_v0).slice (win0_7.rect t)).set ↔ _
  rw [View.set_slice_whole, Rect.mem_set_unit]
  exact Iff.rfl

/-- Every index of the array is in the one point's block. -/
theorem covered (i : S5120x16.Idx) : ∃ t : Fin cfg0.N, (cfg0.win 7).flush t = true ∧ i ∈ ((cfg0.win 7).blk t).view.set := by
  have hi0 : (i 0).val < 5120 := (i 0).isLt
  have hi1 : (i 1).val < 16 := (i 1).isLt
  refine ⟨⟨0, by decide⟩, flush0_7 _, ?_⟩
  obtain ⟨e0, e1, e2, e3, e4, e5, e6, e7, e8, e9, e10, e11, e12⟩ := idx_facts ⟨0, by decide⟩
  rw [mem_blk]
  intro a
  match a with
  | ⟨0, _⟩ => show win0_7.index ⟨0, by decide⟩ (0 : Fin 2) * 5120 ≤ (i 0).val ∧ (i 0).val < win0_7.index ⟨0, by decide⟩ (0 : Fin 2) * 5120 + 5120; omega
  | ⟨1, _⟩ => show win0_7.index ⟨0, by decide⟩ (1 : Fin 2) * 16 ≤ (i 1).val ∧ (i 1).val < win0_7.index ⟨0, by decide⟩ (1 : Fin 2) * 16 + 16; omega

/-- After region 0 its output array holds the node utilities. -/
theorem node_final (c : Dev nD) : (dat0 (F := Ideal) V c).arrAt 7 cfg0.N = indivOf V c :=
  (dat0 (F := Ideal) V c).arrAt_eq_of_cover 7 (indivOf V c) (fun t _ => flushed_eq V c t) (covered)

end Cert.KernelIdeal.NodeValue
end
-- ==== Proof.KEdgePay.lean ====
/-
  THE EDGE BODY ON ONE BLOCK. From a block of 1024 rows of the two feature arrays, the matching 1024 rows of weights and
  the six parameter arrays, the body stores, at (r, a), half the sum over the 16 actions b of weight (r, b) times entry
  (b, a) of the first perceptron's row-r table, plus half the sum over b of weight (r, b) times entry (a, b) of the
  second's: the summed form of the edge message on 1024 edges.
-/
import proofs.«415585_j20169166422902_1_alg».proof.Proof.Gen.KernelIdeal.Frame
import proofs.«415585_j20169166422902_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.EdgePay

open Idealize.ShloMosaic Idealize.ShloMosaic.ValueIdx
open Cert.KernelIdeal Cert.KernelIdeal.Gen
open Cert.Spec Cert.Lib.Dense

/-- A block product into a zero accumulator plus the bias vector, made a row and repeated down the block, is the
    affine layer over the bias row: entry (r, c) is the sum over k of X (r, k) * W (k, c), plus b c. -/
theorem pay_affine_row {M K N : Nat} (X : FVec Ideal ⟨2, ![M, K]⟩ .f32) (W : FVec Ideal ⟨2, ![K, N]⟩ .f32)
    (b : FVec Ideal ⟨1, ![N]⟩ .f32) (sc : (⟨1, ![N]⟩ : Shape).ShapeCasts ⟨2, ![1, N]⟩)
    (bt : (⟨2, ![1, N]⟩ : Shape).Broadcasts ⟨2, ![M, N]⟩) :
    addf (matmul (DotDims.plain M K N) none X W (constant ⟨2, ![M, N]⟩ .f32 0x00000000#32))
        (broadcastTo ⟨2, ![M, N]⟩ (shapeCast ⟨2, ![1, N]⟩ b sc) bt) = affine X W (biasRow b) := by
  funext y
  rw [shapeCast_row]
  show FloatOps.matmul (DotDims.plain M K N) none X W (constant _ .f32 0x00000000#32) y
      + broadcastTo ⟨2, ![M, N]⟩ (biasRow b) bt y = _
  rw [plain_matmul_apply, broadcastTo_apply (biasRow b) bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The larger of each entry and the zero word is the rectifier of the entry. -/
theorem relu_vec {S : Shape} (Y : FVec Ideal S .f32) :
    maximumf Y (broadcast S (Scalar.ofBits .f32 0x00000000#32)) = fun j => relu (Y j) := rfl

/-- The same product and bias followed by the rectifier is the rectified layer. -/
theorem pay_layer {M K N : Nat} (X : FVec Ideal ⟨2, ![M, K]⟩ .f32) (W : FVec Ideal ⟨2, ![K, N]⟩ .f32)
    (b : FVec Ideal ⟨1, ![N]⟩ .f32) (sc : (⟨1, ![N]⟩ : Shape).ShapeCasts ⟨2, ![1, N]⟩)
    (bt : (⟨2, ![1, N]⟩ : Shape).Broadcasts ⟨2, ![M, N]⟩) :
    maximumf (addf (matmul (DotDims.plain M K N) none X W (constant ⟨2, ![M, N]⟩ .f32 0x00000000#32))
        (broadcastTo ⟨2, ![M, N]⟩ (shapeCast ⟨2, ![1, N]⟩ b sc) bt)) (broadcast ⟨2, ![M, N]⟩ (Scalar.ofBits .f32 0x00000000#32))
      = layer X W (biasRow b) := by
  rw [pay_affine_row]
  rfl

/-- The first perceptron of the body, whole: narrowing to the shorter float format changes nothing at the extended
    reals, so its three products are three affine layers, the first two rectified. -/
theorem k1_pay5_eq (x3 : Vec Ideal S192x128 .f32) (x4 : Vec Ideal S128 .f32) (x5 : Vec Ideal S128x128 .f32)
    (x6 : Vec Ideal S128 .f32) (x7 : Vec Ideal S128x256 .f32) (x8 : Vec Ideal S256 .f32) (x0 : Vec Ideal S1024x192 .f32) :
    k1_pay5 (F := Ideal) x3 x4 x5 x6 x7 x8 x0 = mlp x0 x3 (biasRow x4) x5 (biasRow x6) x7 (biasRow x8) := by
  unfold mlp
  refine (pay_affine_row (M := 1024) (K := 128) (N := 256) _ x7 x8 _ _).trans ?_
  refine congrArg (fun Y => affine Y x7 (biasRow x8)) ?_
  refine (pay_layer (M := 1024) (K := 128) (N := 128) _ x5 x6 _ _).trans ?_
  refine congrArg (fun Y => layer Y x5 (biasRow x6)) ?_
  exact pay_layer (M := 1024) (K := 192) (N := 128) x0 x3 x4 _ _

/-- The sum over the middle axis of a [1024, 16, 16] array at (r, a) runs over the entries (r, b, a). -/
theorem lift_mid (h : S1024x16x16.Reduces [1] S1024x16) (r : Fin 1024) (a b : Fin 16) :
    h.lift (ix2 r a) b = ix3 r b a := by
  funext c
  match c with
  | ⟨0, _⟩ => rfl
  | ⟨1, _⟩ => rfl
  | ⟨2, _⟩ => rfl

/-- The sum over the last axis at (r, a) runs over the entries (r, a, b). -/
theorem lift_last (h : S1024x16x16.Reduces [2] S1024x16) (r : Fin 1024) (a b : Fin 16) :
    h.lift (ix2 r a) b = ix3 r a b := by
  funext c
  match c with
  | ⟨0, _⟩ => rfl
  | ⟨1, _⟩ => rfl
  | ⟨2, _⟩ => rfl

/-- A row of 256 read as a 16 × 16 table: entry (r, b, a) is entry (r, 16 b + a). -/
theorem table_apply (T : Mat 1024 256) (h : S1024x256.ShapeCasts S1024x16x16) (r : Fin 1024) (b a : Fin 16) :
    shapeCast S1024x16x16 T h (ix3 r b a) = T (ix2 r (flat b a)) := by
  refine shapeCast_apply T h (ix3 r b a) (ix2 r (flat b a)) ?_
  rw [Shape.rowMajor_val_two, Shape.rowMajor_val_three]
  show r.val * 256 + (16 * b.val + a.val) = (r.val * 16 + b.val) * 16 + a.val
  omega

/-- The weights as a column of each table: entry (r, b, a) of their repeat along the last axis is weight (r, b). -/
theorem weights_col (OH : Mat 1024 16) (h1 : S1024x16.ShapeCasts S1024x16) (h2 : S1024x16.ShapeCasts S1024x16x1)
    (h3 : S1024x16x1.Broadcasts S1024x16x16) (r : Fin 1024) (b a : Fin 16) :
    broadcastTo S1024x16x16 (shapeCast S1024x16x1 (shapeCast S1024x16 OH h1) h2) h3 (ix3 r b a) = OH (ix2 r b) := by
  rw [shapeCast_self]
  refine (broadcastTo_apply _ h3 (ix3 r b a) (ix3 r b 0) ?_).trans ?_
  · intro c
    match c with
    | ⟨0, _⟩ => rfl
    | ⟨1, _⟩ => rfl
    | ⟨2, _⟩ => rfl
  · refine shapeCast_apply OH h2 (ix3 r b 0) (ix2 r b) ?_
    rw [Shape.rowMajor_val_two, Shape.rowMajor_val_three]
    show r.val * 16 + b.val = (r.val * 16 + b.val) * 1 + 0
    omega

/-- The weights as a row of each table: entry (r, a, b) of their repeat along the middle axis is weight (r, b). -/
theorem weights_row (OH : Mat 1024 16) (h1 : S1024x16.ShapeCasts S1024x16) (h2 : S1024x16.ShapeCasts S1024x1x16)
    (h3 : S1024x1x16.Broadcasts S1024x16x16) (r : Fin 1024) (a b : Fin 16) :
    broadcastTo S1024x16x16 (shapeCast S1024x1x16 (shapeCast S1024x16 OH h1) h2) h3 (ix3 r a b) = OH (ix2 r b) := by
  rw [shapeCast_self]
  refine (broadcastTo_apply _ h3 (ix3 r a b) (ix3 r 0 b) ?_).trans ?_
  · intro c
    match c with
    | ⟨0, _⟩ => rfl
    | ⟨1, _⟩ => rfl
    | ⟨2, _⟩ => rfl
  · refine shapeCast_apply OH h2 (ix3 r 0 b) (ix2 r b) ?_
    rw [Shape.rowMajor_val_two, Shape.rowMajor_val_three]
    show r.val * 16 + b.val = (r.val * 1 + 0) * 16 + b.val
    omega

/-- THE SELECTION PART: both tables weighted and summed, each sum halved, the halves added, is the summed edge
    message. -/
theorem select_eq (UC UCR : Mat 1024 256) (OH : Mat 1024 16) (h1 : S1024x16.ShapeCasts S1024x16)
    (h2 : S1024x16.ShapeCasts S1024x16x1) (h3 : S1024x16x1.Broadcasts S1024x16x16)
    (h4 : S1024x256.ShapeCasts S1024x16x16) (h5 : S1024x16x16.Reduces [1] S1024x16)
    (h6 : S1024x16.ShapeCasts S1024x1x16) (h7 : S1024x1x16.Broadcasts S1024x16x16)
    (h8 : S1024x16x16.Reduces [2] S1024x16) (hφ : FKind.Formats .f32)
    (hacc : (0x00000000#32 : BitVec 32) = FKind.add.neutral .f32 hφ) :
    addf
        (mulf (broadcast S1024x16 (Scalar.ofBits (F := Ideal) .f32 0x3F000000#32))
          (multiReduction .add [1] S1024x16
            (mulf (broadcastTo S1024x16x16 (shapeCast S1024x16x1 (shapeCast S1024x16 OH h1) h2) h3)
              (shapeCast S1024x16x16 UC h4)) 0x00000000#32 h5 hφ hacc))
        (mulf (broadcast S1024x16 (Scalar.ofBits (F := Ideal) .f32 0x3F000000#32))
          (multiReduction .add [2] S1024x16
            (mulf (broadcastTo S1024x16x16 (shapeCast S1024x1x16 (shapeCast S1024x16 OH h1) h6) h7)
              (shapeCast S1024x16x16 UCR h4)) 0x00000000#32 h8 hφ hacc))
      = umsgOH UC UCR OH := by
  funext j
  obtain ⟨r, a, rfl⟩ : ∃ (r : Fin 1024) (a : Fin 16), j = ix2 r a := ⟨j 0, j 1, eq_ix2 j⟩
  unfold umsgOH
  refine congrArg₂ (fun x y : EReal => half * x + half * y) ?_ ?_
  · refine (Ideal.multiReduction_add_single _ _ h5 hφ hacc (ix2 r a)).trans ?_
    refine Finset.sum_congr rfl fun b _ => ?_
    refine (congrArg (mulf _ _) (lift_mid h5 r a b)).trans ?_
    refine congrArg₂ (fun x y : EReal => x * y) ?_ ?_
    · exact weights_col OH h1 h2 h3 r b a
    · exact table_apply UC h4 r b a
  · refine (Ideal.multiReduction_add_single _ _ h8 hφ hacc (ix2 r a)).trans ?_
    refine Finset.sum_congr rfl fun b _ => ?_
    refine (congrArg (mulf _ _) (lift_last h8 r a b)).trans ?_
    refine congrArg₂ (fun x y : EReal => x * y) ?_ ?_
    · exact weights_row OH h1 h6 h7 r a b
    · exact table_apply UCR h4 r a b

/-- The second perceptron's first rectified layer. -/
theorem k1_pay6_eq (x3 : Vec Ideal S192x128 .f32) (x4 : Vec Ideal S128 .f32) (x1 : Vec Ideal S1024x192 .f32) :
    k1_pay6 (F := Ideal) x3 x4 x1 = layer x1 x3 (biasRow x4) :=
  pay_layer (M := 1024) (K := 192) (N := 128) x1 x3 x4 _ _

/-- The stored value from the first perceptron's result UC and the second's first layer Y: the second perceptron's
    last two layers, then the selection part. -/
theorem k1_pay1_eq (x5 : Vec Ideal S128x128 .f32) (x6 : Vec Ideal S128 .f32) (x7 : Vec Ideal S128x256 .f32)
    (x8 : Vec Ideal S256 .f32) (UC : Mat 1024 256) (Y : Mat 1024 128) (OH : Vec Ideal S1024x16 .f32) :
    k1_pay1 (F := Ideal) (k1_pay3 x5) x6 (k1_pay4 x7) x8 UC Y (constant S1024x128 .f32 0x00000000#32) OH
      = umsgOH UC (affine (layer Y x5 (biasRow x6)) x7 (biasRow x8)) OH := by
  refine (select_eq UC _ OH _ _ _ _ _ _ _ _ _ _).trans ?_
  refine congrArg (fun U => umsgOH UC U OH) ?_
  refine (pay_affine_row (M := 1024) (K := 128) (N := 256) _ x7 x8 _ _).trans ?_
  refine congrArg (fun Z => affine Z x7 (biasRow x8)) ?_
  exact pay_layer (M := 1024) (K := 128) (N := 128) Y x5 x6 _ _

/-- What the edge body leaves in its output block, as the summed edge message of the block's 1024 edges. -/
theorem out1_9_eq (x0 x1 : Vec Ideal S1024x192 .f32) (x2 : Vec Ideal S1024x16 .f32) (x3 : Vec Ideal S192x128 .f32)
    (x4 : Vec Ideal S128 .f32) (x5 : Vec Ideal S128x128 .f32) (x6 : Vec Ideal S128 .f32) (x7 : Vec Ideal S128x256 .f32)
    (x8 : Vec Ideal S256 .f32) :
    out1_9 (F := Ideal) x0 x1 x2 x3 x4 x5 x6 x7 x8
      = umsgOH (mlp x0 x3 (biasRow x4) x5 (biasRow x6) x7 (biasRow x8)) (mlp x1 x3 (biasRow x4) x5 (biasRow x6) x7 (biasRow x8)) x2 := by
  have hz2 : (![0, 0] : Fin 2 → Nat) = fun _ => 0 := by
    funext a
    match a with
    | ⟨0, _⟩ => rfl
    | ⟨1, _⟩ => rfl
  have hz1 : (![0] : Fin 1 → Nat) = fun _ => 0 := by
    funext a
    match a with
    | ⟨0, _⟩ => rfl
  unfold out1_9
  rw [View.canon_unit_zero (S := S1024x16) hz2]
  simp only [View.ld_unit_zero (S := S192x128) hz2, View.ld_unit_zero (S := S128) hz1,
    View.ld_unit_zero (S := S128x128) hz2, View.ld_unit_zero (S := S128x256) hz2, View.ld_unit_zero (S := S256) hz1,
    View.ld_unit_zero (S := S1024x192) hz2, View.ld_unit_zero (S := S1024x16) hz2]
  rw [k1_pay5_eq, k1_pay6_eq]
  exact k1_pay1_eq x5 x6 x7 x8 _ _ x2

end Cert.KernelIdeal.EdgePay
end
-- ==== Proof.KEdge.lean ====
/-
  REGION 1, THE EDGE MESSAGES: what its output array holds after the region.

  The grid has 95 points; point t stages rows 1024 t … 1024 t + 1023 of the two edge-feature arrays and of the weights
  array, and the six parameter arrays whole. The body computes the perceptron of both feature blocks, reads each row of
  256 as a 16 × 16 table, multiplies by the weights row (along the table's first axis for the first table, along its
  second for the other), sums over that axis and halves. The perceptron acts row by row, so row r of block t is row
  1024 t + r of the whole-array value, and the 95 blocks tile the output.
-/
import proofs.«415585_j20169166422902_1_alg».proof.Proof.Gen.KernelIdeal.Frame
import proofs.«415585_j20169166422902_1_alg».proof.Proof.Spec
import proofs.«415585_j20169166422902_1_alg».proof.Proof.KEdgePay

set_option maxRecDepth 16384

noncomputable section

namespace Cert.KernelIdeal.EdgeValue

open Idealize.ShloMosaic Idealize.ShloMosaic.TcCoe Idealize.SL.Sem
open Idealize.ShloMosaic.ValueIdx
open Idealize.ShloMosaic.Pipeline (Dat Cfg Window)
open Cert.KernelIdeal Cert.KernelIdeal.Gen
open Cert.Spec Cert.Lib.Dense

variable (V : (c : Dev nD) → (b : Ref sig .tc) → Buf (Elt Ideal) ((c : Thread nD τ).loc b))

/-- The first table of every edge: the perceptron of the edge features. -/
def ucOf (c : Dev nD) : Mat 97280 256 :=
  mlp (V c main_arg0) (V c main_arg9) (biasRow (V c main_arg10)) (V c main_arg11) (biasRow (V c main_arg12))
    (V c main_arg13) (biasRow (V c main_arg14))

/-- The second table of every edge: the perceptron of the reflected edge features. -/
def ucrOf (c : Dev nD) : Mat 97280 256 :=
  mlp (V c main_arg2) (V c main_arg9) (biasRow (V c main_arg10)) (V c main_arg11) (biasRow (V c main_arg12))
    (V c main_arg13) (biasRow (V c main_arg14))

/-- The region's grid has 95 points. -/
theorem nPoints : cfg1.N = 95 := by decide

/-- The printed index maps, decided over the grid: the row-blocked windows (the two feature arrays, the weights, the
    output) sit at block (t, 0) at point t. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

/-- The six parameter windows stay at block 0 at every point. -/
theorem idx_params : ∀ t : Fin cfg1.N,
    win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Row r of block t is row 1024 t + r of the whole array. -/
def rowOf (t : Fin cfg1.N) (r : Fin 1024) : Fin 97280 :=
  ⟨1024 * t.val + r.val, by have ht : t.val < 95 := nPoints ▸ t.isLt; have hr := r.isLt; omega⟩

/-! ## The blocks, read at explicit coordinates -/

/-- Entry (r, k) of the edge-feature block at point t is entry (1024 t + r, k) of the edge-feature array. -/
theorem blk_feat (c : Dev nD) (t : Fin cfg1.N) (r : Fin 1024) (k : Fin 192) :
    iblk1 V c 0 t (ix2 r k) = V c main_arg0 (ix2 (rowOf t r) k) := by
  show V c main_arg0 (((cfg1.win 0).blk t).view.emb (ix2 r k)) = _
  obtain ⟨e0, e1, -⟩ := idx_rows t
  refine congrArg _ (funext fun x => Fin.ext ?_)
  match x with
  | ⟨0, _⟩ => show win1_0.index t (0 : Fin 2) * 1024 + 1 * r.val = 1024 * t.val + r.val; omega
  | ⟨1, _⟩ => show win1_0.index t (1 : Fin 2) * 192 + 1 * k.val = k.val; omega

/-- The same for the reflected edge features. -/
theorem blk_featR (c : Dev nD) (t : Fin cfg1.N) (r : Fin 1024) (k : Fin 192) :
    iblk1 V c 1 t (ix2 r k) = V c main_arg2 (ix2 (rowOf t r) k) := by
  show V c main_arg2 (((cfg1.win 1).blk t).view.emb (ix2 r k)) = _
  obtain ⟨-, -, e0, e1, -⟩ := idx_rows t
  refine congrArg _ (funext fun x => Fin.ext ?_)
  match x with
  | ⟨0, _⟩ => show win1_1.index t (0 : Fin 2) * 1024 + 1 * r.val = 1024 * t.val + r.val; omega
  | ⟨1, _⟩ => show win1_1.index t (1 : Fin 2) * 192 + 1 * k.val = k.val; omega

/-- Entry (r, b) of the weights block at point t is entry (1024 t + r, b) of the weights array. -/
theorem blk_wts (c : Dev nD) (t : Fin cfg1.N) (r : Fin 1024) (b : Fin 16) :
    iblk1 V c 2 t (ix2 r b) = V c main_v8 (ix2 (rowOf t r) b) := by
  show V c main_v8 (((cfg1.win 2).blk t).view.emb (ix2 r b)) = _
  obtain ⟨-, -, -, -, e0, e1, -⟩ := idx_rows t
  refine congrArg _ (funext fun x => Fin.ext ?_)
  match x with
  | ⟨0, _⟩ => show win1_2.index t (0 : Fin 2) * 1024 + 1 * r.val = 1024 * t.val + r.val; omega
  | ⟨1, _⟩ => show win1_2.index t (1 : Fin 2) * 16 + 1 * b.val = b.val; omega

/-- Each parameter window's block is its whole array, at every point. -/
theorem blk_w1 (c : Dev nD) (t : Fin cfg1.N) : iblk1 V c 3 t = V c main_arg9 := by
  funext j
  show V c main_arg9 (((cfg1.win 3).blk t).view.emb j) = _
  obtain ⟨e0, e1, -⟩ := idx_params t
  refine congrArg _ (funext fun x => Fin.ext ?_)
  match x with
  | ⟨0, _⟩ => show win1_3.index t (0 : Fin 2) * 192 + 1 * (j 0).val = (j 0).val; omega
  | ⟨1, _⟩ => show win1_3.index t (1 : Fin 2) * 128 + 1 * (j 1).val = (j 1).val; omega

theorem blk_b1 (c : Dev nD) (t : Fin cfg1.N) : iblk1 V c 4 t = V c main_arg10 := by
  funext j
  show V c main_arg10 (((cfg1.win 4).blk t).view.emb j) = _
  obtain ⟨-, -, e0, -⟩ := idx_params t
  refine congrArg _ (funext fun x => Fin.ext ?_)
  match x with
  | ⟨0, _⟩ => show win1_4.index t (0 : Fin 1) * 128 + 1 * (j 0).val = (j 0).val; omega

theorem blk_w3 (c : Dev nD) (t : Fin cfg1.N) : iblk1 V c 5 t = V c main_arg11 := by
  funext j
  show V c main_arg11 (((cfg1.win 5).blk t).view.emb j) = _
  obtain ⟨-, -, -, e0, e1, -⟩ := idx_params t
  refine congrArg _ (funext fun x => Fin.ext ?_)
  match x with
  | ⟨0, _⟩ => show win1_5.index t (0 : Fin 2) * 128 + 1 * (j 0).val = (j 0).val; omega
  | ⟨1, _⟩ => show win1_5.index t (1 : Fin 2) * 128 + 1 * (j 1).val = (j 1).val; omega

theorem blk_b3 (c : Dev nD) (t : Fin cfg1.N) : iblk1 V c 6 t = V c main_arg12 := by
  funext j
  show V c main_arg12 (((cfg1.win 6).blk t).view.emb j) = _
  obtain ⟨-, -, -, -, -, e0, -⟩ := idx_params t
  refine congrArg _ (funext fun x => Fin.ext ?_)
  match x with
  | ⟨0, _⟩ => show win1_6.index t (0 : Fin 1) * 128 + 1 * (j 0).val = (j 0).val; omega

theorem blk_w2 (c : Dev nD) (t : Fin cfg1.N) : iblk1 V c 7 t = V c main_arg13 := by
  funext j
  show V c main_arg13 (((cfg1.win 7).blk t).view.emb j) = _
  obtain ⟨-, -, -, -, -, -, e0, e1, -⟩ := idx_params t
  refine congrArg _ (funext fun x => Fin.ext ?_)
  match x with
  | ⟨0, _⟩ => show win1_7.index t (0 : Fin 2) * 128 + 1 * (j 0).val = (j 0).val; omega
  | ⟨1, _⟩ => show win1_7.index t (1 : Fin 2) * 256 + 1 * (j 1).val = (j 1).val; omega

theorem blk_b2 (c : Dev nD) (t : Fin cfg1.N) : iblk1 V c 8 t = V c main_arg14 := by
  funext j
  show V c main_arg14 (((cfg1.win 8).blk t).view.emb j) = _
  obtain ⟨-, -, -, -, -, -, -, -, e0⟩ := idx_params t
  refine congrArg _ (funext fun x => Fin.ext ?_)
  match x with
  | ⟨0, _⟩ => show win1_8.index t (0 : Fin 1) * 256 + 1 * (j 0).val = (j 0).val; omega

/-- Position (r, a) of the output block at point t is position (1024 t + r, a) of the output array. -/
theorem emb_out (t : Fin cfg1.N) (r : Fin 1024) (a : Fin 16) :
    ((cfg1.win 9).blk t).view.emb (ix2 r a) = ix2 (rowOf t r) a := by
  obtain ⟨-, -, -, -, -, -, e0, e1⟩ := idx_rows t
  refine funext fun x => Fin.ext ?_
  match x with
  | ⟨0, _⟩ => show win1_9.index t (0 : Fin 2) * 1024 + 1 * r.val = 1024 * t.val + r.val; omega
  | ⟨1, _⟩ => show win1_9.index t (1 : Fin 2) * 16 + 1 * a.val = a.val; omega

/-! ## The summed message acts row by row -/

/-- The summed message at row r reads row r of its two tables and of its weights and nothing else: if those rows of a
    block are row e of whole arrays, the block's message at row r is the arrays' at row e. -/
theorem umsgOH_rows {Eb E : Nat} (ucb ucrb : Mat Eb 256) (ohb : Mat Eb 16) (UC UCR : Mat E 256) (OH : Mat E 16)
    (r : Fin Eb) (e : Fin E) (h1 : ∀ k, ucb (ix2 r k) = UC (ix2 e k)) (h2 : ∀ k, ucrb (ix2 r k) = UCR (ix2 e k))
    (h3 : ∀ b, ohb (ix2 r b) = OH (ix2 e b)) (a : Fin 16) :
    umsgOH ucb ucrb ohb (ix2 r a) = umsgOH UC UCR OH (ix2 e a) := by
  show half * (∑ b : Fin 16, ohb (ix2 r b) * ucb (ix2 r (flat b a))) + half * (∑ b : Fin 16, ohb (ix2 r b) * ucrb (ix2 r (flat a b)))
    = half * (∑ b : Fin 16, OH (ix2 e b) * UC (ix2 e (flat b a))) + half * (∑ b : Fin 16, OH (ix2 e b) * UCR (ix2 e (flat a b)))
  simp only [h1, h2, h3]

/-! ## What a point writes back, and the cover -/

/-- WHAT POINT t WRITES BACK is block t of the whole-array message. -/
theorem flushed_eq (c : Dev nD) (t : Fin cfg1.N) :
    (dat1 (F := Ideal) V c).flushed 9 t
      = ((cfg1.win 9).blk t).view.read (Elt Ideal) (umsgOH (ucOf V c) (ucrOf V c) (V c main_v8)) := by
  show (cfg1.win 9).cut (grid1.coords t) ((dat1 V c).after 9 t) = _
  rw [after1_9, EdgePay.out1_9_eq, blk_w1, blk_b1, blk_w3, blk_b3, blk_w2, blk_b2]
  funext y
  obtain ⟨r, a, rfl⟩ : ∃ r a, y = ix2 r a := ⟨y 0, y 1, eq_ix2 y⟩
  show umsgOH _ _ (iblk1 V c 2 t) (ix2 r a)
    = umsgOH (ucOf V c) (ucrOf V c) (V c main_v8) (((cfg1.win 9).blk t).view.emb (ix2 r a))
  rw [emb_out t r a]
  exact umsgOH_rows _ _ (iblk1 V c 2 t) (ucOf V c) (ucrOf V c) (V c main_v8) r (rowOf t r)
    (fun k => mlp_rows (iblk1 V c 0 t) (V c main_arg0) _ _ _ _ _ _ r (rowOf t r) (blk_feat V c t r) k)
    (fun k => mlp_rows (iblk1 V c 1 t) (V c main_arg2) _ _ _ _ _ _ r (rowOf t r) (blk_featR V c t r) k)
    (blk_wts V c t r) a

/-- An index of the output array is in point t's block iff each coordinate is in the block's range on its axis. -/
theorem mem_blk (t : Fin cfg1.N) (i : S97280x16.Idx) :
    i ∈ ((cfg1.win 9).blk t).view.set ↔ ∀ x : Fin 2, win1_9.index t x * S1024x16.size x ≤ (i x).val ∧ (i x).val < win1_9.index t x * S1024x16.size x + S1024x16.size x := by
  show i ∈ ((View.whole main_v9).slice (win1_9.rect t)).set ↔ _
  rw [View.set_slice_whole, Rect.mem_set_unit]
  exact Iff.rfl

/-- Every row lies in the block of the point its number divided by 1024 names: the 95 blocks tile the array. -/
theorem covered (i : S97280x16.Idx) :
    ∃ t : Fin cfg1.N, (cfg1.win 9).flush t = true ∧ i ∈ ((cfg1.win 9).blk t).view.set := by
  have hi0 : (i 0).val < 97280 := (i 0).isLt
  have hi1 : (i 1).val < 16 := (i 1).isLt
  let t : Fin cfg1.N := ⟨(i 0).val / 1024, by rw [nPoints]; omega⟩
  obtain ⟨-, -, -, -, -, -, e0, e1⟩ := idx_rows t
  have ht : t.val = (i 0).val / 1024 := rfl
  refine ⟨t, flush1_9 t, ?_⟩
  rw [mem_blk]
  intro x
  match x with
  | ⟨0, _⟩ => show win1_9.index t (0 : Fin 2) * 1024 ≤ (i 0).val ∧ (i 0).val < win1_9.index t (0 : Fin 2) * 1024 + 1024; omega
  | ⟨1, _⟩ => show win1_9.index t (1 : Fin 2) * 16 ≤ (i 1).val ∧ (i 1).val < win1_9.index t (1 : Fin 2) * 16 + 16; omega

/-- After region 1 its output array holds the edge messages in the summed form, the weights being the array
    `main_v8` as the region finds it. -/
theorem edge_final (c : Dev nD) : (dat1 (F := Ideal) V c).arrAt 9 cfg1.N = umsgOH (ucOf V c) (ucrOf V c) (V c main_v8) :=
  (dat1 (F := Ideal) V c).arrAt_eq_of_cover 9 _ (fun t _ => flushed_eq V c t) covered

end Cert.KernelIdeal.EdgeValue
end
-- ==== Proof.Bridge.lean ====
/-
  FROM ACTIONS TO INDICATOR WEIGHTS.

  `joint_acts[src]` reads an entry of `joint_acts` (the read is clamped into the table), so when every joint action
  lies in [0, 16) so does every edge's source action (`acts_range`). For an action `a` in that range the indicator
  weights over the 16 actions are 1 at `a` and 0 elsewhere (`oneHot_apply`): the comparison of the action with the
  iota row 0 … 15, converted to a float.
-/
import proofs.«415585_j20169166422902_1_alg».proof.Proof.Tail
import Idealize.ShloMosaic.Lib.ValueIdx
import Idealize.ShloMosaic.Lib.StableHlo.Predicate

noncomputable section
namespace Cert.Bridge
open Idealize.ShloMosaic Idealize.ShloMosaic.ValueIdx Cert.KernelIdeal

/-- An action word in [0, 16) as an element of `Fin 16`. -/
def actFin (a : BitVec 32) : Fin 16 := ⟨a.toNat % 16, Nat.mod_lt _ (by decide)⟩

/-- Every edge's source action is an entry of `joint_acts`, so it inherits the range. -/
theorem acts_range (src : IVec S97280 32) (ja : IVec S5120 32)
    (hja : ∀ n : Fin 5120, 0 ≤ (ja (ix1 n)).toInt ∧ (ja (ix1 n)).toInt < 16) (e : Fin 97280) :
    0 ≤ (Tail.actsOf src ja (ix1 e)).toInt ∧ (Tail.actsOf src ja (ix1 e)).toInt < 16 := by
  -- the read returns the table at the index it computes, whatever that index is
  obtain ⟨n, hn⟩ : ∃ n : Fin 5120, Tail.actsOf src ja (ix1 e) = ja (ix1 n) := ⟨_, congrArg ja (eq_ix1 _)⟩
  rw [hn]
  exact hja n

/-- The two ways of writing a rank-2 index from its coordinates agree. -/
theorem ix2_eq_ij {n m : Nat} (p : Fin n) (q : Fin m) : ix2 p q = StableHlo.Predicate.ij p q := by
  funext d; match d with | ⟨0, _⟩ => rfl | ⟨1, _⟩ => rfl

/-- The two ways of writing a rank-1 index from its coordinate agree. -/
theorem ofFin_eq_ix1 {n : Nat} (p : Fin n) : Shape.Idx.ofFin p = ix1 p := by
  funext d; match d with | ⟨0, _⟩ => exact Fin.ext rfl

/-- A word in [0, 16) equals the word of `b < 16` exactly when its value modulo 16 is `b`. -/
theorem word_eq_iff (a : BitVec 32) (h0 : 0 ≤ a.toInt) (h16 : a.toInt < 16) (b : Fin 16) :
    a = BitVec.ofNat 32 b.val ↔ actFin a = b := by
  have hlt : a.toNat < 16 := by
    have := a.isLt
    rw [BitVec.toInt_eq_toNat_cond] at h0 h16
    split at h0 <;> omega
  have hb := b.isLt
  constructor
  · intro h
    apply Fin.ext
    show a.toNat % 16 = b.val
    rw [h, BitVec.toNat_ofNat]
    omega
  · intro h
    have hv : a.toNat % 16 = b.val := congrArg Fin.val h
    apply BitVec.eq_of_toNat_eq
    rw [BitVec.toNat_ofNat]
    omega

/-- The indicator weights of an in-range action: 1 at the action, 0 elsewhere. -/
theorem oneHot_apply (acts : IVec S97280 32) (hacts : ∀ e : Fin 97280, 0 ≤ (acts (ix1 e)).toInt ∧ (acts (ix1 e)).toInt < 16)
    (e : Fin 97280) (b : Fin 16) :
    Tail.oneHotOf (F := Ideal) acts (ix2 e b) = if actFin (acts (ix1 e)) = b then 1 else 0 := by
  obtain ⟨h0, h16⟩ := hacts e
  -- the entry is the comparison bit, read as a number
  show (((IntOp.cmpi .eq (broadcastInDim _ _ _ (broadcastInDim _ _ _ acts) (ix2 e b))
      (broadcastInDim _ _ _ (iotaInDim _ 32 1) (ix2 e b))).toNat : ℝ) : EReal) = _
  -- the left word is the edge's action, the right word is the column b
  rw [ix2_eq_ij, StableHlo.Predicate.bcast_rows, StableHlo.Predicate.bcast_of_row, ofFin_eq_ix1]
  show (((IntOp.cmpi .eq (acts (ix1 e)) (BitVec.ofNat 32 b.val)).toNat : ℝ) : EReal) = _
  by_cases hab : actFin (acts (ix1 e)) = b
  · rw [if_pos hab, IntOp.cmpi_eq.2 ((word_eq_iff _ h0 h16 b).2 hab)]
    simp
  · rw [if_neg hab, eq_zero_of_ne_one (fun h => hab ((word_eq_iff _ h0 h16 b).1 (IntOp.cmpi_eq.1 h)))]
    simp

end Cert.Bridge
end
-- ==== Proof.KValue.lean ====
/-
  THE KERNEL PROGRAM'S THREE RESULTS AS FUNCTIONS OF THE LAUNCHED ARRAYS, at the extended reals. Region 0's output
  array holds the perceptron of the node features; region 1's holds the edge messages in the summed form against the
  indicator weights of the source actions, which, the source actions lying in [0, 16), is the selected form; the results
  are the shared tail of the two.
-/
import proofs.«415585_j20169166422902_1_alg».proof.Proof.KChain
import proofs.«415585_j20169166422902_1_alg».proof.Proof.KNode
import proofs.«415585_j20169166422902_1_alg».proof.Proof.KEdge
import proofs.«415585_j20169166422902_1_alg».proof.Proof.Bridge
import proofs.«415585_j20169166422902_1_alg».proof.Proof.Spec

set_option maxRecDepth 16384

noncomputable section

namespace Cert.KernelIdeal.KValue

open Idealize.ShloMosaic Idealize.ShloMosaic.TcCoe Idealize.SL.Sem
open Idealize.ShloMosaic.ValueIdx
open Idealize.ShloMosaic.Pipeline (Dat Cfg Window)
open Cert.KernelIdeal Cert.KernelIdeal.Gen
open Cert.Spec Cert.Lib.Dense

variable (m : (ℓ : Loc nD τ sig) → Buf (Elt Ideal) ℓ) (ρ : Dev nD → PrngReg)

/-- Region 0's output array: the node utilities of the launched arrays. -/
theorem node_value (c : Dev nD) : (dat0 (V0 m ρ) c).arrAt 7 cfg0.N = (mlp (m ((c : Thread nD τ).loc main_arg1)) (m ((c : Thread nD τ).loc main_arg3)) (biasRow (m ((c : Thread nD τ).loc main_arg4))) (m ((c : Thread nD τ).loc main_arg5)) (biasRow (m ((c : Thread nD τ).loc main_arg6))) (m ((c : Thread nD τ).loc main_arg7)) (biasRow (m ((c : Thread nD τ).loc main_arg8)))) := by
  rw [NodeValue.node_final]
  rfl

/-- Region 1's output array: the edge messages of the launched arrays, in the selected form. -/
theorem edge_value (c : Dev nD)
    (hja : ∀ n : Fin 5120, 0 ≤ ((m ((c : Thread nD τ).loc main_arg18) : IVec S5120 32) (ix1 n)).toInt ∧ ((m ((c : Thread nD τ).loc main_arg18) : IVec S5120 32) (ix1 n)).toInt < 16) :
    (dat1 (V3 m ρ) c).arrAt 9 cfg1.N = (umsg (mlp (m ((c : Thread nD τ).loc main_arg0)) (m ((c : Thread nD τ).loc main_arg9)) (biasRow (m ((c : Thread nD τ).loc main_arg10))) (m ((c : Thread nD τ).loc main_arg11)) (biasRow (m ((c : Thread nD τ).loc main_arg12))) (m ((c : Thread nD τ).loc main_arg13)) (biasRow (m ((c : Thread nD τ).loc main_arg14)))) (mlp (m ((c : Thread nD τ).loc main_arg2)) (m ((c : Thread nD τ).loc main_arg9)) (biasRow (m ((c : Thread nD τ).loc main_arg10))) (m ((c : Thread nD τ).loc main_arg11)) (biasRow (m ((c : Thread nD τ).loc main_arg12))) (m ((c : Thread nD τ).loc main_arg13)) (biasRow (m ((c : Thread nD τ).loc main_arg14)))) (fun e => Cert.Bridge.actFin (Cert.Tail.actsOf (m ((c : Thread nD τ).loc main_arg15)) (m ((c : Thread nD τ).loc main_arg18)) (ix1 e)))) := by
  rw [EdgeValue.edge_final]
  unfold EdgeValue.ucOf EdgeValue.ucrOf
  rw [Chain.V3_main_arg0, Chain.V3_main_arg2, Chain.V3_main_arg9, Chain.V3_main_arg10, Chain.V3_main_arg11, Chain.V3_main_arg12,
    Chain.V3_main_arg13, Chain.V3_main_arg14, Chain.V3_main_v8]
  exact umsgOH_eq _ _ _ _ (fun e b => Cert.Bridge.oneHot_apply _ (Cert.Bridge.acts_range _ _ hja) e b)

/-- Result 0. -/
theorem res0 (c : Dev nD) (hja : ∀ n : Fin 5120, 0 ≤ ((m ((c : Thread nD τ).loc main_arg18) : IVec S5120 32) (ix1 n)).toInt ∧ ((m ((c : Thread nD τ).loc main_arg18) : IVec S5120 32) (ix1 n)).toInt < 16) :
    W9 m ρ c (Proc.devRef .tc main_v20) = Cert.Tail.tailQ (F := Ideal) (mlp (m ((c : Thread nD τ).loc main_arg1)) (m ((c : Thread nD τ).loc main_arg3)) (biasRow (m ((c : Thread nD τ).loc main_arg4))) (m ((c : Thread nD τ).loc main_arg5)) (biasRow (m ((c : Thread nD τ).loc main_arg6))) (m ((c : Thread nD τ).loc main_arg7)) (biasRow (m ((c : Thread nD τ).loc main_arg8)))) (umsg (mlp (m ((c : Thread nD τ).loc main_arg0)) (m ((c : Thread nD τ).loc main_arg9)) (biasRow (m ((c : Thread nD τ).loc main_arg10))) (m ((c : Thread nD τ).loc main_arg11)) (biasRow (m ((c : Thread nD τ).loc main_arg12))) (m ((c : Thread nD τ).loc main_arg13)) (biasRow (m ((c : Thread nD τ).loc main_arg14)))) (mlp (m ((c : Thread nD τ).loc main_arg2)) (m ((c : Thread nD τ).loc main_arg9)) (biasRow (m ((c : Thread nD τ).loc main_arg10))) (m ((c : Thread nD τ).loc main_arg11)) (biasRow (m ((c : Thread nD τ).loc main_arg12))) (m ((c : Thread nD τ).loc main_arg13)) (biasRow (m ((c : Thread nD τ).loc main_arg14)))) (fun e => Cert.Bridge.actFin (Cert.Tail.actsOf (m ((c : Thread nD τ).loc main_arg15)) (m ((c : Thread nD τ).loc main_arg18)) (ix1 e)))) (m ((c : Thread nD τ).loc main_arg16)) (m ((c : Thread nD τ).loc main_arg17)) (m ((c : Thread nD τ).loc main_arg18)) := by
  rw [Chain.W9_main_v20, node_value, edge_value m ρ c hja]

/-- Result 1. -/
theorem res1 (c : Dev nD) : W9 m ρ c (Proc.devRef .tc main_v29) = Cert.Tail.tailP (F := Ideal) (mlp (m ((c : Thread nD τ).loc main_arg1)) (m ((c : Thread nD τ).loc main_arg3)) (biasRow (m ((c : Thread nD τ).loc main_arg4))) (m ((c : Thread nD τ).loc main_arg5)) (biasRow (m ((c : Thread nD τ).loc main_arg6))) (m ((c : Thread nD τ).loc main_arg7)) (biasRow (m ((c : Thread nD τ).loc main_arg8)))) (m ((c : Thread nD τ).loc main_arg18)) := by
  rw [Chain.W9_main_v29, node_value]

/-- Result 2. -/
theorem res2 (c : Dev nD) : W9 m ρ c (Proc.devRef .tc main_v41) = Cert.Tail.tailT (F := Ideal) (mlp (m ((c : Thread nD τ).loc main_arg1)) (m ((c : Thread nD τ).loc main_arg3)) (biasRow (m ((c : Thread nD τ).loc main_arg4))) (m ((c : Thread nD τ).loc main_arg5)) (biasRow (m ((c : Thread nD τ).loc main_arg6))) (m ((c : Thread nD τ).loc main_arg7)) (biasRow (m ((c : Thread nD τ).loc main_arg8)))) (m ((c : Thread nD τ).loc main_arg15)) (m ((c : Thread nD τ).loc main_arg16)) (m ((c : Thread nD τ).loc main_arg17)) (m ((c : Thread nD τ).loc main_arg18)) := by
  rw [Chain.W9_main_v41, node_value]

end Cert.KernelIdeal.KValue
end
-- ==== Proof.RMlp.lean ====
/-
  THE REFERENCE'S PERCEPTRONS AT THE EXTENDED REALS. Its node utilities and its edge perceptron are the three-layer
  perceptron, entry by entry: each dot product a sum over the contracted axis, each bias vector a row repeated down
  the rows, each rectifier a maximum with zero.
-/
import proofs.«415585_j20169166422902_1_alg».proof.Proof.RDefs
import proofs.«415585_j20169166422902_1_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

set_option maxRecDepth 16384

noncomputable section

namespace Cert.ReferenceIdeal.RefMath

open Cert.ReferenceIdeal Cert.ReferenceIdeal.RefValue
open Idealize.ShloMosaic Idealize.ShloMosaic.ValueIdx
open Cert.Spec Cert.Lib.Dense

/-- Each printed contraction record is the row-major product of an [M, K] matrix with a [K, N] matrix. -/
theorem dot_node_hidden : dot_S5120x128_S128x128_S5120x128_1_0_0_1_n_n = DotDims.plain 5120 128 128 := rfl
theorem dot_node_out : dot_S5120x128_S128x16_S5120x16_1_0_0_1_n_n = DotDims.plain 5120 128 16 := rfl
theorem dot_edge_in : dot_S97280x192_S192x128_S97280x128_1_0_0_1_n_n = DotDims.plain 97280 192 128 := rfl
theorem dot_edge_hidden : dot_S97280x128_S128x128_S97280x128_1_0_0_1_n_n = DotDims.plain 97280 128 128 := rfl
theorem dot_edge_out : dot_S97280x128_S128x256_S97280x256_1_0_0_1_n_n = DotDims.plain 97280 128 256 := rfl

/-- The maximum with a splat of the zero word is the rectifier, entry by entry. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = fun j => relu (Y j) := by
  funext j
  rw [maximumf_apply, splat0_apply]
  rfl

/-- A dot product plus the bias vector repeated down the rows, then the maximum with zero, is one rectified affine
    layer over the bias row. -/
theorem host_layer {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e : (⟨0, ![]⟩ : Shape).BroadcastsInDim ⟨2, ![M, N]⟩ (![] : Fin 0 → Fin 2)) :
    maximumf (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32))
      = layer X W (biasRow b) := by
  rw [host_affine_row, relu_host]
  rfl

variable (m : (ℓ : Loc nD τ sig) → Buf (Elt Ideal) ℓ) (c : Dev nD)

/-- The reference's node utilities are the perceptron of the node features. -/
theorem refIndiv_eq :
    refIndiv m c = mlp (m ((c.tc : Thread nD τ).loc main_arg1)) (m ((c.tc : Thread nD τ).loc main_arg3)) (biasRow (m ((c.tc : Thread nD τ).loc main_arg4))) (m ((c.tc : Thread nD τ).loc main_arg5)) (biasRow (m ((c.tc : Thread nD τ).loc main_arg6))) (m ((c.tc : Thread nD τ).loc main_arg7)) (biasRow (m ((c.tc : Thread nD τ).loc main_arg8))) := by
  unfold refIndiv mlp
  rw [dot_node_hidden, dot_node_out, host_layer, host_layer, host_affine_row]

/-- The reference's edge perceptron of a feature array. -/
theorem refHidden_eq (x : FVec Ideal S97280x192 .f32) :
    refHidden m c x = mlp x (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14))) := by
  unfold refHidden mlp
  rw [dot_edge_in, dot_edge_hidden, dot_edge_out, host_layer, host_layer, host_affine_row]

end Cert.ReferenceIdeal.RefMath
end
-- ==== Proof.RIdx.lean ====
/-
  THE REFERENCE'S INDEX INTO THE 16 ACTIONS, AT AN ENTRY. The index column repeats each edge's source action over the
  16 rows of the edge's table. When that action lies in [0, 16) it is not negative, so the wrap by 16 leaves it as it
  is (`refWrap3_apply`), and it passes the test 0 ≤ · ≤ 15 (`refMask3_apply`: the `and`-reduction over the one-entry last
  axis of the two comparisons).
-/
import proofs.«415585_j20169166422902_1_alg».proof.Proof.RDefs
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

set_option maxRecDepth 16384

noncomputable section

namespace Cert.ReferenceIdeal.RefIdx

open Cert.ReferenceIdeal Cert.ReferenceIdeal.RefValue Cert.ReferenceIdeal.Gen
open Idealize.ShloMosaic Idealize.ShloMosaic.ValueIdx

variable {F : FTy → Type} [FloatOps F]
variable (m : (ℓ : Loc nD τ sig) → Buf (Elt F) ℓ) (c : Dev nD)

/-- The index column at row a of edge e is the edge's source action: both broadcasts keep the edge coordinate. -/
theorem refIdxCol_apply (e : Fin 97280) (a : Fin 16) :
    refIdxCol m c (ix3 e a (0 : Fin 1)) = refActs m c (ix1 e) := by
  unfold refIdxCol
  generalize refActs m c = y
  refine (broadcastInDim_apply (s := S97280x1x1) (t := S97280x16x1) ![0, 1, 2] bcast_S97280x1x1_S97280x16x1_0_1_2 _
    (ix3 e a (0 : Fin 1)) (ix3 e (0 : Fin 1) (0 : Fin 1)) (fun k => match k with
      | ⟨0, _⟩ => by show (e : Nat) = if (97280 : Nat) = 1 then 0 else (e : Nat); rw [if_neg (by decide)]
      | ⟨1, _⟩ => by show 0 = if (1 : Nat) = 1 then 0 else (a : Nat); rw [if_pos rfl]
      | ⟨2, _⟩ => by show 0 = if (1 : Nat) = 1 then 0 else 0; rw [if_pos rfl])).trans ?_
  exact broadcastInDim_apply (s := S97280) (t := S97280x1x1) ![0] bcast_S97280_S97280x1x1_0 y
    (ix3 e (0 : Fin 1) (0 : Fin 1)) (ix1 e) (fun k => match k with
      | ⟨0, _⟩ => by show (e : Nat) = if (97280 : Nat) = 1 then 0 else (e : Nat); rw [if_neg (by decide)])

/-- The wrapped index at table row a of edge e is the edge's source action, when that action is in range. -/
theorem refWrap3_apply
    (hacts : ∀ e : Fin 97280, 0 ≤ (refActs m c (ix1 e)).toInt ∧ (refActs m c (ix1 e)).toInt < 16)
    (e : Fin 97280) (a : Fin 16) :
    refWrap3 m c (ix4 e a (0 : Fin 1) (0 : Fin 1)) = refActs m c (ix1 e) := by
  unfold refWrap3
  refine (shapeCast_apply _ shapeCasts_S97280x16x1_S97280x16x1x1 (ix4 e a (0 : Fin 1) (0 : Fin 1))
    (ix3 e a (0 : Fin 1)) ?_).trans ?_
  · rw [Shape.rowMajor_val_three, Shape.rowMajor_val_four]
    show ((e : Nat) * 16 + (a : Nat)) * 1 + 0 = (((e : Nat) * 16 + (a : Nat)) * 1 + 0) * 1 + 0
    omega
  · -- the entry is not negative, so the select keeps it
    show Scalar.select (IntOp.cmpi .slt (refIdxCol m c (ix3 e a (0 : Fin 1))) 0#32)
      (IntOp.addi (refIdxCol m c (ix3 e a (0 : Fin 1))) 16#32) (refIdxCol m c (ix3 e a (0 : Fin 1))) = _
    rw [refIdxCol_apply]
    have h0 : ¬ IntOp.cmpi .slt (refActs m c (ix1 e)) 0#32 = 1#1 := by
      rw [IntOp.cmpi_slt, show (0#32 : BitVec 32).toInt = 0 from by decide]
      have := (hacts e).1
      omega
    rw [eq_zero_of_ne_one h0, select_zero]

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | b :: l, h => by
    rw [List.foldl_cons, h b List.mem_cons_self, show IntOp.andi 1#1 1#1 = 1#1 from by decide]
    exact foldl_andi_one f l (fun n hn => h n (List.mem_cons_of_mem _ hn))

/-- The two comparisons both hold at (e, a, 0, 0): the wrapped index is the source action, which is in [0, 15]. -/
theorem refTest_apply
    (hacts : ∀ e : Fin 97280, 0 ≤ (refActs m c (ix1 e)).toInt ∧ (refActs m c (ix1 e)).toInt < 16)
    (e : Fin 97280) (a : Fin 16) :
    andi (cmpi .sge (refWrap3 m c) (broadcastInDim S97280x16x1x1 ![] bcast_S_S97280x16x1x1 (constantI S_ 32 0#32)))
      (cmpi .sle (refWrap3 m c) (broadcastInDim S97280x16x1x1 ![0, 1, 2, 3] bcast_S1x1x1x1_S97280x16x1x1_0_1_2_3
        (broadcastInDim S1x1x1x1 ![3] bcast_S1_S1x1x1x1_3 (constantI S1 32 15#32))))
      (ix4 e a (0 : Fin 1) (0 : Fin 1)) = 1#1 := by
  show IntOp.andi (IntOp.cmpi .sge (refWrap3 m c (ix4 e a (0 : Fin 1) (0 : Fin 1))) 0#32)
    (IntOp.cmpi .sle (refWrap3 m c (ix4 e a (0 : Fin 1) (0 : Fin 1))) 15#32) = 1#1
  rw [refWrap3_apply m c hacts, IntOp.andi_eq_one, IntOp.cmpi_sge, IntOp.cmpi_sle,
    show (0#32 : BitVec 32).toInt = 0 from by decide, show (15#32 : BitVec 32).toInt = 15 from by decide]
  have := hacts e
  omega

/-- The range test passes at every table row of every edge, when the source actions are in range. -/
theorem refMask3_apply
    (hacts : ∀ e : Fin 97280, 0 ≤ (refActs m c (ix1 e)).toInt ∧ (refActs m c (ix1 e)).toInt < 16)
    (e : Fin 97280) (a : Fin 16) :
    refMask3 m c (ix3 e a (0 : Fin 1)) = 1#1 := by
  unfold refMask3
  rw [Host.reduce_eq_foldl]
  refine foldl_andi_one _ _ (fun i hi => ?_)
  have hd : reducesTo_S97280x16x1x1_S97280x16x1_d3.drop i = ix3 e a (0 : Fin 1) :=
    of_decide_eq_true (List.mem_filter.1 hi).2
  obtain ⟨p, q, r, s, rfl⟩ : ∃ p q r s, i = ix4 p q r s := ⟨i 0, i 1, i 2, i 3, eq_ix4 i⟩
  have e0 : (e : Nat) = p := by
    have h := reducesTo_S97280x16x1x1_S97280x16x1_d3.drop_apply_val_of_eq (ix4 p q r s) 0 0
    rw [hd] at h; exact h
  have e1 : (a : Nat) = q := by
    have h := reducesTo_S97280x16x1x1_S97280x16x1_d3.drop_apply_val_of_eq (ix4 p q r s) 1 1
    rw [hd] at h; exact h
  obtain rfl : e = p := Fin.ext e0
  obtain rfl : a = q := Fin.ext e1
  obtain rfl : r = 0 := Subsingleton.elim _ _
  obtain rfl : s = 0 := Subsingleton.elim _ _
  exact refTest_apply m c hacts e a

end Cert.ReferenceIdeal.RefIdx
end
-- ==== Proof.RUmsg.lean ====
/-
  THE REFERENCE'S EDGE MESSAGES AT THE EXTENDED REALS. At (e, a), when edge e's source action `s` lies in [0, 16): the
  wrapped index is `s` itself and passes the range test, so the select keeps the gathered entry, which is entry (a, s)
  of the halved, transposed sum: (UC (e, s, a) + UCR (e, a, s)) · ½ = ½ · UC (e, s, a) + ½ · UCR (e, a, s), the tables
  being the edge perceptrons' rows of 256 read as 16 × 16.
-/
import proofs.«415585_j20169166422902_1_alg».proof.Proof.RDefs
import proofs.«415585_j20169166422902_1_alg».proof.Proof.RMlp
import proofs.«415585_j20169166422902_1_alg».proof.Proof.RIdx
import proofs.«415585_j20169166422902_1_alg».proof.Proof.Spec
import proofs.«415585_j20169166422902_1_alg».proof.Proof.Bridge
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

set_option maxRecDepth 16384

noncomputable section

namespace Cert.ReferenceIdeal.RefMath

open Cert.ReferenceIdeal Cert.ReferenceIdeal.RefValue
open Idealize.ShloMosaic Idealize.ShloMosaic.ValueIdx
open Cert.Spec Cert.Lib.Dense
open Cert.ReferenceIdeal.Gen

/-- An action word in [0, 16), read as a signed integer and clamped into [0, 15], is the word itself. -/
theorem clamp_act (v : BitVec 32) (h0 : 0 ≤ v.toInt) (h1 : v.toInt < 16) : min v.toInt.toNat 15 = v.toNat % 16 := by
  have hc := BitVec.toInt_eq_toNat_cond v
  have hlt := v.isLt
  split_ifs at hc <;> omega

section Gather
variable {α : Type}

local notation "G" => gather_S97280x16x16_S97280x16x1x1_S97280x16x1_n_2_01_01_2_3_111

/-- The operand index of result entry (e, a, 0): on the first batching axis, e. -/
theorem gather_coord0 (idx : IVec S97280x16x1x1 32) (e : Fin 97280) (a : Fin 16) :
    (GatherDims.operandIdx G (ix3 e a (0 : Fin 1)) idx (0 : Fin 3)).val = e.val := by
  show GatherDims.start G _ idx (0 : Fin 3) + GatherDims.batchCoord G _ (0 : Fin 3) + GatherDims.offCoord G _ (0 : Fin 3) = e.val
  rw [GatherDims.start_batching G _ _ _ (by decide), GatherDims.offCoord_eq_zero G _ _ (by decide), Nat.zero_add, Nat.add_zero]
  rfl

/-- On the second batching axis, a. -/
theorem gather_coord1 (idx : IVec S97280x16x1x1 32) (e : Fin 97280) (a : Fin 16) :
    (GatherDims.operandIdx G (ix3 e a (0 : Fin 1)) idx (1 : Fin 3)).val = a.val := by
  show GatherDims.start G _ idx (1 : Fin 3) + GatherDims.batchCoord G _ (1 : Fin 3) + GatherDims.offCoord G _ (1 : Fin 3) = a.val
  rw [GatherDims.start_batching G _ _ _ (by decide), GatherDims.offCoord_eq_zero G _ _ (by decide), Nat.zero_add, Nat.add_zero]
  rfl

/-- On the collapsed axis, the index word at (e, a, 0, 0) read signed and clamped into [0, 15]. -/
theorem gather_coord2 (idx : IVec S97280x16x1x1 32) (e : Fin 97280) (a : Fin 16) :
    (GatherDims.operandIdx G (ix3 e a (0 : Fin 1)) idx (2 : Fin 3)).val
      = min (idx (ix4 e a (0 : Fin 1) (0 : Fin 1))).toInt.toNat 15 := by
  show GatherDims.start G _ idx (2 : Fin 3) + GatherDims.batchCoord G _ (2 : Fin 3) + GatherDims.offCoord G _ (2 : Fin 3) = _
  rw [GatherDims.batchCoord_eq_zero G _ _ (by decide), GatherDims.offCoord_eq_zero G _ _ (by decide), Nat.add_zero]
  unfold GatherDims.start
  rw [dif_pos (show (2 : Fin 3) ∈ GatherDims.startIndexMap G by decide)]
  have hsi : GatherDims.siIdx G (ix3 e a (0 : Fin 1)) ⟨List.idxOf (2 : Fin 3) (GatherDims.startIndexMap G),
      List.idxOf_lt_length_iff.2 (by decide)⟩ = ix4 e a (0 : Fin 1) (0 : Fin 1) := by
    funext b; refine Fin.ext ?_
    match b with
    | ⟨0, _⟩ => rfl
    | ⟨1, _⟩ => rfl
    | ⟨2, _⟩ => rfl
    | ⟨3, _⟩ => rfl
  rw [hsi]
  rfl

/-- THE GATHER ALONG THE LAST AXIS of a [97280, 16, 16] array, batched over the first two axes: entry (e, a, 0) is the
    operand's entry (e, a, k), where k is the index word at (e, a, 0, 0) read signed and clamped into [0, 15]. -/
theorem gather_last_apply (x : S97280x16x16.Idx → α) (idx : IVec S97280x16x1x1 32) (e : Fin 97280) (a k : Fin 16)
    (hk : min (idx (ix4 e a (0 : Fin 1) (0 : Fin 1))).toInt.toNat 15 = k.val) :
    Host.gather G x idx (ix3 e a (0 : Fin 1)) = x (ix3 e a k) := by
  unfold Host.gather
  refine congrArg x (funext fun b => Fin.ext ?_)
  match b with
  | ⟨0, _⟩ => exact gather_coord0 idx e a
  | ⟨1, _⟩ => exact gather_coord1 idx e a
  | ⟨2, _⟩ => exact (gather_coord2 idx e a).trans hk

/-- A row of 256 read as a 16 × 16 table: entry (b, a) of the table is entry 16 b + a of the row. -/
theorem reshape_table_apply (y : S97280x256.Idx → α) (e : Fin 97280) (b a : Fin 16) :
    shapeCast S97280x16x16 y shapeCasts_S97280x256_S97280x16x16 (ix3 e b a) = y (ix2 e (flat b a)) := by
  refine shapeCast_apply y _ (ix3 e b a) (ix2 e (flat b a)) ?_
  rw [Shape.rowMajor_val_two, Shape.rowMajor_val_three]
  show e.val * 256 + (16 * b.val + a.val) = (e.val * 16 + b.val) * 16 + a.val
  omega

/-- Dropping the trailing unit axis: entry (e, a) is entry (e, a, 0). -/
theorem reshape_drop_apply (y : S97280x16x1.Idx → α) (e : Fin 97280) (a : Fin 16) :
    shapeCast S97280x16 y shapeCasts_S97280x16x1_S97280x16 (ix2 e a) = y (ix3 e a (0 : Fin 1)) := by
  refine shapeCast_apply y _ (ix2 e a) (ix3 e a (0 : Fin 1)) ?_
  rw [Shape.rowMajor_val_two, Shape.rowMajor_val_three]
  show (e.val * 16 + a.val) * 1 + 0 = e.val * 16 + a.val
  omega

end Gather

variable (m : (ℓ : Loc nD τ sig) → Buf (Elt Ideal) ℓ) (c : Dev nD)

/-- The first table's entry (b, a) of edge e is the perceptron's entry (e, 16 b + a). -/
theorem refUC_apply (e : Fin 97280) (b a : Fin 16) :
    refUC m c (ix3 e b a)
      = mlp (m ((c.tc : Thread nD τ).loc main_arg0)) (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14))) (ix2 e (flat b a)) := by
  unfold refUC
  rw [reshape_table_apply, refHidden_eq]

/-- The second table's entry (b, a) of edge e, likewise. -/
theorem refUCR_apply (e : Fin 97280) (b a : Fin 16) :
    refUCR m c (ix3 e b a)
      = mlp (m ((c.tc : Thread nD τ).loc main_arg2)) (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14))) (ix2 e (flat b a)) := by
  unfold refUCR
  rw [reshape_table_apply, refHidden_eq]

/-- The halved, transposed sum at (e, a, k): (UC (e, k, a) + UCR (e, a, k)) · ½. -/
theorem refUtil_apply (e : Fin 97280) (a k : Fin 16) :
    refUtil m c (ix3 e a k) = (refUC m c (ix3 e k a) + refUCR m c (ix3 e a k)) * half := by
  unfold refUtil
  refine (transpose_apply [0, 2, 1] _ transposes_S97280x16x16_S97280x16x16_0_2_1 (ix3 e a k) (ix3 e k a) ?_).trans ?_
  · intro b
    match b with
    | ⟨0, _⟩ => rfl
    | ⟨1, _⟩ => rfl
    | ⟨2, _⟩ => rfl
  show (refUC m c (ix3 e k a) + transpose S97280x16x16 [0, 2, 1] (refUCR m c) transposes_S97280x16x16_S97280x16x16_0_2_1 (ix3 e k a))
      * broadcastInDim S97280x16x16 ![] bcast_S_S97280x16x16 (constant (F := Ideal) S_ .f32 0x3F000000#32) (ix3 e k a) = _
  rw [splat0_apply, transpose_apply [0, 2, 1] (refUCR m c) transposes_S97280x16x16_S97280x16x16_0_2_1 (ix3 e k a) (ix3 e a k)
    (fun b => match b with
      | ⟨0, _⟩ => rfl
      | ⟨1, _⟩ => rfl
      | ⟨2, _⟩ => rfl)]
  rfl

/-- The reference's edge messages, when every edge's source action lies in [0, 16): the selected form. -/
theorem refUmsg_eq
    (hacts : ∀ e : Fin 97280, 0 ≤ (refActs m c (ix1 e)).toInt ∧ (refActs m c (ix1 e)).toInt < 16) :
    refUmsg m c
      = umsg (mlp (m ((c.tc : Thread nD τ).loc main_arg0)) (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14))))
          (mlp (m ((c.tc : Thread nD τ).loc main_arg2)) (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14))))
          (fun e => Cert.Bridge.actFin (refActs m c (ix1 e))) := by
  funext j
  obtain ⟨e, a, rfl⟩ : ∃ e a, j = ix2 e a := ⟨j 0, j 1, eq_ix2 j⟩
  unfold refUmsg
  rw [reshape_drop_apply, select_apply, RefIdx.refMask3_apply m c hacts e a, select_one,
    gather_last_apply (refUtil m c) (refWrap3 m c) e a (Cert.Bridge.actFin (refActs m c (ix1 e)))
      (by rw [RefIdx.refWrap3_apply m c hacts e a]; exact clamp_act _ (hacts e).1 (hacts e).2),
    refUtil_apply, refUC_apply, refUCR_apply, half_add]
  rfl

end Cert.ReferenceIdeal.RefMath
end
-- ==== Proof.RValue.lean ====
/-
  THE REFERENCE'S NODE UTILITIES AND EDGE MESSAGES AS FUNCTIONS OF ITS ARGUMENT ARRAYS, at the extended reals, in the
  same terms as the kernel program's: the perceptron of the node features; the selected edge message at the source
  actions `joint_acts[src]`, which lie in [0, 16) because every joint action does.
-/
import proofs.«415585_j20169166422902_1_alg».proof.Proof.RDefs
import proofs.«415585_j20169166422902_1_alg».proof.Proof.RMlp
import proofs.«415585_j20169166422902_1_alg».proof.Proof.RUmsg
import proofs.«415585_j20169166422902_1_alg».proof.Proof.Bridge
import proofs.«415585_j20169166422902_1_alg».proof.Proof.Spec

set_option maxRecDepth 16384

noncomputable section

namespace Cert.ReferenceIdeal.RValue

open Cert.ReferenceIdeal Cert.ReferenceIdeal.RefValue
open Idealize.ShloMosaic Idealize.ShloMosaic.ValueIdx
open Cert.Spec Cert.Lib.Dense

variable (m : (ℓ : Loc nD τ sig) → Buf (Elt Ideal) ℓ) (c : Dev nD)

/-- The reference's node utilities. -/
theorem ref_indiv : refIndiv m c = (mlp (m ((c.tc : Thread nD τ).loc main_arg1)) (m ((c.tc : Thread nD τ).loc main_arg3)) (biasRow (m ((c.tc : Thread nD τ).loc main_arg4))) (m ((c.tc : Thread nD τ).loc main_arg5)) (biasRow (m ((c.tc : Thread nD τ).loc main_arg6))) (m ((c.tc : Thread nD τ).loc main_arg7)) (biasRow (m ((c.tc : Thread nD τ).loc main_arg8)))) := RefMath.refIndiv_eq m c

/-- The reference's source actions lie in [0, 16). -/
theorem ref_acts_range (hja : ∀ n : Fin 5120, 0 ≤ ((m ((c.tc : Thread nD τ).loc main_arg18) : IVec S5120 32) (ix1 n)).toInt ∧ ((m ((c.tc : Thread nD τ).loc main_arg18) : IVec S5120 32) (ix1 n)).toInt < 16) (e : Fin 97280) :
    0 ≤ (refActs m c (ix1 e)).toInt ∧ (refActs m c (ix1 e)).toInt < 16 := by
  rw [refActs_eq]
  exact Cert.Bridge.acts_range _ _ hja e

/-- The reference's edge messages. -/
theorem ref_umsg (hja : ∀ n : Fin 5120, 0 ≤ ((m ((c.tc : Thread nD τ).loc main_arg18) : IVec S5120 32) (ix1 n)).toInt ∧ ((m ((c.tc : Thread nD τ).loc main_arg18) : IVec S5120 32) (ix1 n)).toInt < 16) : refUmsg m c = (umsg (mlp (m ((c.tc : Thread nD τ).loc main_arg0)) (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14)))) (mlp (m ((c.tc : Thread nD τ).loc main_arg2)) (m ((c.tc : Thread nD τ).loc main_arg9)) (biasRow (m ((c.tc : Thread nD τ).loc main_arg10))) (m ((c.tc : Thread nD τ).loc main_arg11)) (biasRow (m ((c.tc : Thread nD τ).loc main_arg12))) (m ((c.tc : Thread nD τ).loc main_arg13)) (biasRow (m ((c.tc : Thread nD τ).loc main_arg14)))) (fun e => Cert.Bridge.actFin (Cert.Tail.actsOf (m ((c.tc : Thread nD τ).loc main_arg15)) (m ((c.tc : Thread nD τ).loc main_arg18)) (ix1 e)))) := by
  rw [RefMath.refUmsg_eq m c (ref_acts_range m c hja), refActs_eq]

end Cert.ReferenceIdeal.RValue
end
-- ==== Proof.PreDecode.lean ====
/-
  THE PRECONDITION, READ: it is a conjunction folded by `and`; its last conjunct says that every joint action is at
  least 0 and below 16 (the `and`-reduction over all nodes of the two comparisons).
-/
import proofs.«415585_j20169166422902_1_alg».proof.Proof.Gen.Pre_finite_inputs
import Idealize.ShloMosaic.Lib.ReduceAll
import Idealize.ShloMosaic.Lib.ValueIdx
import Idealize.ShloMosaic.PureOps.Ideal

noncomputable section
namespace Cert.PreDecode
open Idealize.ShloMosaic Idealize.ShloMosaic.ValueIdx Cert.Pre_finite_inputs

/-- Under the precondition every joint action lies in [0, 16). -/
theorem ja_range (a0 : FVec Ideal S97280x192 .f32) (a1 : FVec Ideal S5120x128 .f32) (a2 : FVec Ideal S97280x192 .f32)
    (a3 : FVec Ideal S128x128 .f32) (a4 : FVec Ideal S128 .f32) (a5 : FVec Ideal S128x128 .f32) (a6 : FVec Ideal S128 .f32)
    (a7 : FVec Ideal S128x16 .f32) (a8 : FVec Ideal S16 .f32) (a9 : FVec Ideal S192x128 .f32) (a10 : FVec Ideal S128 .f32)
    (a11 : FVec Ideal S128x128 .f32) (a12 : FVec Ideal S128 .f32) (a13 : FVec Ideal S128x256 .f32) (a14 : FVec Ideal S256 .f32)
    (a15 a16 : IVec S97280 32) (a17 a18 : IVec S5120 32)
    (h : Cert.Pre_finite_inputs.fn (F := Ideal) a0 a1 a2 a3 a4 a5 a6 a7 a8 a9 a10 a11 a12 a13 a14 a15 a16 a17 a18 = (fun _ => 1#1)) :
    ∀ n : Fin 5120, 0 ≤ (a18 (ix1 n)).toInt ∧ (a18 (ix1 n)).toInt < 16 := by
  intro n
  have h0 := congrFun h ValueIdx.ix0
  dsimp only [fn, fn_part1, fn_part2, fn_part3, fn_part4] at h0
  -- the last conjunct of the folded conjunction: the reduction by `and` over all nodes
  have h1 := (IntOp.andi_eq_one.1 h0).2
  haveI : Subsingleton S_.Idx := ⟨fun a b => funext fun d => d.elim0⟩
  -- so the two comparisons hold at node n
  have h2 := Host.reduce_andi_all _ _ _ _ _ h1 (ix1 n)
  obtain ⟨hge, hlt⟩ := IntOp.andi_eq_one.1 h2
  -- a splat constant reads the constant at every index
  have hge' : (0#32 : BitVec 32).toInt ≤ (a18 (ix1 n)).toInt := IntOp.cmpi_sge.1 hge
  have hlt' : (a18 (ix1 n)).toInt < (16#32 : BitVec 32).toInt := IntOp.cmpi_slt.1 hlt
  have e0 : (0#32 : BitVec 32).toInt = 0 := by decide
  have e16 : (16#32 : BitVec 32).toInt = 16 := by decide
  rw [e0] at hge'
  rw [e16] at hlt'
  exact ⟨hge', hlt'⟩

end Cert.PreDecode
end
-- ==== Proof.lean ====
/-
  THE CERTIFICATE: a graph-network utility kernel against its jnp reference, over the extended reals.

  Both programs compute, from node features, two arrays of edge features, six weight and six bias arrays and four
  integer arrays (edge sources `src`, edge destinations `dst`, the batch of each node and the joint action of each node):
  the node utilities, a three-layer perceptron of the node features; for each edge two 16 × 16 tables, the same kind of
  perceptron of the edge features and of the reflected edge features; the edge message
      u (e, a) = ½ · UC (e, s, a) + ½ · UCR (e, a, s),   s = joint_acts[src[e]];
  and then, by the same host operations in both programs, the three results (segment sums over incoming edges and
  over batches, the entry of a node's row at the node's own action).

  The kernel program computes the perceptrons in two kernel regions (products into zero accumulators, bias rows,
  rectifiers; at the extended reals a product into a zero accumulator is the host's dot product, and the changes of
  float format are the identity) and selects with the indicator weights of `s`: a sum over the 16 actions in which
  every term but one is `0 · x = 0`. The reference adds the two tables, the second transposed, halves, transposes and
  takes the entry at `s` along the last axis; `(x + y) · ½ = ½ · x + ½ · y` for every pair of extended reals. The two
  agree where `s` is an action, that is under the precondition's conjunct 0 ≤ joint_acts < 16 (outside it the reference's
  take is out of range); no finiteness of the float inputs is used.

  The frames of the two kernel programs are the generated ones; the reference's frame is its generated run with the
  results dropped; the idealization's ledger is empty.
-/
import proofs.«415585_j20169166422902_1_alg».proof.Defs
import proofs.«415585_j20169166422902_1_alg».proof.Proof.Gen.Kernel
import proofs.«415585_j20169166422902_1_alg».proof.Proof.Gen.Kernel.Skeleton
import proofs.«415585_j20169166422902_1_alg».proof.Proof.Gen.Kernel.Launch
import proofs.«415585_j20169166422902_1_alg».proof.Proof.Gen.Kernel.Points
import proofs.«415585_j20169166422902_1_alg».proof.Proof.Gen.Kernel.Frame
import proofs.«415585_j20169166422902_1_alg».proof.Proof.Gen.KernelIdeal
import proofs.«415585_j20169166422902_1_alg».proof.Proof.Gen.KernelIdeal.Skeleton
import proofs.«415585_j20169166422902_1_alg».proof.Proof.Gen.KernelIdeal.Launch
import proofs.«415585_j20169166422902_1_alg».proof.Proof.Gen.KernelIdeal.Points
import proofs.«415585_j20169166422902_1_alg».proof.Proof.Gen.KernelIdeal.Frame
import proofs.«415585_j20169166422902_1_alg».proof.Proof.Gen.ReferenceIdeal
import proofs.«415585_j20169166422902_1_alg».proof.Proof.Gen.Pre_finite_inputs
import proofs.«415585_j20169166422902_1_alg».proof.Proof.ROps
import proofs.«415585_j20169166422902_1_alg».proof.Proof.RChain
import proofs.«415585_j20169166422902_1_alg».proof.Proof.RArgs
import proofs.«415585_j20169166422902_1_alg».proof.Proof.KRun
import proofs.«415585_j20169166422902_1_alg».proof.Proof.KValue
import proofs.«415585_j20169166422902_1_alg».proof.Proof.RValue
import proofs.«415585_j20169166422902_1_alg».proof.Proof.PreDecode
import Idealize.ShloMosaic.Adequacy
import Idealize.ShloMosaic.Init

set_option maxRecDepth 16384

noncomputable section

namespace Cert.Proof

open Idealize.ShloMosaic Idealize.SL.Sem
open Idealize.ShloMosaic.ValueIdx
open Cert.Spec Cert.Lib.Dense

/-- Result 0 as a function of the nineteen argument arrays: per batch, the sum over its nodes of the node utility plus
    half the summed incoming edge messages, at the node's own action. -/
def out0 (a0 : Mat 97280 192) (a1 : Mat 5120 128) (a2 : Mat 97280 192) (a3 : Mat 128 128) (a4 : (⟨1, ![128]⟩ : Shape).Idx → EReal)
    (a5 : Mat 128 128) (a6 : (⟨1, ![128]⟩ : Shape).Idx → EReal) (a7 : Mat 128 16) (a8 : (⟨1, ![16]⟩ : Shape).Idx → EReal) (a9 : Mat 192 128)
    (a10 : (⟨1, ![128]⟩ : Shape).Idx → EReal) (a11 : Mat 128 128) (a12 : (⟨1, ![128]⟩ : Shape).Idx → EReal) (a13 : Mat 128 256)
    (a14 : (⟨1, ![256]⟩ : Shape).Idx → EReal) (a15 a16 : IVec Cert.KernelIdeal.S97280 32) (a17 a18 : IVec Cert.KernelIdeal.S5120 32) : FVec Ideal Cert.KernelIdeal.S256x1 .f32 :=
  Cert.Tail.tailQ (F := Ideal) (mlp a1 a3 (biasRow a4) a5 (biasRow a6) a7 (biasRow a8)) (umsg (mlp a0 a9 (biasRow a10) a11 (biasRow a12) a13 (biasRow a14)) (mlp a2 a9 (biasRow a10) a11 (biasRow a12) a13 (biasRow a14)) (fun e => Cert.Bridge.actFin (Cert.Tail.actsOf a15 a18 (ix1 e)))) a16 a17 a18

/-- Result 1: the node utility at the node's own action. -/
def out1 (a0 : Mat 97280 192) (a1 : Mat 5120 128) (a2 : Mat 97280 192) (a3 : Mat 128 128) (a4 : (⟨1, ![128]⟩ : Shape).Idx → EReal)
    (a5 : Mat 128 128) (a6 : (⟨1, ![128]⟩ : Shape).Idx → EReal) (a7 : Mat 128 16) (a8 : (⟨1, ![16]⟩ : Shape).Idx → EReal) (a9 : Mat 192 128)
    (a10 : (⟨1, ![128]⟩ : Shape).Idx → EReal) (a11 : Mat 128 128) (a12 : (⟨1, ![128]⟩ : Shape).Idx → EReal) (a13 : Mat 128 256)
    (a14 : (⟨1, ![256]⟩ : Shape).Idx → EReal) (a15 a16 : IVec Cert.KernelIdeal.S97280 32) (a17 a18 : IVec Cert.KernelIdeal.S5120 32) : FVec Ideal Cert.KernelIdeal.S5120x1 .f32 :=
  Cert.Tail.tailP (F := Ideal) (mlp a1 a3 (biasRow a4) a5 (biasRow a6) a7 (biasRow a8)) a18

/-- Result 2: the first-of-batch target plus its sum over incoming edges. -/
def out2 (a0 : Mat 97280 192) (a1 : Mat 5120 128) (a2 : Mat 97280 192) (a3 : Mat 128 128) (a4 : (⟨1, ![128]⟩ : Shape).Idx → EReal)
    (a5 : Mat 128 128) (a6 : (⟨1, ![128]⟩ : Shape).Idx → EReal) (a7 : Mat 128 16) (a8 : (⟨1, ![16]⟩ : Shape).Idx → EReal) (a9 : Mat 192 128)
    (a10 : (⟨1, ![128]⟩ : Shape).Idx → EReal) (a11 : Mat 128 128) (a12 : (⟨1, ![128]⟩ : Shape).Idx → EReal) (a13 : Mat 128 256)
    (a14 : (⟨1, ![256]⟩ : Shape).Idx → EReal) (a15 a16 : IVec Cert.KernelIdeal.S97280 32) (a17 a18 : IVec Cert.KernelIdeal.S5120 32) : FVec Ideal Cert.KernelIdeal.S5120x1 .f32 :=
  Cert.Tail.tailT (F := Ideal) (mlp a1 a3 (biasRow a4) a5 (biasRow a6) a7 (biasRow a8)) a15 a16 a17 a18

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, read at the argument buffers. -/
theorem frame_referenceIdeal : Cert.frame_ReferenceIdeal := fun m ρ _ =>
  (θ_run Cert.ReferenceIdeal.defs _ _).mono (fun _ h c =>
   ⟨(h c Cert.ReferenceIdeal.main_arg0).trans (Cert.ReferenceIdeal.RArgs.RG_main_arg0 m c),
    (h c Cert.ReferenceIdeal.main_arg1).trans (Cert.ReferenceIdeal.RArgs.RG_main_arg1 m c),
    (h c Cert.ReferenceIdeal.main_arg2).trans (Cert.ReferenceIdeal.RArgs.RG_main_arg2 m c),
    (h c Cert.ReferenceIdeal.main_arg3).trans (Cert.ReferenceIdeal.RArgs.RG_main_arg3 m c),
    (h c Cert.ReferenceIdeal.main_arg4).trans (Cert.ReferenceIdeal.RArgs.RG_main_arg4 m c),
    (h c Cert.ReferenceIdeal.main_arg5).trans (Cert.ReferenceIdeal.RArgs.RG_main_arg5 m c),
    (h c Cert.ReferenceIdeal.main_arg6).trans (Cert.ReferenceIdeal.RArgs.RG_main_arg6 m c),
    (h c Cert.ReferenceIdeal.main_arg7).trans (Cert.ReferenceIdeal.RArgs.RG_main_arg7 m c),
    (h c Cert.ReferenceIdeal.main_arg8).trans (Cert.ReferenceIdeal.RArgs.RG_main_arg8 m c),
    (h c Cert.ReferenceIdeal.main_arg9).trans (Cert.ReferenceIdeal.RArgs.RG_main_arg9 m c),
    (h c Cert.ReferenceIdeal.main_arg10).trans (Cert.ReferenceIdeal.RArgs.RG_main_arg10 m c),
    (h c Cert.ReferenceIdeal.main_arg11).trans (Cert.ReferenceIdeal.RArgs.RG_main_arg11 m c),
    (h c Cert.ReferenceIdeal.main_arg12).trans (Cert.ReferenceIdeal.RArgs.RG_main_arg12 m c),
    (h c Cert.ReferenceIdeal.main_arg13).trans (Cert.ReferenceIdeal.RArgs.RG_main_arg13 m c),
    (h c Cert.ReferenceIdeal.main_arg14).trans (Cert.ReferenceIdeal.RArgs.RG_main_arg14 m c),
    (h c Cert.ReferenceIdeal.main_arg15).trans (Cert.ReferenceIdeal.RArgs.RG_main_arg15 m c),
    (h c Cert.ReferenceIdeal.main_arg16).trans (Cert.ReferenceIdeal.RArgs.RG_main_arg16 m c),
    (h c Cert.ReferenceIdeal.main_arg17).trans (Cert.ReferenceIdeal.RArgs.RG_main_arg17 m c),
    (h c Cert.ReferenceIdeal.main_arg18).trans (Cert.ReferenceIdeal.RArgs.RG_main_arg18 m c)⟩)
    (Cert.ReferenceIdeal.Value.run_stretches (F := Ideal) m ρ)

set_option maxHeartbeats 4000000 in
/-- The two idealized programs, from memories that agree on the arguments, end with equal results: each result is the
    shared tail of the node utilities and the edge messages, and those are the same functions of the arguments in
    both programs once every joint action is an action. -/
theorem algebraic : Cert.algebraic_KernelIdeal_ReferenceIdeal := by
  intro m ρ m' ρ' hpre hagree
  have hja : ∀ (c : Dev Cert.KernelIdeal.nD) (n : Fin 5120),
      0 ≤ ((m ((c.tc : Thread Cert.KernelIdeal.nD Cert.KernelIdeal.τ).loc Cert.KernelIdeal.main_arg18) : IVec Cert.KernelIdeal.S5120 32) (ix1 n)).toInt
        ∧ ((m ((c.tc : Thread Cert.KernelIdeal.nD Cert.KernelIdeal.τ).loc Cert.KernelIdeal.main_arg18) : IVec Cert.KernelIdeal.S5120 32) (ix1 n)).toInt < 16 :=
    fun c => Cert.PreDecode.ja_range _ _ _ _ _ _ _ _ _ _ _ _ _ _ _ _ _ _ _ (hpre c)
  refine ⟨fun c => out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.Run.run (F := Ideal) m ρ)
    obtain ⟨h0, h1, h2, hargs⟩ := h c
    exact ⟨h0.trans (Cert.KernelIdeal.KValue.res0 m ρ c (hja c)), h1.trans (Cert.KernelIdeal.KValue.res1 m ρ c),
      h2.trans (Cert.KernelIdeal.KValue.res2 m ρ c), hargs⟩
  · refine (θ_run Cert.ReferenceIdeal.defs _ _).mono (fun r h c => ?_) (Cert.ReferenceIdeal.Value.run_stretches (F := Ideal) m' ρ')
    obtain ⟨e0, e1, e2, e3, e4, e5, e6, e7, e8, e9, e10, e11, e12, e13, e14, e15, e16, e17, e18⟩ := hagree c
    have hja' : ∀ n : Fin 5120,
        0 ≤ ((m' ((c.tc : Thread Cert.ReferenceIdeal.nD Cert.ReferenceIdeal.τ).loc Cert.ReferenceIdeal.main_arg18) : IVec Cert.ReferenceIdeal.S5120 32) (ix1 n)).toInt
          ∧ ((m' ((c.tc : Thread Cert.ReferenceIdeal.nD Cert.ReferenceIdeal.τ).loc Cert.ReferenceIdeal.main_arg18) : IVec Cert.ReferenceIdeal.S5120 32) (ix1 n)).toInt < 16 := by
      rw [e18]; exact hja c
    refine ⟨(h c Cert.ReferenceIdeal.main_v70).trans ?_, (h c Cert.ReferenceIdeal.main_v79).trans ?_, (h c Cert.ReferenceIdeal.main_v91).trans ?_,
      (h c Cert.ReferenceIdeal.main_arg0).trans (Cert.ReferenceIdeal.RArgs.RG_main_arg0 m' c),
      (h c Cert.ReferenceIdeal.main_arg1).trans (Cert.ReferenceIdeal.RArgs.RG_main_arg1 m' c),
      (h c Cert.ReferenceIdeal.main_arg2).trans (Cert.ReferenceIdeal.RArgs.RG_main_arg2 m' c),
      (h c Cert.ReferenceIdeal.main_arg3).trans (Cert.ReferenceIdeal.RArgs.RG_main_arg3 m' c),
      (h c Cert.ReferenceIdeal.main_arg4).trans (Cert.ReferenceIdeal.RArgs.RG_main_arg4 m' c),
      (h c Cert.ReferenceIdeal.main_arg5).trans (Cert.ReferenceIdeal.RArgs.RG_main_arg5 m' c),
      (h c Cert.ReferenceIdeal.main_arg6).trans (Cert.ReferenceIdeal.RArgs.RG_main_arg6 m' c),
      (h c Cert.ReferenceIdeal.main_arg7).trans (Cert.ReferenceIdeal.RArgs.RG_main_arg7 m' c),
      (h c Cert.ReferenceIdeal.main_arg8).trans (Cert.ReferenceIdeal.RArgs.RG_main_arg8 m' c),
      (h c Cert.ReferenceIdeal.main_arg9).trans (Cert.ReferenceIdeal.RArgs.RG_main_arg9 m' c),
      (h c Cert.ReferenceIdeal.main_arg10).trans (Cert.ReferenceIdeal.RArgs.RG_main_arg10 m' c),
      (h c Cert.ReferenceIdeal.main_arg11).trans (Cert.ReferenceIdeal.RArgs.RG_main_arg11 m' c),
      (h c Cert.ReferenceIdeal.main_arg12).trans (Cert.ReferenceIdeal.RArgs.RG_main_arg12 m' c),
      (h c Cert.ReferenceIdeal.main_arg13).trans (Cert.ReferenceIdeal.RArgs.RG_main_arg13 m' c),
      (h c Cert.ReferenceIdeal.main_arg14).trans (Cert.ReferenceIdeal.RArgs.RG_main_arg14 m' c),
      (h c Cert.ReferenceIdeal.main_arg15).trans (Cert.ReferenceIdeal.RArgs.RG_main_arg15 m' c),
      (h c Cert.ReferenceIdeal.main_arg16).trans (Cert.ReferenceIdeal.RArgs.RG_main_arg16 m' c),
      (h c Cert.ReferenceIdeal.main_arg17).trans (Cert.ReferenceIdeal.RArgs.RG_main_arg17 m' c),
      (h c Cert.ReferenceIdeal.main_arg18).trans (Cert.ReferenceIdeal.RArgs.RG_main_arg18 m' c)⟩
    · refine (Cert.ReferenceIdeal.RChain.RG_main_v70 m' c).trans ?_
      rw [Cert.ReferenceIdeal.RValue.ref_indiv, Cert.ReferenceIdeal.RValue.ref_umsg m' c hja']
      show out0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      rw [e0, e1, e2, e3, e4, e5, e6, e7, e8, e9, e10, e11, e12, e13, e14, e15, e16, e17, e18]
    · refine (Cert.ReferenceIdeal.RChain.RG_main_v79 m' c).trans ?_
      rw [Cert.ReferenceIdeal.RValue.ref_indiv]
      show out1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      rw [e0, e1, e2, e3, e4, e5, e6, e7, e8, e9, e10, e11, e12, e13, e14, e15, e16, e17, e18]
    · refine (Cert.ReferenceIdeal.RChain.RG_main_v91 m' c).trans ?_
      rw [Cert.ReferenceIdeal.RValue.ref_indiv]
      show out2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
